-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x1024 : Shape := ⟨3, ![2, 4096, 1024]⟩
abbrev S3072x1024 : Shape := ⟨2, ![3072, 1024]⟩
abbrev S3072 : Shape := ⟨1, ![3072]⟩
abbrev S16x1024 : Shape := ⟨2, ![16, 1024]⟩
abbrev S1024x16 : Shape := ⟨2, ![1024, 16]⟩
abbrev S_ : Shape := ⟨0, ![]⟩

class Facts : Prop where
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S16x1024 : S_.BroadcastsInDim S16x1024 (![] : Fin 0 → Fin S16x1024.rank)
  reducesTo_S16x1024_S_d0_1 : S16x1024.ReducesTo [0, 1] S_
  bcast_S_S1024x16 : S_.BroadcastsInDim S1024x16 (![] : Fin 0 → Fin S1024x16.rank)
  reducesTo_S1024x16_S_d0_1 : S1024x16.ReducesTo [0, 1] S_
  reducesTo_S_S_d : S_.ReducesTo [] S_

variable [Facts]

def fn_part2 {F : FTy → Type} [FloatOps F] (main_arg7 : FVec F S16x1024 .f32) (main_arg8 : FVec F S1024x16 .f32) (main_arg9 : FVec F S_ .f32) (main_v33 : IVec S_ 1) : IVec S_ 1 :=
  let main_v34 : FVec F S16x1024 .f32 := Host.absf main_arg7
  let main_cst_12 : FVec F S_ .f32 := constant S_ .f32 0x7F800000#32
  let main_v35 : FVec F S16x1024 .f32 := broadcastInDim S16x1024 ![] bcast_S_S16x1024 main_cst_12
  let main_v36 : IVec S16x1024 1 := cmpf .olt main_v34 main_v35
  let main_c_13 : IVec S_ 1 := constantI S_ 1 1#1
  let main_v37 : IVec S_ 1 := (fun x v => Host.reduce IntOp.andi x v reducesTo_S16x1024_S_d0_1 h_S_) main_v36 main_c_13
  let main_v38 : IVec S_ 1 := andi main_v33 main_v37
  let main_v39 : FVec F S1024x16 .f32 := Host.absf main_arg8
  let main_cst_14 : FVec F S_ .f32 := constant S_ .f32 0x7F800000#32
  let main_v40 : FVec F S1024x16 .f32 := broadcastInDim S1024x16 ![] bcast_S_S1024x16 main_cst_14
  let main_v41 : IVec S1024x16 1 := cmpf .olt main_v39 main_v40
  let main_c_15 : IVec S_ 1 := constantI S_ 1 1#1
  let main_v42 : IVec S_ 1 := (fun x v => Host.reduce IntOp.andi x v reducesTo_S1024x16_S_d0_1 h_S_) main_v41 main_c_15
  let main_v43 : IVec S_ 1 := andi main_v38 main_v42
  let main_v44 : FVec F S_ .f32 := Host.absf main_arg9
  let main_cst_16 : FVec F S_ .f32 := constant S_ .f32 0x7F800000#32
  let main_v45 : IVec S_ 1 := cmpf .olt main_v44 main_cst_16
  let main_c_17 : IVec S_ 1 := constantI S_ 1 1#1
  let main_v46 : IVec S_ 1 := (fun x v => Host.reduce IntOp.andi x v reducesTo_S_S_d h_S_) main_v45 main_c_17
  let main_v47 : IVec S_ 1 := andi main_v43 main_v46
  main_v47

def fn_part1 {F : FTy → Type} [FloatOps F] (main_arg4 : FVec F S1024x16 .f32) (main_arg5 : FVec F S16x1024 .f32) (main_arg6 : FVec F S1024x16 .f32) (main_arg7 : FVec F S16x1024 .f32) (main_arg8 : FVec F S1024x16 .f32) (main_arg9 : FVec F S_ .f32) (main_v13 : IVec S_ 1) (main_v16 : IVec S16x1024 1) : IVec S_ 1 :=
  let main_c_5 : IVec S_ 1 := constantI S_ 1 1#1
  let main_v17 : IVec S_ 1 := (fun x v => Host.reduce IntOp.andi x v reducesTo_S16x1024_S_d0_1 h_S_) main_v16 main_c_5
  let main_v18 : IVec S_ 1 := andi main_v13 main_v17
  let main_v19 : FVec F S1024x16 .f32 := Host.absf main_arg4
  let main_cst_6 : FVec F S_ .f32 := constant S_ .f32 0x7F800000#32
  let main_v20 : FVec F S1024x16 .f32 := broadcastInDim S1024x16 ![] bcast_S_S1024x16 main_cst_6
  let main_v21 : IVec S1024x16 1 := cmpf .olt main_v19 main_v20
  let main_c_7 : IVec S_ 1 := constantI S_ 1 1#1
  let main_v22 : IVec S_ 1 := (fun x v => Host.reduce IntOp.andi x v reducesTo_S1024x16_S_d0_1 h_S_) main_v21 main_c_7
  let main_v23 : IVec S_ 1 := andi main_v18 main_v22
  let main_v24 : FVec F S16x1024 .f32 := Host.absf main_arg5
  let main_cst_8 : FVec F S_ .f32 := constant S_ .f32 0x7F800000#32
  let main_v25 : FVec F S16x1024 .f32 := broadcastInDim S16x1024 ![] bcast_S_S16x1024 main_cst_8
  let main_v26 : IVec S16x1024 1 := cmpf .olt main_v24 main_v25
  let main_c_9 : IVec S_ 1 := constantI S_ 1 1#1
  let main_v27 : IVec S_ 1 := (fun x v => Host.reduce IntOp.andi x v reducesTo_S16x1024_S_d0_1 h_S_) main_v26 main_c_9
  let main_v28 : IVec S_ 1 := andi main_v23 main_v27
  let main_v29 : FVec F S1024x16 .f32 := Host.absf main_arg6
  let main_cst_10 : FVec F S_ .f32 := constant S_ .f32 0x7F800000#32
  let main_v30 : FVec F S1024x16 .f32 := broadcastInDim S1024x16 ![] bcast_S_S1024x16 main_cst_10
  let main_v31 : IVec S1024x16 1 := cmpf .olt main_v29 main_v30
  let main_c_11 : IVec S_ 1 := constantI S_ 1 1#1
  let main_v32 : IVec S_ 1 := (fun x v => Host.reduce IntOp.andi x v reducesTo_S1024x16_S_d0_1 h_S_) main_v31 main_c_11
  let main_v33 : IVec S_ 1 := andi main_v28 main_v32
  fn_part2 (F := F) main_arg7 main_arg8 main_arg9 main_v33

def fn {F : FTy → Type} [FloatOps F] (main_arg0 : FVec F S2x4096x1024 .f32) (main_arg1 : FVec F S3072x1024 .f32) (main_arg2 : FVec F S3072 .f32) (main_arg3 : FVec F S16x1024 .f32) (main_arg4 : FVec F S1024x16 .f32) (main_arg5 : FVec F S16x1024 .f32) (main_arg6 : FVec F S1024x16 .f32) (main_arg7 : FVec F S16x1024 .f32) (main_arg8 : FVec F S1024x16 .f32) (main_arg9 : FVec F S_ .f32) : IVec S_ 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_c : IVec S_ 1 := constantI S_ 1 1#1
  let main_v3 : IVec S_ 1 := (fun x v => Host.reduce IntOp.andi x v reducesTo_S2x4096x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S16x1024 .f32 := Host.absf main_arg3
  let main_cst_4 : FVec F S_ .f32 := constant S_ .f32 0x7F800000#32
  let main_v15 : FVec F S16x1024 .f32 := broadcastInDim S16x1024 ![] bcast_S_S16x1024 main_cst_4
  let main_v16 : IVec S16x1024 1 := cmpf .olt main_v14 main_v15
  fn_part1 (F := F) main_arg4 main_arg5 main_arg6 main_arg7 main_arg8 main_arg9 main_v13 main_v16
-- ==== Kernel.lean ====
abbrev S2x4096x1024 : Shape := ⟨3, ![2, 4096, 1024]⟩
abbrev S3072x1024 : Shape := ⟨2, ![3072, 1024]⟩
abbrev S3072 : Shape := ⟨1, ![3072]⟩
abbrev S16x1024 : Shape := ⟨2, ![16, 1024]⟩
abbrev S1024x16 : Shape := ⟨2, ![1024, 16]⟩
abbrev S_ : Shape := ⟨0, ![]⟩
abbrev S8192x1024 : Shape := ⟨2, ![8192, 1024]⟩
abbrev S1024x3072 : Shape := ⟨2, ![1024, 3072]⟩
abbrev S1024x48 : Shape := ⟨2, ![1024, 48]⟩
abbrev S1024x128 : Shape := ⟨2, ![1024, 128]⟩
abbrev S16x3072 : Shape := ⟨2, ![16, 3072]⟩
abbrev S48x3072 : Shape := ⟨2, ![48, 3072]⟩
abbrev S128x3072 : Shape := ⟨2, ![128, 3072]⟩
abbrev S1x3072 : Shape := ⟨2, ![1, 3072]⟩
abbrev S8192x3072 : Shape := ⟨2, ![8192, 3072]⟩
abbrev S512x1024 : Shape := ⟨2, ![512, 1024]⟩
abbrev S512x3072 : Shape := ⟨2, ![512, 3072]⟩
abbrev S512x128 : Shape := ⟨2, ![512, 128]⟩
abbrev S2x4096x3072 : Shape := ⟨3, ![2, 4096, 3072]⟩

abbrev nBuf : Space → Nat
  | .hbm => 39
  | .vmem => 8
  | .smem => 0
  | _ => 0

abbrev bufTy : (tb : Table) → Fin (tcTables nBuf tb) → BufTy
  | .hbm, ⟨0, _⟩ => ⟨S2x4096x1024, .f32⟩
  | .hbm, ⟨1, _⟩ => ⟨S3072x1024, .f32⟩
  | .hbm, ⟨2, _⟩ => ⟨S3072, .f32⟩
  | .hbm, ⟨3, _⟩ => ⟨S16x1024, .f32⟩
  | .hbm, ⟨4, _⟩ => ⟨S1024x16, .f32⟩
  | .hbm, ⟨5, _⟩ => ⟨S16x1024, .f32⟩
  | .hbm, ⟨6, _⟩ => ⟨S1024x16, .f32⟩
  | .hbm, ⟨7, _⟩ => ⟨S16x1024, .f32⟩
  | .hbm, ⟨8, _⟩ => ⟨S1024x16, .f32⟩
  | .hbm, ⟨9, _⟩ => ⟨S_, .f32⟩
  | .hbm, ⟨10, _⟩ => ⟨S8192x1024, .f32⟩
  | .hbm, ⟨11, _⟩ => ⟨S1024x3072, .f32⟩
  | .hbm, ⟨12, _⟩ => ⟨S1024x3072, .bf16⟩
  | .hbm, ⟨13, _⟩ => ⟨S1024x16, .f32⟩
  | .hbm, ⟨14, _⟩ => ⟨S1024x16, .f32⟩
  | .hbm, ⟨15, _⟩ => ⟨S1024x16, .f32⟩
  | .hbm, ⟨16, _⟩ => ⟨S1024x48, .f32⟩
  | .hbm, ⟨17, _⟩ => ⟨S_, .i32⟩
  | .hbm, ⟨18, _⟩ => ⟨S_, .f32⟩
  | .hbm, ⟨19, _⟩ => ⟨S1024x128, .f32⟩
  | .hbm, ⟨20, _⟩ => ⟨S1024x128, .bf16⟩
  | .hbm, ⟨21, _⟩ => ⟨S_, .f32⟩
  | .hbm, ⟨22, _⟩ => ⟨S16x1024, .f32⟩
  | .hbm, ⟨23, _⟩ => ⟨S16x1024, .f32⟩
  | .hbm, ⟨24, _⟩ => ⟨S16x1024, .f32⟩
  | .hbm, ⟨25, _⟩ => ⟨S16x1024, .f32⟩
  | .hbm, ⟨26, _⟩ => ⟨S16x3072, .f32⟩
  | .hbm, ⟨27, _⟩ => ⟨S16x3072, .f32⟩
  | .hbm, ⟨28, _⟩ => ⟨S16x3072, .f32⟩
  | .hbm, ⟨29, _⟩ => ⟨S48x3072, .f32⟩
  | .hbm, ⟨30, _⟩ => ⟨S48x3072, .f32⟩
  | .hbm, ⟨31, _⟩ => ⟨S48x3072, .f32⟩
  | .hbm, ⟨32, _⟩ => ⟨S_, .i32⟩
  | .hbm, ⟨33, _⟩ => ⟨S_, .f32⟩
  | .hbm, ⟨34, _⟩ => ⟨S128x3072, .f32⟩
  | .hbm, ⟨35, _⟩ => ⟨S128x3072, .bf16⟩
  | .hbm, ⟨36, _⟩ => ⟨S1x3072, .f32⟩
  | .hbm, ⟨37, _⟩ => ⟨S8192x3072, .f32⟩
  | .hbm, ⟨38, _⟩ => ⟨S2x4096x3072, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1024x128, .bf16⟩
  | .local _ .vmem, ⟨4, _⟩ => ⟨S128x3072, .bf16⟩
  | .local _ .vmem, ⟨5, _⟩ => ⟨S1x3072, .f32⟩
  | .local _ .vmem, ⟨6, _⟩ => ⟨S512x3072, .f32⟩
  | .local _ .vmem, ⟨7, _⟩ => ⟨S512x3072, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_call0_v0 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_0 : Ref sig .tc := ⟨.hbm, 32, rfl⟩
abbrev main_call1_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S2x4096x1024_S8192x1024 : S2x4096x1024.ShapeCasts S8192x1024
  transposes_S3072x1024_S1024x3072_1_0 : S3072x1024.Transposes [1, 0] S1024x3072
  bitsLt_bf16_f32 : FTy.bits .bf16 < FTy.bits .f32
  transposes_S16x1024_S1024x16_1_0 : S16x1024.Transposes [1, 0] S1024x16
  concatenates_S1024x16_S1024x16_S1024x16_S1024x48_d1 : Shape.Concatenates [S1024x16, S1024x16, S1024x16] S1024x48 1
  pads_S1024x48_S1024x128_000_0800 : S1024x48.Pads (![0, 0] : Fin 2 → Nat) ![0, 80] ![0, 0] S1024x128
  h_S_ : 0 < S_.numel
  bcast_S_S16x1024 : S_.BroadcastsInDim S16x1024 (![] : Fin 0 → Fin S16x1024.rank)
  transposes_S1024x16_S16x1024_1_0 : S1024x16.Transposes [1, 0] S16x1024
  concatenates_S16x1024_S16x1024_S16x1024_S16x3072_d1 : Shape.Concatenates [S16x1024, S16x1024, S16x1024] S16x3072 1
  concatenates_S16x3072_S16x3072_S16x3072_S48x3072_d0 : Shape.Concatenates [S16x3072, S16x3072, S16x3072] S48x3072 0
  bcast_S_S48x3072 : S_.BroadcastsInDim S48x3072 (![] : Fin 0 → Fin S48x3072.rank)
  pads_S48x3072_S128x3072_0800_000 : S48x3072.Pads (![0, 0] : Fin 2 → Nat) ![80, 0] ![0, 0] S128x3072
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x3072_S128x3072_0_0 : ∀ a, (![0, 0] : Fin 2 → Nat) a + S128x3072.size a ≤ S128x3072.size a
  h_S128x3072 : 0 < S128x3072.numel
  shapeCasts_S128x3072_S128x3072 : S128x3072.ShapeCasts S128x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  shapeCasts_S8192x3072_S2x4096x3072 : S8192x3072.ShapeCasts S2x4096x3072
  dot_S512x1024_S1024x3072_S512x3072_1_0_0_1_n_n_wf : DotDims.WF S512x1024 S1024x3072 S512x3072 [1] [0] [0] [1] [] []
  dot_S512x1024_S1024x128_S512x128_1_0_0_1_n_n_wf : DotDims.WF S512x1024 S1024x128 S512x128 [1] [0] [0] [1] [] []
  dot_S512x128_S128x3072_S512x3072_1_0_0_1_n_n_wf : DotDims.WF S512x128 S128x3072 S512x3072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S1024x128.size a
  hwx0_2 : ∀ i : grid0.Coords, EltTy.bits .bf16 = 32 ∨ (Rect.block (s := S1024x128) S1024x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x3072.size a ≤ S128x3072.size a
  hwx0_3 : ∀ i : grid0.Coords, EltTy.bits .bf16 = 32 ∨ (Rect.block (s := S128x3072) S128x3072.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x3072.size a ≤ S1x3072.size a
  hwx0_4 : ∀ i : grid0.Coords, EltTy.bits .f32 = 32 ∨ (Rect.block (s := S1x3072) S1x3072.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x3072.size a ≤ S8192x3072.size a
  hwx0_5 : ∀ i : grid0.Coords, EltTy.bits .f32 = 32 ∨ (Rect.block (s := S8192x3072) S512x3072.size (cc0_transform_5 i) (hinb0_5 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf
def dot_S512x128_S128x3072_S512x3072_1_0_0_1_n_n : DotDims S512x128 S128x3072 S512x3072 where
  lhsContracting := [1]
  rhsContracting := [0]
  lhsNonContracting := [0]
  rhsNonContracting := [1]
  lhsBatch := []
  rhsBatch := []
  wf := dot_S512x128_S128x3072_S512x3072_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1024x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x3072.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S512x3072.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x4096x1024 : Shape := ⟨3, ![2, 4096, 1024]⟩
abbrev S3072x1024 : Shape := ⟨2, ![3072, 1024]⟩
abbrev S3072 : Shape := ⟨1, ![3072]⟩
abbrev S16x1024 : Shape := ⟨2, ![16, 1024]⟩
abbrev S1024x16 : Shape := ⟨2, ![1024, 16]⟩
abbrev S_ : Shape := ⟨0, ![]⟩
abbrev S2x4096x3072 : Shape := ⟨3, ![2, 4096, 3072]⟩
abbrev S1x1x3072 : Shape := ⟨3, ![1, 1, 3072]⟩
abbrev S2x4096x16 : Shape := ⟨3, ![2, 4096, 16]⟩

abbrev nBuf : Space → Nat
  | .hbm => 24
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S3072x1024, .f32⟩
  | .hbm, ⟨2, _⟩ => ⟨S3072, .f32⟩
  | .hbm, ⟨3, _⟩ => ⟨S16x1024, .f32⟩
  | .hbm, ⟨4, _⟩ => ⟨S1024x16, .f32⟩
  | .hbm, ⟨5, _⟩ => ⟨S16x1024, .f32⟩
  | .hbm, ⟨6, _⟩ => ⟨S1024x16, .f32⟩
  | .hbm, ⟨7, _⟩ => ⟨S16x1024, .f32⟩
  | .hbm, ⟨8, _⟩ => ⟨S1024x16, .f32⟩
  | .hbm, ⟨9, _⟩ => ⟨S_, .f32⟩
  | .hbm, ⟨10, _⟩ => ⟨S2x4096x3072, .f32⟩
  | .hbm, ⟨11, _⟩ => ⟨S1x1x3072, .f32⟩
  | .hbm, ⟨12, _⟩ => ⟨S2x4096x3072, .f32⟩
  | .hbm, ⟨13, _⟩ => ⟨S2x4096x3072, .f32⟩
  | .hbm, ⟨14, _⟩ => ⟨S2x4096x16, .f32⟩
  | .hbm, ⟨15, _⟩ => ⟨S2x4096x1024, .f32⟩
  | .hbm, ⟨16, _⟩ => ⟨S2x4096x16, .f32⟩
  | .hbm, ⟨17, _⟩ => ⟨S2x4096x1024, .f32⟩
  | .hbm, ⟨18, _⟩ => ⟨S2x4096x16, .f32⟩
  | .hbm, ⟨19, _⟩ => ⟨S2x4096x1024, .f32⟩
  | .hbm, ⟨20, _⟩ => ⟨S2x4096x3072, .f32⟩
  | .hbm, ⟨21, _⟩ => ⟨S2x4096x3072, .f32⟩
  | .hbm, ⟨22, _⟩ => ⟨S2x4096x3072, .f32⟩
  | .hbm, ⟨23, _⟩ => ⟨S2x4096x3072, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S2x4096x3072_0_1_2 : S1x1x3072.BroadcastsInDim S2x4096x3072 (![0, 1, 2] : Fin 3 → Fin S2x4096x3072.rank)
  concatenates_S2x4096x1024_S2x4096x1024_S2x4096x1024_S2x4096x3072_d2 : Shape.Concatenates [S2x4096x1024, S2x4096x1024, S2x4096x1024] S2x4096x3072 2
  bcast_S_S2x4096x3072 : S_.BroadcastsInDim S2x4096x3072 (![] : Fin 0 → Fin S2x4096x3072.rank)
  dot_S2x4096x1024_S3072x1024_S2x4096x3072_2_1_01_0_n_n_wf : DotDims.WF S2x4096x1024 S3072x1024 S2x4096x3072 [2] [1] [0, 1] [0] [] []
  dot_S2x4096x1024_S16x1024_S2x4096x16_2_1_01_0_n_n_wf : DotDims.WF S2x4096x1024 S16x1024 S2x4096x16 [2] [1] [0, 1] [0] [] []
  dot_S2x4096x16_S1024x16_S2x4096x1024_2_1_01_0_n_n_wf : DotDims.WF S2x4096x16 S1024x16 S2x4096x1024 [2] [1] [0, 1] [0] [] []

variable [Facts₀]

def dot_S2x4096x1024_S3072x1024_S2x4096x3072_2_1_01_0_n_n : DotDims S2x4096x1024 S3072x1024 S2x4096x3072 where
  lhsContracting := [2]
  rhsContracting := [1]
  lhsNonContracting := [0, 1]
  rhsNonContracting := [0]
  lhsBatch := []
  rhsBatch := []
  wf := dot_S2x4096x1024_S3072x1024_S2x4096x3072_2_1_01_0_n_n_wf
def dot_S2x4096x1024_S16x1024_S2x4096x16_2_1_01_0_n_n : DotDims S2x4096x1024 S16x1024 S2x4096x16 where
  lhsContracting := [2]
  rhsContracting := [1]
  lhsNonContracting := [0, 1]
  rhsNonContracting := [0]
  lhsBatch := []
  rhsBatch := []
  wf := dot_S2x4096x1024_S16x1024_S2x4096x16_2_1_01_0_n_n_wf
def dot_S2x4096x16_S1024x16_S2x4096x1024_2_1_01_0_n_n : DotDims S2x4096x16 S1024x16 S2x4096x1024 where
  lhsContracting := [2]
  rhsContracting := [1]
  lhsNonContracting := [0, 1]
  rhsNonContracting := [0]
  lhsBatch := []
  rhsBatch := []
  wf := dot_S2x4096x16_S1024x16_S2x4096x1024_2_1_01_0_n_n_wf

class Facts : Prop extends Facts₀ where

variable [Facts]
-- ==== Proof.AroundIdeal.lean ====
/-
  The idealized kernel program around its one region, at any float instance.

  @main is twenty-seven host operations, one region over a grid of sixteen points, and one closing reshape.  The host
  operations before the region only lay the weights out: the projection matrix transposed, the three low-rank
  down-projections transposed and set side by side and padded with zero columns, the three up-projections transposed, set
  on a block diagonal between zero blocks, scaled by alpha and padded with zero rows, the bias as one row.  None of them
  writes an argument array, so every argument is at its launch contents when the region starts, and the closing reshape
  writes only the result, so every argument is still there at the end.

  At grid point t the region's body reads a tile of 512 rows of the activations and the four weight arrays whole, and
  stores one whole tile of 512 output rows: (rows · W) + ((rows · A) · B) + bias, as the skeleton's payload says.  The
  output tiles of the sixteen points are disjoint and fill the 8192 rows.

  Stated here: the contents of every buffer when the region starts (`entry`), each window's tile there (`tile`), what
  the body leaves in the output's staging buffer (`rowsOut`), and the run of @main to a state in which the output array
  holds what the sixteen write-backs leave and every other buffer what the closing reshape leaves (`run_around`); from
  it, that the ten arguments end as launched (`args_kept`).
-/
import proofs.«407729_j4681514353405_3_alg».proof.Proof.Gen.KernelIdeal.Launch
import proofs.«407729_j4681514353405_3_alg».proof.Proof.Gen.KernelIdeal.Skeleton
import proofs.«407729_j4681514353405_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region starts -/

/-- Core `c`'s buffer contents when the region starts: the launch contents run through the five stretches of host
    operations before it. -/
abbrev entry0 (c : Dev nD) : Valuation τ sig (Elt F) :=
  StableHlo.after (List.flatten [hostOps0, hostOps0_1, hostOps0_2, hostOps0_3, hostOps0_4]) (fun b => m (c, b))
/-- The same read at a TensorCore reference. -/
abbrev entry (c : Dev nD) (b : Ref sig .tc) : Buf (Elt F) ((c : Thread nD τ).loc b) := entry0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the closing reshape: it reduces to the region
    continued by that reshape, the region finding the buffers at `entry`. -/
theorem main_around (𝒱₀ : Variants) :
    Pipeline.HMainK (Ix := Unit) (Name := ℕ) (U := UR sig nD τ) (Lvl := ℕ) cfgs 0 defs₀ 𝒱₀ m (main (F := F)) (entry m)
      (fun _ => Pipeline.chain [StableHlo.seq hostOps1]) :=
  Pipeline.hmain_around cfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩)
    main_chain

/-! ## What the host operations write -/

/-- The references the host operations before the region write: each operation's one result. -/
abbrev writtenBefore : List (Ref sig .tc) :=
  [main_v0, main_v1, main_v2, main_v3, main_v4, main_v5, main_v6, main_c, main_call0_v0, main_v7, main_v8, main_cst, main_v9,
   main_v10, main_v11, main_v12, main_v13, main_v14, main_v15, main_v16, main_v17, main_v18, main_c_0, main_call1_v0, main_v19,
   main_v20, main_v21]

theorem before_writes :
    (List.flatten [hostOps0, hostOps0_1, hostOps0_2, hostOps0_3, hostOps0_4] : List (HloOp τ sig (Elt F))).Forall fun op =>
      op.writes ⊆ (writtenBefore.map (Proc.devRef (τ := τ) .tc)).toFinset := by
  simp only [hostOps0, hostOps0_1, hostOps0_2, hostOps0_3, hostOps0_4, List.flatten_cons, List.flatten_nil, List.append_nil,
    List.cons_append, List.nil_append, List.Forall, StableHlo.nullary_writes, StableHlo.unary_writes, StableHlo.binary_writes,
    StableHlo.reshape_writes, StableHlo.nary_writes, Finset.singleton_subset_iff, List.mem_toFinset]
  repeat' apply And.intro
  all_goals exact List.mem_map_of_mem (by decide)

/-- A reference no host operation before the region writes is found by the region at its launch contents. -/
theorem entry_of_unwritten (c : Dev nD) (r : Ref sig .tc) (hr : r ∉ writtenBefore) :
    entry m c r = m ((c : Thread nD τ).loc r) :=
  StableHlo.after_of_writes_sub _ _ before_writes hr

theorem tail_writes :
    (List.flatten [hostOps1] : List (HloOp τ sig (Elt F))).Forall fun op =>
      op.writes ⊆ (([main_v23] : List (Ref sig .tc)).map (Proc.devRef (τ := τ) .tc)).toFinset := by
  simp only [hostOps1, List.flatten_cons, List.flatten_nil, List.append_nil, List.Forall, StableHlo.reshape_writes,
    Finset.singleton_subset_iff, List.mem_toFinset]
  exact List.mem_map_of_mem (by decide)

/-- The closing reshape touches unscoped TensorCore references only, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocates nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and writes no array of the region (its result is a buffer of its own). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-- A reference that is neither the result, nor an array of the region, nor written before the region ends at its
    launch contents, whatever the region's proof data. -/
theorem kept_to_the_end (dats : (p : Fin 1) → (c : Dev nD) → Dat τ (Elt F) Unit ℕ (UR sig nD τ) ℕ (cfgs p) c) (c : Dev nD)
    (r : Ref sig .tc) (hr : r ∉ writtenBefore) (hres : r ∉ ([main_v23] : List (Ref sig .tc)))
    (harr : ∀ w, Pipeline.arrRef spec0 w ≠ r) :
    Pipeline.afterTail₀ cfgs dats 0 (entry0 m) [hostOps1] c r = m ((c : Thread nD τ).loc r) := by
  unfold Pipeline.afterTail₀
  rw [StableHlo.after_of_writes_sub _ _ tail_writes hres, Pipeline.withArrays_of_ne _ c (entry0 m c) _ r harr]
  exact entry_of_unwritten m c r hr

/-! ## The windows' tiles -/

/-- Window `w`'s tile at point `t`: its block of the array the region finds. -/
def tile (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- An input window's current staging buffer holds its tile at every point, fetched there or not (a window the
    pipeline does not fetch again has not moved), for any proof data over the region-entry arrays whose body leaves the
    inputs in place. -/
theorem staged0 {c : Dev nD} (dat : Dat τ (Elt F) Unit ℕ (UR sig nD τ) ℕ cfg0 c) (hA : dat.A 0 = entry m c (Pipeline.arrRef spec0 0))
    (hafter : ∀ t, dat.after 0 t = tile m c 0 t) (t : Fin cfg0.N) (d) : dat.before 0 t d = tile m c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)
theorem staged1 {c : Dev nD} (dat : Dat τ (Elt F) Unit ℕ (UR sig nD τ) ℕ cfg0 c) (hA : dat.A 1 = entry m c (Pipeline.arrRef spec0 1))
    (hafter : ∀ t, dat.after 1 t = tile m c 1 t) (t : Fin cfg0.N) (d) : dat.before 1 t d = tile m c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)
theorem staged2 {c : Dev nD} (dat : Dat τ (Elt F) Unit ℕ (UR sig nD τ) ℕ cfg0 c) (hA : dat.A 2 = entry m c (Pipeline.arrRef spec0 2))
    (hafter : ∀ t, dat.after 2 t = tile m c 2 t) (t : Fin cfg0.N) (d) : dat.before 2 t d = tile m c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)
theorem staged3 {c : Dev nD} (dat : Dat τ (Elt F) Unit ℕ (UR sig nD τ) ℕ cfg0 c) (hA : dat.A 3 = entry m c (Pipeline.arrRef spec0 3))
    (hafter : ∀ t, dat.after 3 t = tile m c 3 t) (t : Fin cfg0.N) (d) : dat.before 3 t d = tile m c 3 t :=
  (dat.before_in_eq_fetched 3 rfl (fun _ => rfl) (fun _ _ _ => rfl) (fun t => by rw [hafter]; unfold Dat.blockOf tile; rw [hA]; try rfl) t d).trans
    (by unfold Dat.fetched Dat.blockOf tile; rw [hA]; try rfl)
theorem staged4 {c : Dev nD} (dat : Dat τ (Elt F) Unit ℕ (UR sig nD τ) ℕ cfg0 c) (hA : dat.A 4 = entry m c (Pipeline.arrRef spec0 4))
    (hafter : ∀ t, dat.after 4 t = tile m c 4 t) (t : Fin cfg0.N) (d) : dat.before 4 t d = tile m c 4 t :=
  (dat.before_in_eq_fetched 4 rfl (fun _ => rfl) (fun _ _ _ => rfl) (fun t => by rw [hafter]; unfold Dat.blockOf tile; rw [hA]; try rfl) t d).trans
    (by unfold Dat.fetched Dat.blockOf tile; rw [hA]; try rfl)

/-! ## What the body leaves in the output's staging buffer -/

/-- Each staging buffer is read, and the output's written, whole: the rectangles of the body's five loads and its store. -/
abbrev wholeX : Rect S512x1024 := Rect.unit (s := S512x1024) ![0, 0] S512x1024.size inb_S512x1024_S512x1024_0_0
abbrev wholeW : Rect S1024x3072 := Rect.unit (s := S1024x3072) ![0, 0] S1024x3072.size inb_S1024x3072_S1024x3072_0_0
abbrev wholeA : Rect S1024x128 := Rect.unit (s := S1024x128) ![0, 0] S1024x128.size inb_S1024x128_S1024x128_0_0
abbrev wholeB : Rect S128x3072 := Rect.unit (s := S128x3072) ![0, 0] S128x3072.size inb_S128x3072_S128x3072_0_0
abbrev wholeBias : Rect S1x3072 := Rect.unit (s := S1x3072) ![0, 0] S1x3072.size inb_S1x3072_S1x3072_0_0
abbrev wholeOut : Rect S512x3072 := Rect.unit (s := S512x3072) ![0, 0] S512x3072.size inb_S512x3072_S512x3072_0_0

/-- The output tile after the body, from the five input tiles: its one store, of the payload
    (rows · W) + ((rows · A) · B) + bias over the tiles as loaded. -/
def rowsOut (x : Vec F S512x1024 .f32) (wt : Vec F S1024x3072 .bf16) (ac : Vec F S1024x128 .bf16) (bb : Vec F S128x3072 .bf16)
    (bias : Vec F S1x3072 .f32) : Vec F S512x3072 .f32 :=
  View.canon [⟨wholeOut, k0_pay1 (View.ld x wholeX) (View.ld wt wholeW) (View.ld ac wholeA) (View.ld bb wholeB) (View.ld bias wholeBias)⟩]

/-- The one store covers the tile. -/
theorem store_covers (p0 : Vec F S512x3072 .f32) (y : S512x3072.Idx) :
    ∃ pc ∈ ([⟨wholeOut, p0⟩] : List (View.Piece (Elt F) S512x3072 .f32)), y ∈ pc.1.set :=
  View.cover_of_tiled [⟨wholeOut, p0⟩] S512x3072.size (by rfl) y

/-! ## The body's triple -/

set_option maxHeartbeats 1000000 in
/-- The body on whole staging buffers, the five inputs' at contents it reads and the output's at anything, runs to a state
    with the inputs' as they were and the output's at `rowsOut` of them. -/
theorem body_runs (c : Dev nD) (E : Set ℕ) (i : grid0.Coords)
    (arg1 : Memref sig .tc .vmem S512x1024 .f32) (harg1 : arg1.IsWhole) (arg2 : Memref sig .tc .vmem S1024x3072 .bf16) (harg2 : arg2.IsWhole)
    (arg3 : Memref sig .tc .vmem S1024x128 .bf16) (harg3 : arg3.IsWhole) (arg4 : Memref sig .tc .vmem S128x3072 .bf16) (harg4 : arg4.IsWhole)
    (arg5 : Memref sig .tc .vmem S1x3072 .f32) (harg5 : arg5.IsWhole) (arg6 : Memref sig .tc .vmem S512x3072 .f32) (harg6 : arg6.IsWhole)
    (x : Vec F S512x1024 .f32) (wt : Vec F S1024x3072 .bf16) (ac : Vec F S1024x128 .bf16) (bb : Vec F S128x3072 .bf16) (bias : Vec F S1x3072 .f32)
    (K : PUnit → sProp 𝕄) :
    iprop(owns (c : Thread nD τ) arg1 fullShare x ∗ owns (c : Thread nD τ) arg2 fullShare wt ∗ owns (c : Thread nD τ) arg3 fullShare ac
        ∗ owns (c : Thread nD τ) arg4 fullShare bb ∗ owns (c : Thread nD τ) arg5 fullShare bias ∗ (∃ d, owns (c : Thread nD τ) arg6 fullShare d)
        ∗ (iprop(owns (c : Thread nD τ) arg1 fullShare x ∗ owns (c : Thread nD τ) arg2 fullShare wt ∗ owns (c : Thread nD τ) arg3 fullShare ac
            ∗ owns (c : Thread nD τ) arg4 fullShare bb ∗ owns (c : Thread nD τ) arg5 fullShare bias
            ∗ owns (c : Thread nD τ) arg6 fullShare (rowsOut x wt ac bb bias)) -∗ K ⟨⟩))
      ⊢ wp frame (wpE (defs₀ (F := F)) Variants.none c none) E
          (cc0__qkv_lora_kernel i arg1 harg1 arg2 harg2 arg3 harg3 arg4 harg4 arg5 harg5 arg6 harg6) K := by
  simp only [cc0__qkv_lora_kernel_eq_skeleton]; unfold cc0__qkv_lora_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (store_covers _)

/-! ## The region's proof data -/

/-- On core `c`: the arrays as the region finds them; after the body at point `t` each input's buffer at its tile and
    the output's at `rowsOut` of the five tiles; nothing else of the core's described, nothing owed, full shares. -/
def regionData (_ : Fin 1) (c : Dev nD) : Dat τ (Elt F) Unit ℕ (UR sig nD τ) ℕ cfg0 c where
  A w := entry m c (Pipeline.arrRef spec0 w)
  after w t := match w with
    | ⟨0, _⟩ => tile m c 0 t
    | ⟨1, _⟩ => tile m c 1 t
    | ⟨2, _⟩ => tile m c 2 t
    | ⟨3, _⟩ => tile m c 3 t
    | ⟨4, _⟩ => tile m c 4 t
    | ⟨5, _⟩ => rowsOut (tile m c 0 t) (tile m c 1 t) (tile m c 2 t) (tile m c 3 t) (tile m c 4 t)
  Φ _ := Pipeline.ΦA spec0 c
  q _ := fullShare
  owed _ := 0

theorem arrays_eq (c : Dev nD) (w : Fin cfg0.W) : (regionData m 0 c).A w = entry m c (Pipeline.arrRef spec0 w) := by
  dsimp only [regionData]

theorem after0 (c : Dev nD) (t : Fin cfg0.N) : (regionData m 0 c).after 0 t = tile m c 0 t := by dsimp only [regionData]
theorem after1 (c : Dev nD) (t : Fin cfg0.N) : (regionData m 0 c).after 1 t = tile m c 1 t := by dsimp only [regionData]
theorem after2 (c : Dev nD) (t : Fin cfg0.N) : (regionData m 0 c).after 2 t = tile m c 2 t := by dsimp only [regionData]
theorem after3 (c : Dev nD) (t : Fin cfg0.N) : (regionData m 0 c).after 3 t = tile m c 3 t := by dsimp only [regionData]
theorem after4 (c : Dev nD) (t : Fin cfg0.N) : (regionData m 0 c).after 4 t = tile m c 4 t := by dsimp only [regionData]
theorem after5 (c : Dev nD) (t : Fin cfg0.N) :
    (regionData m 0 c).after 5 t = rowsOut (tile m c 0 t) (tile m c 1 t) (tile m c 2 t) (tile m c 3 t) (tile m c 4 t) := by
  dsimp only [regionData]

theorem before0 (c : Dev nD) (t : Fin cfg0.N) (d) : (regionData m 0 c).before 0 t d = tile m c 0 t :=
  staged0 m (regionData m 0 c) (arrays_eq m c 0) (after0 m c) t d
theorem before1 (c : Dev nD) (t : Fin cfg0.N) (d) : (regionData m 0 c).before 1 t d = tile m c 1 t :=
  staged1 m (regionData m 0 c) (arrays_eq m c 1) (after1 m c) t d
theorem before2 (c : Dev nD) (t : Fin cfg0.N) (d) : (regionData m 0 c).before 2 t d = tile m c 2 t :=
  staged2 m (regionData m 0 c) (arrays_eq m c 2) (after2 m c) t d
theorem before3 (c : Dev nD) (t : Fin cfg0.N) (d) : (regionData m 0 c).before 3 t d = tile m c 3 t :=
  staged3 m (regionData m 0 c) (arrays_eq m c 3) (after3 m c) t d
theorem before4 (c : Dev nD) (t : Fin cfg0.N) (d) : (regionData m 0 c).before 4 t d = tile m c 4 t :=
  staged4 m (regionData m 0 c) (arrays_eq m c 4) (after4 m c) t d

/-! ## The body at a grid point -/

/-- What the body is called with at point `t`, window by window, -/
def bodyPre (c : Dev nD) (t : Fin cfg0.N) : sProp 𝕄 :=
  iprop((regionData m 0 c).Φ t.castSucc ∗ (regionData m 0 c).owesAt () t.castSucc
    ∗ (∃ d, owns (c : Thread nD τ) (st0_0 t) fullShare ((regionData m 0 c).before 0 t d))
    ∗ (∃ d, owns (c : Thread nD τ) (st0_1 t) fullShare ((regionData m 0 c).before 1 t d))
    ∗ (∃ d, owns (c : Thread nD τ) (st0_2 t) fullShare ((regionData m 0 c).before 2 t d))
    ∗ (∃ d, owns (c : Thread nD τ) (st0_3 t) fullShare ((regionData m 0 c).before 3 t d))
    ∗ (∃ d, owns (c : Thread nD τ) (st0_4 t) fullShare ((regionData m 0 c).before 4 t d))
    ∗ (∃ d, owns (c : Thread nD τ) (st0_5 t) fullShare ((regionData m 0 c).before 5 t d)))

/-- and what it returns. -/
def bodyPost (c : Dev nD) (t : Fin cfg0.N) : sProp 𝕄 :=
  iprop((regionData m 0 c).Φ t.succ ∗ (regionData m 0 c).owesAt () t.succ
    ∗ owns (c : Thread nD τ) (st0_0 t) fullShare ((regionData m 0 c).after 0 t)
    ∗ owns (c : Thread nD τ) (st0_1 t) fullShare ((regionData m 0 c).after 1 t)
    ∗ owns (c : Thread nD τ) (st0_2 t) fullShare ((regionData m 0 c).after 2 t)
    ∗ owns (c : Thread nD τ) (st0_3 t) fullShare ((regionData m 0 c).after 3 t)
    ∗ owns (c : Thread nD τ) (st0_4 t) fullShare ((regionData m 0 c).after 4 t)
    ∗ owns (c : Thread nD τ) (st0_5 t) fullShare ((regionData m 0 c).after 5 t))

/-- The body at any point: the inputs' buffers hold their tiles, so `body_runs` applies; the rest passes through. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (regionData m 0 c).Φ t.succ = (regionData m 0 c).Φ t.castSucc from rfl,
    show (regionData m 0 c).owesAt () t.succ = (regionData m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (body_runs c Set.univ (grid0.coords t) _ _ _ _ _ _ _ _ _ _ _ _ (tile m c 0 t) (tile m c 1 t) (tile m c 2 t) (tile m c 3 t) (tile m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (regionData (F := F) m 0 c) (defs₀ (F := F)) Variants.none () Set.univ := fun t => by
  rw [bigSep_W0, bigSep_W0]
  exact body_at m c t

/-! ## The run -/

set_option backward.isDefEq.respectTransparency.types false in
/-- From any memory with zero counters every weakly fair execution of @main terminates, in a state with every array of
    the region at what the sixteen write-backs leave of the proof data's tiles and every other unscoped buffer as the
    closing reshape leaves it. -/
theorem run_around : θ_run defs (onTc (τ := τ) (main (F := F))) (s₀ m ρ)
    (Pipeline.FramePost cfgs (regionData m) 0 (Pipeline.afterTail₀ cfgs (regionData m) 0 (entry0 m) [hostOps1])) :=
  Pipeline.θ_run_frame_around cfgs (regionData m) (0 : Fin 1) launch0 defs₀ Variants.none m ρ main
    (hbody := fun c => (body_obligation m c).loose) (hshare := fun c => (regionData m 0 c).share_full fun _ => rfl)
    (howed := fun _ _ => rfl) (V₀ := entry0 m) (opss := [hostOps1]) (hsub := tail_sub) (hfresh := tail_fresh) (hkeep := tail_keeps)
    (hmain := main_around m Variants.none) (hA := arrays_eq m) (hΦ := fun _ _ => rfl)

/-- The ten arguments end as launched. -/
theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h c).2 main_arg0 (Pipeline.mem_restRefs_of main_arg0 (by decide) (by decide))).trans (kept_to_the_end m (regionData m) c main_arg0 (by decide) (by decide) (by decide)),
     ((h c).2 main_arg1 (Pipeline.mem_restRefs_of main_arg1 (by decide) (by decide))).trans (kept_to_the_end m (regionData m) c main_arg1 (by decide) (by decide) (by decide)),
     ((h c).2 main_arg2 (Pipeline.mem_restRefs_of main_arg2 (by decide) (by decide))).trans (kept_to_the_end m (regionData m) c main_arg2 (by decide) (by decide) (by decide)),
     ((h c).2 main_arg3 (Pipeline.mem_restRefs_of main_arg3 (by decide) (by decide))).trans (kept_to_the_end m (regionData m) c main_arg3 (by decide) (by decide) (by decide)),
     ((h c).2 main_arg4 (Pipeline.mem_restRefs_of main_arg4 (by decide) (by decide))).trans (kept_to_the_end m (regionData m) c main_arg4 (by decide) (by decide) (by decide)),
     ((h c).2 main_arg5 (Pipeline.mem_restRefs_of main_arg5 (by decide) (by decide))).trans (kept_to_the_end m (regionData m) c main_arg5 (by decide) (by decide) (by decide)),
     ((h c).2 main_arg6 (Pipeline.mem_restRefs_of main_arg6 (by decide) (by decide))).trans (kept_to_the_end m (regionData m) c main_arg6 (by decide) (by decide) (by decide)),
     ((h c).2 main_arg7 (Pipeline.mem_restRefs_of main_arg7 (by decide) (by decide))).trans (kept_to_the_end m (regionData m) c main_arg7 (by decide) (by decide) (by decide)),
     ((h c).2 main_arg8 (Pipeline.mem_restRefs_of main_arg8 (by decide) (by decide))).trans (kept_to_the_end m (regionData m) c main_arg8 (by decide) (by decide) (by decide)),
     ((h c).2 main_arg9 (Pipeline.mem_restRefs_of main_arg9 (by decide) (by decide))).trans (kept_to_the_end m (regionData m) c main_arg9 (by decide) (by decide) (by decide))⟩)
    (run_around m ρ)

end Cert.KernelIdeal.Around

end
-- ==== Proof.AroundBits.lean ====
/-
  The idealized kernel program around its one region, at any float instance.

  @main is twenty-seven host operations, one region over a grid of sixteen points, and one closing reshape.  The host
  operations before the region only lay the weights out: the projection matrix transposed, the three low-rank
  down-projections transposed and set side by side and padded with zero columns, the three up-projections transposed, set
  on a block diagonal between zero blocks, scaled by alpha and padded with zero rows, the bias as one row.  None of them
  writes an argument array, so every argument is at its launch contents when the region starts, and the closing reshape
  writes only the result, so every argument is still there at the end.

  At grid point t the region's body reads a tile of 512 rows of the activations and the four weight arrays whole, and
  stores one whole tile of 512 output rows: (rows · W) + ((rows · A) · B) + bias, as the skeleton's payload says.  The
  output tiles of the sixteen points are disjoint and fill the 8192 rows.

  Stated here: the contents of every buffer when the region starts (`entry`), each window's tile there (`tile`), what
  the body leaves in the output's staging buffer (`rowsOut`), and the run of @main to a state in which the output array
  holds what the sixteen write-backs leave and every other buffer what the closing reshape leaves (`run_around`); from
  it, that the ten arguments end as launched (`args_kept`).
-/
import proofs.«407729_j4681514353405_3_alg».proof.Proof.Gen.Kernel.Launch
import proofs.«407729_j4681514353405_3_alg».proof.Proof.Gen.Kernel.Skeleton
import proofs.«407729_j4681514353405_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region starts -/

/-- Core `c`'s buffer contents when the region starts: the launch contents run through the five stretches of host
    operations before it. -/
abbrev entry0 (c : Dev nD) : Valuation τ sig (Elt F) :=
  StableHlo.after (List.flatten [hostOps0, hostOps0_1, hostOps0_2, hostOps0_3, hostOps0_4]) (fun b => m (c, b))
/-- The same read at a TensorCore reference. -/
abbrev entry (c : Dev nD) (b : Ref sig .tc) : Buf (Elt F) ((c : Thread nD τ).loc b) := entry0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the closing reshape: it reduces to the region
    continued by that reshape, the region finding the buffers at `entry`. -/
theorem main_around (𝒱₀ : Variants) :
    Pipeline.HMainK (Ix := Unit) (Name := ℕ) (U := UR sig nD τ) (Lvl := ℕ) cfgs 0 defs₀ 𝒱₀ m (main (F := F)) (entry m)
      (fun _ => Pipeline.chain [StableHlo.seq hostOps1]) :=
  Pipeline.hmain_around cfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩)
    main_chain

/-! ## What the host operations write -/

/-- The references the host operations before the region write: each operation's one result. -/
abbrev writtenBefore : List (Ref sig .tc) :=
  [main_v0, main_v1, main_v2, main_v3, main_v4, main_v5, main_v6, main_c, main_call0_v0, main_v7, main_v8, main_cst, main_v9,
   main_v10, main_v11, main_v12, main_v13, main_v14, main_v15, main_v16, main_v17, main_v18, main_c_0, main_call1_v0, main_v19,
   main_v20, main_v21]

theorem before_writes :
    (List.flatten [hostOps0, hostOps0_1, hostOps0_2, hostOps0_3, hostOps0_4] : List (HloOp τ sig (Elt F))).Forall fun op =>
      op.writes ⊆ (writtenBefore.map (Proc.devRef (τ := τ) .tc)).toFinset := by
  simp only [hostOps0, hostOps0_1, hostOps0_2, hostOps0_3, hostOps0_4, List.flatten_cons, List.flatten_nil, List.append_nil,
    List.cons_append, List.nil_append, List.Forall, StableHlo.nullary_writes, StableHlo.unary_writes, StableHlo.binary_writes,
    StableHlo.reshape_writes, StableHlo.nary_writes, Finset.singleton_subset_iff, List.mem_toFinset]
  repeat' apply And.intro
  all_goals exact List.mem_map_of_mem (by decide)

/-- A reference no host operation before the region writes is found by the region at its launch contents. -/
theorem entry_of_unwritten (c : Dev nD) (r : Ref sig .tc) (hr : r ∉ writtenBefore) :
    entry m c r = m ((c : Thread nD τ).loc r) :=
  StableHlo.after_of_writes_sub _ _ before_writes hr

theorem tail_writes :
    (List.flatten [hostOps1] : List (HloOp τ sig (Elt F))).Forall fun op =>
      op.writes ⊆ (([main_v23] : List (Ref sig .tc)).map (Proc.devRef (τ := τ) .tc)).toFinset := by
  simp only [hostOps1, List.flatten_cons, List.flatten_nil, List.append_nil, List.Forall, StableHlo.reshape_writes,
    Finset.singleton_subset_iff, List.mem_toFinset]
  exact List.mem_map_of_mem (by decide)

/-- The closing reshape touches unscoped TensorCore references only, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocates nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and writes no array of the region (its result is a buffer of its own). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-- A reference that is neither the result, nor an array of the region, nor written before the region ends at its
    launch contents, whatever the region's proof data. -/
theorem kept_to_the_end (dats : (p : Fin 1) → (c : Dev nD) → Dat τ (Elt F) Unit ℕ (UR sig nD τ) ℕ (cfgs p) c) (c : Dev nD)
    (r : Ref sig .tc) (hr : r ∉ writtenBefore) (hres : r ∉ ([main_v23] : List (Ref sig .tc)))
    (harr : ∀ w, Pipeline.arrRef spec0 w ≠ r) :
    Pipeline.afterTail₀ cfgs dats 0 (entry0 m) [hostOps1] c r = m ((c : Thread nD τ).loc r) := by
  unfold Pipeline.afterTail₀
  rw [StableHlo.after_of_writes_sub _ _ tail_writes hres, Pipeline.withArrays_of_ne _ c (entry0 m c) _ r harr]
  exact entry_of_unwritten m c r hr

/-! ## The windows' tiles -/

/-- Window `w`'s tile at point `t`: its block of the array the region finds. -/
def tile (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- An input window's current staging buffer holds its tile at every point, fetched there or not (a window the
    pipeline does not fetch again has not moved), for any proof data over the region-entry arrays whose body leaves the
    inputs in place. -/
theorem staged0 {c : Dev nD} (dat : Dat τ (Elt F) Unit ℕ (UR sig nD τ) ℕ cfg0 c) (hA : dat.A 0 = entry m c (Pipeline.arrRef spec0 0))
    (hafter : ∀ t, dat.after 0 t = tile m c 0 t) (t : Fin cfg0.N) (d) : dat.before 0 t d = tile m c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)
theorem staged1 {c : Dev nD} (dat : Dat τ (Elt F) Unit ℕ (UR sig nD τ) ℕ cfg0 c) (hA : dat.A 1 = entry m c (Pipeline.arrRef spec0 1))
    (hafter : ∀ t, dat.after 1 t = tile m c 1 t) (t : Fin cfg0.N) (d) : dat.before 1 t d = tile m c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)
theorem staged2 {c : Dev nD} (dat : Dat τ (Elt F) Unit ℕ (UR sig nD τ) ℕ cfg0 c) (hA : dat.A 2 = entry m c (Pipeline.arrRef spec0 2))
    (hafter : ∀ t, dat.after 2 t = tile m c 2 t) (t : Fin cfg0.N) (d) : dat.before 2 t d = tile m c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)
theorem staged3 {c : Dev nD} (dat : Dat τ (Elt F) Unit ℕ (UR sig nD τ) ℕ cfg0 c) (hA : dat.A 3 = entry m c (Pipeline.arrRef spec0 3))
    (hafter : ∀ t, dat.after 3 t = tile m c 3 t) (t : Fin cfg0.N) (d) : dat.before 3 t d = tile m c 3 t :=
  (dat.before_in_eq_fetched 3 rfl (fun _ => rfl) (fun _ _ _ => rfl) (fun t => by rw [hafter]; unfold Dat.blockOf tile; rw [hA]; try rfl) t d).trans
    (by unfold Dat.fetched Dat.blockOf tile; rw [hA]; try rfl)
theorem staged4 {c : Dev nD} (dat : Dat τ (Elt F) Unit ℕ (UR sig nD τ) ℕ cfg0 c) (hA : dat.A 4 = entry m c (Pipeline.arrRef spec0 4))
    (hafter : ∀ t, dat.after 4 t = tile m c 4 t) (t : Fin cfg0.N) (d) : dat.before 4 t d = tile m c 4 t :=
  (dat.before_in_eq_fetched 4 rfl (fun _ => rfl) (fun _ _ _ => rfl) (fun t => by rw [hafter]; unfold Dat.blockOf tile; rw [hA]; try rfl) t d).trans
    (by unfold Dat.fetched Dat.blockOf tile; rw [hA]; try rfl)

/-! ## What the body leaves in the output's staging buffer -/

/-- Each staging buffer is read, and the output's written, whole: the rectangles of the body's five loads and its store. -/
abbrev wholeX : Rect S512x1024 := Rect.unit (s := S512x1024) ![0, 0] S512x1024.size inb_S512x1024_S512x1024_0_0
abbrev wholeW : Rect S1024x3072 := Rect.unit (s := S1024x3072) ![0, 0] S1024x3072.size inb_S1024x3072_S1024x3072_0_0
abbrev wholeA : Rect S1024x128 := Rect.unit (s := S1024x128) ![0, 0] S1024x128.size inb_S1024x128_S1024x128_0_0
abbrev wholeB : Rect S128x3072 := Rect.unit (s := S128x3072) ![0, 0] S128x3072.size inb_S128x3072_S128x3072_0_0
abbrev wholeBias : Rect S1x3072 := Rect.unit (s := S1x3072) ![0, 0] S1x3072.size inb_S1x3072_S1x3072_0_0
abbrev wholeOut : Rect S512x3072 := Rect.unit (s := S512x3072) ![0, 0] S512x3072.size inb_S512x3072_S512x3072_0_0

/-- The output tile after the body, from the five input tiles: its one store, of the payload
    (rows · W) + ((rows · A) · B) + bias over the tiles as loaded. -/
def rowsOut (x : Vec F S512x1024 .f32) (wt : Vec F S1024x3072 .bf16) (ac : Vec F S1024x128 .bf16) (bb : Vec F S128x3072 .bf16)
    (bias : Vec F S1x3072 .f32) : Vec F S512x3072 .f32 :=
  View.canon [⟨wholeOut, k0_pay1 (View.ld x wholeX) (View.ld wt wholeW) (View.ld ac wholeA) (View.ld bb wholeB) (View.ld bias wholeBias)⟩]

/-- The one store covers the tile. -/
theorem store_covers (p0 : Vec F S512x3072 .f32) (y : S512x3072.Idx) :
    ∃ pc ∈ ([⟨wholeOut, p0⟩] : List (View.Piece (Elt F) S512x3072 .f32)), y ∈ pc.1.set :=
  View.cover_of_tiled [⟨wholeOut, p0⟩] S512x3072.size (by rfl) y

/-! ## The body's triple -/

set_option maxHeartbeats 1000000 in
/-- The body on whole staging buffers, the five inputs' at contents it reads and the output's at anything, runs to a state
    with the inputs' as they were and the output's at `rowsOut` of them. -/
theorem body_runs (c : Dev nD) (E : Set ℕ) (i : grid0.Coords)
    (arg1 : Memref sig .tc .vmem S512x1024 .f32) (harg1 : arg1.IsWhole) (arg2 : Memref sig .tc .vmem S1024x3072 .bf16) (harg2 : arg2.IsWhole)
    (arg3 : Memref sig .tc .vmem S1024x128 .bf16) (harg3 : arg3.IsWhole) (arg4 : Memref sig .tc .vmem S128x3072 .bf16) (harg4 : arg4.IsWhole)
    (arg5 : Memref sig .tc .vmem S1x3072 .f32) (harg5 : arg5.IsWhole) (arg6 : Memref sig .tc .vmem S512x3072 .f32) (harg6 : arg6.IsWhole)
    (x : Vec F S512x1024 .f32) (wt : Vec F S1024x3072 .bf16) (ac : Vec F S1024x128 .bf16) (bb : Vec F S128x3072 .bf16) (bias : Vec F S1x3072 .f32)
    (K : PUnit → sProp 𝕄) :
    iprop(owns (c : Thread nD τ) arg1 fullShare x ∗ owns (c : Thread nD τ) arg2 fullShare wt ∗ owns (c : Thread nD τ) arg3 fullShare ac
        ∗ owns (c : Thread nD τ) arg4 fullShare bb ∗ owns (c : Thread nD τ) arg5 fullShare bias ∗ (∃ d, owns (c : Thread nD τ) arg6 fullShare d)
        ∗ (iprop(owns (c : Thread nD τ) arg1 fullShare x ∗ owns (c : Thread nD τ) arg2 fullShare wt ∗ owns (c : Thread nD τ) arg3 fullShare ac
            ∗ owns (c : Thread nD τ) arg4 fullShare bb ∗ owns (c : Thread nD τ) arg5 fullShare bias
            ∗ owns (c : Thread nD τ) arg6 fullShare (rowsOut x wt ac bb bias)) -∗ K ⟨⟩))
      ⊢ wp frame (wpE (defs₀ (F := F)) Variants.none c none) E
          (cc0__qkv_lora_kernel i arg1 harg1 arg2 harg2 arg3 harg3 arg4 harg4 arg5 harg5 arg6 harg6) K := by
  simp only [cc0__qkv_lora_kernel_eq_skeleton]; unfold cc0__qkv_lora_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (store_covers _)

/-! ## The region's proof data -/

/-- On core `c`: the arrays as the region finds them; after the body at point `t` each input's buffer at its tile and
    the output's at `rowsOut` of the five tiles; nothing else of the core's described, nothing owed, full shares. -/
def regionData (_ : Fin 1) (c : Dev nD) : Dat τ (Elt F) Unit ℕ (UR sig nD τ) ℕ cfg0 c where
  A w := entry m c (Pipeline.arrRef spec0 w)
  after w t := match w with
    | ⟨0, _⟩ => tile m c 0 t
    | ⟨1, _⟩ => tile m c 1 t
    | ⟨2, _⟩ => tile m c 2 t
    | ⟨3, _⟩ => tile m c 3 t
    | ⟨4, _⟩ => tile m c 4 t
    | ⟨5, _⟩ => rowsOut (tile m c 0 t) (tile m c 1 t) (tile m c 2 t) (tile m c 3 t) (tile m c 4 t)
  Φ _ := Pipeline.ΦA spec0 c
  q _ := fullShare
  owed _ := 0

theorem arrays_eq (c : Dev nD) (w : Fin cfg0.W) : (regionData m 0 c).A w = entry m c (Pipeline.arrRef spec0 w) := by
  dsimp only [regionData]

theorem after0 (c : Dev nD) (t : Fin cfg0.N) : (regionData m 0 c).after 0 t = tile m c 0 t := by dsimp only [regionData]
theorem after1 (c : Dev nD) (t : Fin cfg0.N) : (regionData m 0 c).after 1 t = tile m c 1 t := by dsimp only [regionData]
theorem after2 (c : Dev nD) (t : Fin cfg0.N) : (regionData m 0 c).after 2 t = tile m c 2 t := by dsimp only [regionData]
theorem after3 (c : Dev nD) (t : Fin cfg0.N) : (regionData m 0 c).after 3 t = tile m c 3 t := by dsimp only [regionData]
theorem after4 (c : Dev nD) (t : Fin cfg0.N) : (regionData m 0 c).after 4 t = tile m c 4 t := by dsimp only [regionData]
theorem after5 (c : Dev nD) (t : Fin cfg0.N) :
    (regionData m 0 c).after 5 t = rowsOut (tile m c 0 t) (tile m c 1 t) (tile m c 2 t) (tile m c 3 t) (tile m c 4 t) := by
  dsimp only [regionData]

theorem before0 (c : Dev nD) (t : Fin cfg0.N) (d) : (regionData m 0 c).before 0 t d = tile m c 0 t :=
  staged0 m (regionData m 0 c) (arrays_eq m c 0) (after0 m c) t d
theorem before1 (c : Dev nD) (t : Fin cfg0.N) (d) : (regionData m 0 c).before 1 t d = tile m c 1 t :=
  staged1 m (regionData m 0 c) (arrays_eq m c 1) (after1 m c) t d
theorem before2 (c : Dev nD) (t : Fin cfg0.N) (d) : (regionData m 0 c).before 2 t d = tile m c 2 t :=
  staged2 m (regionData m 0 c) (arrays_eq m c 2) (after2 m c) t d
theorem before3 (c : Dev nD) (t : Fin cfg0.N) (d) : (regionData m 0 c).before 3 t d = tile m c 3 t :=
  staged3 m (regionData m 0 c) (arrays_eq m c 3) (after3 m c) t d
theorem before4 (c : Dev nD) (t : Fin cfg0.N) (d) : (regionData m 0 c).before 4 t d = tile m c 4 t :=
  staged4 m (regionData m 0 c) (arrays_eq m c 4) (after4 m c) t d

/-! ## The body at a grid point -/

/-- What the body is called with at point `t`, window by window, -/
def bodyPre (c : Dev nD) (t : Fin cfg0.N) : sProp 𝕄 :=
  iprop((regionData m 0 c).Φ t.castSucc ∗ (regionData m 0 c).owesAt () t.castSucc
    ∗ (∃ d, owns (c : Thread nD τ) (st0_0 t) fullShare ((regionData m 0 c).before 0 t d))
    ∗ (∃ d, owns (c : Thread nD τ) (st0_1 t) fullShare ((regionData m 0 c).before 1 t d))
    ∗ (∃ d, owns (c : Thread nD τ) (st0_2 t) fullShare ((regionData m 0 c).before 2 t d))
    ∗ (∃ d, owns (c : Thread nD τ) (st0_3 t) fullShare ((regionData m 0 c).before 3 t d))
    ∗ (∃ d, owns (c : Thread nD τ) (st0_4 t) fullShare ((regionData m 0 c).before 4 t d))
    ∗ (∃ d, owns (c : Thread nD τ) (st0_5 t) fullShare ((regionData m 0 c).before 5 t d)))

/-- and what it returns. -/
def bodyPost (c : Dev nD) (t : Fin cfg0.N) : sProp 𝕄 :=
  iprop((regionData m 0 c).Φ t.succ ∗ (regionData m 0 c).owesAt () t.succ
    ∗ owns (c : Thread nD τ) (st0_0 t) fullShare ((regionData m 0 c).after 0 t)
    ∗ owns (c : Thread nD τ) (st0_1 t) fullShare ((regionData m 0 c).after 1 t)
    ∗ owns (c : Thread nD τ) (st0_2 t) fullShare ((regionData m 0 c).after 2 t)
    ∗ owns (c : Thread nD τ) (st0_3 t) fullShare ((regionData m 0 c).after 3 t)
    ∗ owns (c : Thread nD τ) (st0_4 t) fullShare ((regionData m 0 c).after 4 t)
    ∗ owns (c : Thread nD τ) (st0_5 t) fullShare ((regionData m 0 c).after 5 t))

/-- The body at any point: the inputs' buffers hold their tiles, so `body_runs` applies; the rest passes through. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (regionData m 0 c).Φ t.succ = (regionData m 0 c).Φ t.castSucc from rfl,
    show (regionData m 0 c).owesAt () t.succ = (regionData m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (body_runs c Set.univ (grid0.coords t) _ _ _ _ _ _ _ _ _ _ _ _ (tile m c 0 t) (tile m c 1 t) (tile m c 2 t) (tile m c 3 t) (tile m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (regionData (F := F) m 0 c) (defs₀ (F := F)) Variants.none () Set.univ := fun t => by
  rw [bigSep_W0, bigSep_W0]
  exact body_at m c t

/-! ## The run -/

set_option backward.isDefEq.respectTransparency.types false in
/-- From any memory with zero counters every weakly fair execution of @main terminates, in a state with every array of
    the region at what the sixteen write-backs leave of the proof data's tiles and every other unscoped buffer as the
    closing reshape leaves it. -/
theorem run_around : θ_run defs (onTc (τ := τ) (main (F := F))) (s₀ m ρ)
    (Pipeline.FramePost cfgs (regionData m) 0 (Pipeline.afterTail₀ cfgs (regionData m) 0 (entry0 m) [hostOps1])) :=
  Pipeline.θ_run_frame_around cfgs (regionData m) (0 : Fin 1) launch0 defs₀ Variants.none m ρ main
    (hbody := fun c => (body_obligation m c).loose) (hshare := fun c => (regionData m 0 c).share_full fun _ => rfl)
    (howed := fun _ _ => rfl) (V₀ := entry0 m) (opss := [hostOps1]) (hsub := tail_sub) (hfresh := tail_fresh) (hkeep := tail_keeps)
    (hmain := main_around m Variants.none) (hA := arrays_eq m) (hΦ := fun _ _ => rfl)

/-- The ten arguments end as launched. -/
theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h c).2 main_arg0 (Pipeline.mem_restRefs_of main_arg0 (by decide) (by decide))).trans (kept_to_the_end m (regionData m) c main_arg0 (by decide) (by decide) (by decide)),
     ((h c).2 main_arg1 (Pipeline.mem_restRefs_of main_arg1 (by decide) (by decide))).trans (kept_to_the_end m (regionData m) c main_arg1 (by decide) (by decide) (by decide)),
     ((h c).2 main_arg2 (Pipeline.mem_restRefs_of main_arg2 (by decide) (by decide))).trans (kept_to_the_end m (regionData m) c main_arg2 (by decide) (by decide) (by decide)),
     ((h c).2 main_arg3 (Pipeline.mem_restRefs_of main_arg3 (by decide) (by decide))).trans (kept_to_the_end m (regionData m) c main_arg3 (by decide) (by decide) (by decide)),
     ((h c).2 main_arg4 (Pipeline.mem_restRefs_of main_arg4 (by decide) (by decide))).trans (kept_to_the_end m (regionData m) c main_arg4 (by decide) (by decide) (by decide)),
     ((h c).2 main_arg5 (Pipeline.mem_restRefs_of main_arg5 (by decide) (by decide))).trans (kept_to_the_end m (regionData m) c main_arg5 (by decide) (by decide) (by decide)),
     ((h c).2 main_arg6 (Pipeline.mem_restRefs_of main_arg6 (by decide) (by decide))).trans (kept_to_the_end m (regionData m) c main_arg6 (by decide) (by decide) (by decide)),
     ((h c).2 main_arg7 (Pipeline.mem_restRefs_of main_arg7 (by decide) (by decide))).trans (kept_to_the_end m (regionData m) c main_arg7 (by decide) (by decide) (by decide)),
     ((h c).2 main_arg8 (Pipeline.mem_restRefs_of main_arg8 (by decide) (by decide))).trans (kept_to_the_end m (regionData m) c main_arg8 (by decide) (by decide) (by decide)),
     ((h c).2 main_arg9 (Pipeline.mem_restRefs_of main_arg9 (by decide) (by decide))).trans (kept_to_the_end m (regionData m) c main_arg9 (by decide) (by decide) (by decide))⟩)
    (run_around m ρ)

end Cert.Kernel.Around

end
-- ==== Proof.LibMlp.lean ====
/-
  One dense stage of a graph network's per-node perceptron, as a function on the extended reals, index by index:
  a matrix product, a bias, and an evaluation-mode batch normalisation  (a - m) * rsqrt (v + eps) * g + b , optionally
  followed by a rectifier  max a 0 .  Written over PLAIN coordinates (`Fin`) so that a kernel's row block and the
  whole array are the same function of their rows, and read off the two spellings a program may give it: the
  vector dialect's (a matrix-unit product into a zero accumulator, row vectors broadcast down the rows) and the
  host's (a `dot_general`, vectors broadcast in two steps).
-/
import Idealize.ShloMosaic.PureOps.Ideal
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.Mlp

/-- The variance offset of the normalisation: the single-precision word nearest 1e-5, read as an extended real. -/
def eps : EReal := Ideal.ofBits .f32 0x3727C5AC#32
/-- The rectifier's floor: the zero word. -/
def zero : EReal := Ideal.ofBits .f32 0x00000000#32

/-- Evaluation-mode batch normalisation of one value. -/
def bn (a m v g b : EReal) : EReal := (a - m) * Ideal.rsqrt (v + eps) * g + b

/-- A dense stage: row `i 0` of `a` against column `i 1` of `W`, plus the bias, normalised. -/
def lin {N K H : ℕ} (a : (⟨2, ![N, K]⟩ : Shape).Idx → EReal) (W : (⟨2, ![K, H]⟩ : Shape).Idx → EReal)
    (b g be m v : Fin H → EReal) : (⟨2, ![N, H]⟩ : Shape).Idx → EReal := fun i =>
  bn ((∑ k : Fin K, a (ix2 (i 0) k) * W (ix2 k (i 1))) + b (i 1)) (m (i 1)) (v (i 1)) (g (i 1)) (be (i 1))

/-- A one-row matrix read as a vector of its entries. -/
def row {H : ℕ} (x : (⟨2, ![1, H]⟩ : Shape).Idx → EReal) : Fin H → EReal := fun h => x (ix2 0 h)
/-- A rank-one array read as a vector of its entries. -/
def vec {H : ℕ} (x : (⟨1, ![H]⟩ : Shape).Idx → EReal) : Fin H → EReal := fun h => x (ix1 h)

/-- A vector reshaped to one row and read back as a vector is the vector. -/
theorem row_shapeCast {H : ℕ} (y : (⟨1, ![H]⟩ : Shape).Idx → EReal) (h : (⟨1, ![H]⟩ : Shape).ShapeCasts ⟨2, ![1, H]⟩) :
    row (shapeCast (⟨2, ![1, H]⟩ : Shape) y h) = vec y := by
  funext q
  show shapeCast (⟨2, ![1, H]⟩ : Shape) y h (ix2 0 q) = y (ix1 q)
  exact shapeCast_apply y h (ix2 0 q) (ix1 q) (by
    rw [Shape.rowMajor_val_two, Shape.rowMajor_val_one]; show q.val = 0 * H + q.val; omega)

/-- The rectifier, entry by entry. -/
def relu {S : Shape} (a : S.Idx → EReal) : S.Idx → EReal := fun i => max (a i) zero

/-- A dense stage reads only the row it is asked for: two inputs that agree on a row give the same row. -/
theorem lin_row {N N' K H : ℕ} (a : (⟨2, ![N, K]⟩ : Shape).Idx → EReal) (a' : (⟨2, ![N', K]⟩ : Shape).Idx → EReal)
    (W : (⟨2, ![K, H]⟩ : Shape).Idx → EReal) (b g be m v : Fin H → EReal) (r : Fin N) (r' : Fin N') (j : Fin H)
    (h : ∀ k : Fin K, a (ix2 r k) = a' (ix2 r' k)) :
    lin a W b g be m v (ix2 r j) = lin a' W b g be m v (ix2 r' j) := by
  unfold lin
  have : (∑ k : Fin K, a (ix2 r k) * W (ix2 k j)) = ∑ k : Fin K, a' (ix2 r' k) * W (ix2 k j) :=
    Finset.sum_congr rfl fun k _ => by rw [h k]
  exact congrArg (fun s => bn (s + b j) (m j) (v j) (g j) (be j)) this

/-- Two dense stages with a rectifier between them: one layer's perceptron and its outer normalisation. -/
def layer {N K H D : ℕ} (z : (⟨2, ![N, K]⟩ : Shape).Idx → EReal) (W1 : (⟨2, ![K, H]⟩ : Shape).Idx → EReal)
    (b1 g1 be1 m1 v1 : Fin H → EReal) (W2 : (⟨2, ![H, D]⟩ : Shape).Idx → EReal) (b2 g2 be2 m2 v2 : Fin D → EReal) :
    (⟨2, ![N, D]⟩ : Shape).Idx → EReal :=
  lin (relu (lin z W1 b1 g1 be1 m1 v1)) W2 b2 g2 be2 m2 v2

/-- A layer reads only the row it is asked for. -/
theorem layer_row {N N' K H D : ℕ} (z : (⟨2, ![N, K]⟩ : Shape).Idx → EReal) (z' : (⟨2, ![N', K]⟩ : Shape).Idx → EReal)
    (W1 : (⟨2, ![K, H]⟩ : Shape).Idx → EReal) (b1 g1 be1 m1 v1 : Fin H → EReal)
    (W2 : (⟨2, ![H, D]⟩ : Shape).Idx → EReal) (b2 g2 be2 m2 v2 : Fin D → EReal) (r : Fin N) (r' : Fin N') (j : Fin D)
    (h : ∀ k : Fin K, z (ix2 r k) = z' (ix2 r' k)) :
    layer z W1 b1 g1 be1 m1 v1 W2 b2 g2 be2 m2 v2 (ix2 r j) = layer z' W1 b1 g1 be1 m1 v1 W2 b2 g2 be2 m2 v2 (ix2 r' j) :=
  lin_row _ _ W2 b2 g2 be2 m2 v2 r r' j fun k => by
    show max (lin z W1 b1 g1 be1 m1 v1 (ix2 r k)) zero = max (lin z' W1 b1 g1 be1 m1 v1 (ix2 r' k)) zero
    rw [lin_row z z' W1 b1 g1 be1 m1 v1 r r' k h]

/-! ## A plain product's contraction is a sum over the middle coordinate -/

/-- For the dimension numbers of an M×K by K×N product, the sum over the contraction index is the sum over `Fin K` of
    row entry times column entry. -/
theorem plain_sum {M K N : ℕ} (l : (⟨2, ![M, K]⟩ : Shape).Idx → EReal) (r : (⟨2, ![K, N]⟩ : Shape).Idx → EReal)
    (j : (⟨2, ![M, N]⟩ : Shape).Idx) :
    (∑ k : (DotDims.plain M K N).contr.Idx, l ((DotDims.plain M K N).lhsIdx j k) * r ((DotDims.plain M K N).rhsIdx j k))
      = ∑ k : Fin K, l (ix2 (j 0) k) * r (ix2 k (j 1)) := by
  refine (Equiv.sum_comp (contrEquiv1 (DotDims.plain M K N) K rfl rfl).symm _).symm.trans (Finset.sum_congr rfl fun k _ => ?_)
  have hl : (DotDims.plain M K N).lhsIdx j ((contrEquiv1 (DotDims.plain M K N) K rfl rfl).symm k) = ix2 (j 0) k := by
    funext a; apply Fin.ext
    match a with
    | ⟨0, _⟩ => rfl
    | ⟨1, _⟩ => exact contrEquiv1_symm_val (DotDims.plain M K N) K rfl rfl k
  have hr : (DotDims.plain M K N).rhsIdx j ((contrEquiv1 (DotDims.plain M K N) K rfl rfl).symm k) = ix2 k (j 1) := by
    funext a; apply Fin.ext
    match a with
    | ⟨0, _⟩ => exact contrEquiv1_symm_val (DotDims.plain M K N) K rfl rfl k
    | ⟨1, _⟩ => rfl
  exact congrArg₂ (fun x y => l x * r y) hl hr

/-! ## The two spellings of the rectifier -/

theorem vec_relu {S : Shape} (x : FVec Ideal S .f32) :
    maximumf x (broadcast S (Scalar.ofBits .f32 0x00000000#32)) = relu x := rfl

theorem host_relu {S : Shape} (h0 : (⟨0, ![]⟩ : Shape).BroadcastsInDim S ![]) (x : FVec Ideal S .f32) :
    maximumf x (broadcastInDim S ![] h0 (constant (⟨0, ![]⟩ : Shape) .f32 0x00000000#32)) = relu x := rfl

/-! ## The vector dialect's spelling of a dense stage -/

/-- A row vector broadcast down the rows, read at (p, q), is its entry q. -/
theorem bcast_row {N H : ℕ} (hb : (⟨2, ![1, H]⟩ : Shape).Broadcasts ⟨2, ![N, H]⟩) (x : (⟨2, ![1, H]⟩ : Shape).Idx → EReal)
    (p : Fin N) (q : Fin H) : broadcastTo (⟨2, ![N, H]⟩ : Shape) x hb (ix2 p q) = x (ix2 0 q) := by
  refine broadcastTo_apply x hb (ix2 p q) (ix2 0 q) fun a => ?_
  match a with
  | ⟨0, _⟩ => simp
  | ⟨1, _⟩ =>
    show q.val = if H = 1 then 0 else q.val
    split
    · rename_i h; have := q.isLt; omega
    · rfl

theorem vec_lin {N K H : ℕ} {φa φw : FTy} (d : DotDims ⟨2, ![N, K]⟩ ⟨2, ![K, H]⟩ ⟨2, ![N, H]⟩) (hd : d = DotDims.plain N K H)
    (hb : (⟨2, ![1, H]⟩ : Shape).Broadcasts ⟨2, ![N, H]⟩)
    (a : FVec Ideal ⟨2, ![N, K]⟩ φa) (W : FVec Ideal ⟨2, ![K, H]⟩ φw) (b g be m v : FVec Ideal ⟨2, ![1, H]⟩ .f32) :
    addf (mulf (mulf (subf (addf (matmul d none a W (constant ⟨2, ![N, H]⟩ .f32 0x00000000#32)) (broadcastTo ⟨2, ![N, H]⟩ b hb))
        (broadcastTo ⟨2, ![N, H]⟩ m hb))
        (broadcastTo ⟨2, ![N, H]⟩ (rsqrt (addf v (broadcast ⟨2, ![1, H]⟩ (Scalar.ofBits .f32 0x3727C5AC#32)))) hb))
        (broadcastTo ⟨2, ![N, H]⟩ g hb)) (broadcastTo ⟨2, ![N, H]⟩ be hb)
      = lin a W (row b) (row g) (row be) (row m) (row v) := by
  subst hd
  funext i
  obtain ⟨p, q, rfl⟩ : ∃ (p : Fin N) (q : Fin H), i = ix2 p q := ⟨i 0, i 1, eq_ix2 i⟩
  simp only [addf_apply, mulf_apply, subf_apply]
  have hm : matmul (DotDims.plain N K H) none a W (constant ⟨2, ![N, H]⟩ .f32 0x00000000#32) (ix2 p q)
      = ∑ k : Fin K, a (ix2 p k) * W (ix2 k q) := by
    rw [show matmul (DotDims.plain N K H) none a W (constant ⟨2, ![N, H]⟩ .f32 0x00000000#32) (ix2 p q) = _ from
      Ideal.matmul_constant_zero_apply (DotDims.plain N K H) none a W (ix2 p q)]
    exact plain_sum a W (ix2 p q)
  rw [bcast_row hb b p q, bcast_row hb m p q, bcast_row hb g p q, bcast_row hb be p q, bcast_row hb _ p q, hm]
  rfl

/-! ## The host's spelling of a dense stage -/

/-- A vector broadcast to a one-row matrix and then down the rows, read at (p, q), is its entry q. -/
theorem bcast_two {N H : ℕ} (h1 : (⟨1, ![H]⟩ : Shape).BroadcastsInDim ⟨2, ![1, H]⟩ ![1])
    (h2 : (⟨2, ![1, H]⟩ : Shape).BroadcastsInDim ⟨2, ![N, H]⟩ ![0, 1]) (x : (⟨1, ![H]⟩ : Shape).Idx → EReal) (p : Fin N) (q : Fin H) :
    broadcastInDim (⟨2, ![N, H]⟩ : Shape) ![0, 1] h2 (broadcastInDim (⟨2, ![1, H]⟩ : Shape) ![1] h1 x) (ix2 p q) = x (ix1 q) := by
  refine (broadcastInDim_apply ![0, 1] h2 _ (ix2 p q) (ix2 0 q) fun a => ?_).trans
    (broadcastInDim_apply ![1] h1 x (ix2 0 q) (ix1 q) fun a => ?_)
  · match a with
    | ⟨0, _⟩ => simp
    | ⟨1, _⟩ =>
      show q.val = if H = 1 then 0 else q.val
      split
      · rename_i h; have := q.isLt; omega
      · rfl
  · match a with
    | ⟨0, _⟩ =>
      show q.val = if H = 1 then 0 else q.val
      split
      · rename_i h; have := q.isLt; omega
      · rfl

theorem host_lin {N K H : ℕ} {φa φw : FTy} (d : DotDims ⟨2, ![N, K]⟩ ⟨2, ![K, H]⟩ ⟨2, ![N, H]⟩) (hd : d = DotDims.plain N K H)
    (h0 : (⟨0, ![]⟩ : Shape).BroadcastsInDim ⟨1, ![H]⟩ ![])
    (h1 : (⟨1, ![H]⟩ : Shape).BroadcastsInDim ⟨2, ![1, H]⟩ ![1])
    (h2 : (⟨2, ![1, H]⟩ : Shape).BroadcastsInDim ⟨2, ![N, H]⟩ ![0, 1])
    (a : FVec Ideal ⟨2, ![N, K]⟩ φa) (W : FVec Ideal ⟨2, ![K, H]⟩ φw) (b g be m v : FVec Ideal ⟨1, ![H]⟩ .f32) :
    addf (mulf (mulf (subf (addf (Host.dotGeneral d none a W)
          (broadcastInDim (⟨2, ![N, H]⟩ : Shape) ![0, 1] h2 (broadcastInDim (⟨2, ![1, H]⟩ : Shape) ![1] h1 b)))
          (broadcastInDim (⟨2, ![N, H]⟩ : Shape) ![0, 1] h2 (broadcastInDim (⟨2, ![1, H]⟩ : Shape) ![1] h1 m)))
          (broadcastInDim (⟨2, ![N, H]⟩ : Shape) ![0, 1] h2 (broadcastInDim (⟨2, ![1, H]⟩ : Shape) ![1] h1
            (Host.rsqrt (addf v (broadcastInDim (⟨1, ![H]⟩ : Shape) ![] h0 (constant (⟨0, ![]⟩ : Shape) .f32 0x3727C5AC#32)))))))
          (broadcastInDim (⟨2, ![N, H]⟩ : Shape) ![0, 1] h2 (broadcastInDim (⟨2, ![1, H]⟩ : Shape) ![1] h1 g)))
          (broadcastInDim (⟨2, ![N, H]⟩ : Shape) ![0, 1] h2 (broadcastInDim (⟨2, ![1, H]⟩ : Shape) ![1] h1 be))
      = lin a W (vec b) (vec g) (vec be) (vec m) (vec v) := by
  subst hd
  funext i
  obtain ⟨p, q, rfl⟩ : ∃ (p : Fin N) (q : Fin H), i = ix2 p q := ⟨i 0, i 1, eq_ix2 i⟩
  simp only [addf_apply, mulf_apply, subf_apply]
  have hm : Host.dotGeneral (DotDims.plain N K H) none a W (ix2 p q) = ∑ k : Fin K, a (ix2 p k) * W (ix2 k q) := by
    rw [show Host.dotGeneral (DotDims.plain N K H) none a W (ix2 p q) = _ from
      Ideal.dotGeneral_apply (DotDims.plain N K H) none .single a W (ix2 p q)]
    exact plain_sum a W (ix2 p q)
  rw [bcast_two h1 h2 b p q, bcast_two h1 h2 m p q, bcast_two h1 h2 g p q, bcast_two h1 h2 be p q, bcast_two h1 h2 _ p q, hm]
  rfl

end Cert.Mlp

end
-- ==== Proof.Tiles.lean ====
/-
  The kernel's output array, entry by entry, from the arrays the region finds.

  At grid point t the body's payload is, at row p of the tile and column q,
      (sum over d of x[p,d] * W'[d,q]  +  sum over r of (sum over d of x[p,d] * A'[d,r]) * B'[r,q])  +  bias[0,q]
  where x is the tile of 512 activation rows and W', A', B', bias are read whole: each of the three matrix-unit products
  starts from a zero accumulator, so it is the plain sum over the contracted coordinate, and the changes of float
  format between them are the identity on extended reals.  Tile t of the activations is rows 512 t … 512 t + 511, and
  the output tile is written back to the same rows, so the sixteen tiles together hold, at row n and column o, the same
  expression of row n of the activations (`cell`).  The closing reshape reads row 4096 i + s as row (i, s).
-/
import proofs.«407729_j4681514353405_3_alg».proof.Proof.AroundIdeal
import proofs.«407729_j4681514353405_3_alg».proof.Proof.LibMlp
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

open scoped BigOperators

namespace Cert.KernelIdeal.Tiles

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Around

/-! ## One entry of the output -/

/-- Row n, column o of the output from the five arrays the region reads:
    (x · W' + (x · A') · B') + bias. -/
def cell (X : S8192x1024.Idx → EReal) (Wt : S1024x3072.Idx → EReal) (Ac : S1024x128.Idx → EReal) (Bb : S128x3072.Idx → EReal)
    (Bs : S1x3072.Idx → EReal) (n : Fin 8192) (o : Fin 3072) : EReal :=
  ((∑ d : Fin 1024, X (ix2 n d) * Wt (ix2 d o))
      + ∑ r : Fin 128, (∑ d : Fin 1024, X (ix2 n d) * Ac (ix2 d r)) * Bb (ix2 r o))
    + Bs (ix2 (0 : Fin 1) o)

/-- The whole output array as one function of them. -/
def rowsAll (X : S8192x1024.Idx → EReal) (Wt : S1024x3072.Idx → EReal) (Ac : S1024x128.Idx → EReal) (Bb : S128x3072.Idx → EReal)
    (Bs : S1x3072.Idx → EReal) : S8192x3072.Idx → EReal :=
  fun j => cell X Wt Ac Bb Bs ⟨(j 0).val, idx2_lt0 j⟩ ⟨(j 1).val, idx2_lt1 j⟩

/-! ## The payload at an index -/

/-- A matrix-unit product from a zero accumulator, at (p, q): the sum over the contracted coordinate. -/
theorem product_at {M K N : ℕ} {φa φw : FTy} (d : DotDims ⟨2, ![M, K]⟩ ⟨2, ![K, N]⟩ ⟨2, ![M, N]⟩) (hd : d = DotDims.plain M K N)
    (a : FVec Ideal ⟨2, ![M, K]⟩ φa) (W : FVec Ideal ⟨2, ![K, N]⟩ φw) (p : Fin M) (q : Fin N) :
    matmul d none a W (constant ⟨2, ![M, N]⟩ .f32 0x00000000#32) (ix2 p q) = ∑ k : Fin K, a (ix2 p k) * W (ix2 k q) := by
  subst hd
  rw [show matmul (DotDims.plain M K N) none a W (constant ⟨2, ![M, N]⟩ .f32 0x00000000#32) (ix2 p q) = _ from
    Ideal.matmul_constant_zero_apply (DotDims.plain M K N) none a W (ix2 p q)]
  exact Cert.Mlp.plain_sum a W (ix2 p q)

/-- The body's payload at row p, column q of the tile. -/
theorem payload_at (x : Vec Ideal S512x1024 .f32) (wt : Vec Ideal S1024x3072 .bf16) (ac : Vec Ideal S1024x128 .bf16)
    (bb : Vec Ideal S128x3072 .bf16) (bias : Vec Ideal S1x3072 .f32) (p : Fin 512) (q : Fin 3072) :
    k0_pay1 x wt ac bb bias (ix2 p q)
      = ((∑ d : Fin 1024, x (ix2 p d) * wt (ix2 d q))
          + ∑ r : Fin 128, (∑ d : Fin 1024, x (ix2 p d) * ac (ix2 d r)) * bb (ix2 r q))
        + bias (ix2 (0 : Fin 1) q) := by
  unfold k0_pay1
  simp only [shapeCast_self]
  rw [addf_apply, addf_apply, product_at dot_S512x1024_S1024x3072_S512x3072_1_0_0_1_n_n rfl,
    product_at dot_S512x128_S128x3072_S512x3072_1_0_0_1_n_n rfl, Cert.Mlp.bcast_row]
  refine congrArg₂ (· + ·) (congrArg₂ (· + ·) rfl (Finset.sum_congr rfl fun r _ => ?_)) rfl
  rw [truncf_apply, product_at dot_S512x1024_S1024x128_S512x128_1_0_0_1_n_n rfl]
  rfl

/-! ## The tiles -/

variable (m : (ℓ : Loc nD τ sig) → Buf (Elt Ideal) ℓ) (ρ : Dev nD → PrngReg)

/-- The five arrays the region reads, as it finds them. -/
abbrev actsIn (c : Dev nD) : S8192x1024.Idx → EReal := entry m c main_v0
abbrev projIn (c : Dev nD) : S1024x3072.Idx → EReal := entry m c main_v2
abbrev downIn (c : Dev nD) : S1024x128.Idx → EReal := entry m c main_v8
abbrev upIn (c : Dev nD) : S128x3072.Idx → EReal := entry m c main_v20
abbrev biasIn (c : Dev nD) : S1x3072.Idx → EReal := entry m c main_v21

/-- The output array after the run, as one function of them. -/
abbrev outAll (c : Dev nD) : S8192x3072.Idx → EReal :=
  rowsAll (actsIn m c) (projIn m c) (downIn m c) (upIn m c) (biasIn m c)

theorem pt_lt (t : Fin cfg0.N) : t.val < 16 := lt_of_lt_of_eq t.isLt N_0

theorem zero_off : (![0, 0] : Fin 2 → Nat) = fun _ => 0 := funext fun a => by fin_cases a <;> rfl

/-- Where each window's tile sits, decided over the sixteen points: tile t of the activations and of the output is the
    t-th block of 512 rows; the other four windows are their arrays whole. -/
theorem tile_places : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of the activations' tile t is row 512 t + p of the array. -/
theorem acts_tile (c : Dev nD) (t : Fin cfg0.N) (p : Fin 512) (d : Fin 1024) :
    (tile m c 0 t : S512x1024.Idx → EReal) (ix2 p d)
      = actsIn m c (ix2 (⟨t.val * 512 + p.val, by have := pt_lt t; omega⟩ : Fin 8192) d) := by
  obtain ⟨e0, e1, -⟩ := tile_places t
  show (entry m c main_v0 : S8192x1024.Idx → EReal) (((cfg0.win 0).blk t).view.emb (ix2 p d)) = _
  refine congrArg (entry m c main_v0 : S8192x1024.Idx → EReal) (funext fun a => Fin.ext ?_)
  match a with
  | ⟨0, _⟩ => show win0_0.index t (0 : Fin 2) * 512 + 1 * p.val = t.val * 512 + p.val; rw [e0]; omega
  | ⟨1, _⟩ => show win0_0.index t (1 : Fin 2) * 1024 + 1 * d.val = d.val; rw [e1]; omega

/-- The other four tiles are the arrays themselves. -/
theorem proj_tile (c : Dev nD) (t : Fin cfg0.N) (d : Fin 1024) (o : Fin 3072) :
    (tile m c 1 t : S1024x3072.Idx → EReal) (ix2 d o) = projIn m c (ix2 d o) := by
  obtain ⟨-, -, e0, e1, -⟩ := tile_places t
  show (entry m c main_v2 : S1024x3072.Idx → EReal) (((cfg0.win 1).blk t).view.emb (ix2 d o)) = _
  refine congrArg (entry m c main_v2 : S1024x3072.Idx → EReal) (funext fun a => Fin.ext ?_)
  match a with
  | ⟨0, _⟩ => show win0_1.index t (0 : Fin 2) * 1024 + 1 * d.val = d.val; rw [e0]; omega
  | ⟨1, _⟩ => show win0_1.index t (1 : Fin 2) * 3072 + 1 * o.val = o.val; rw [e1]; omega
theorem down_tile (c : Dev nD) (t : Fin cfg0.N) (d : Fin 1024) (r : Fin 128) :
    (tile m c 2 t : S1024x128.Idx → EReal) (ix2 d r) = downIn m c (ix2 d r) := by
  obtain ⟨-, -, -, -, e0, e1, -⟩ := tile_places t
  show (entry m c main_v8 : S1024x128.Idx → EReal) (((cfg0.win 2).blk t).view.emb (ix2 d r)) = _
  refine congrArg (entry m c main_v8 : S1024x128.Idx → EReal) (funext fun a => Fin.ext ?_)
  match a with
  | ⟨0, _⟩ => show win0_2.index t (0 : Fin 2) * 1024 + 1 * d.val = d.val; rw [e0]; omega
  | ⟨1, _⟩ => show win0_2.index t (1 : Fin 2) * 128 + 1 * r.val = r.val; rw [e1]; omega
theorem up_tile (c : Dev nD) (t : Fin cfg0.N) (r : Fin 128) (o : Fin 3072) :
    (tile m c 3 t : S128x3072.Idx → EReal) (ix2 r o) = upIn m c (ix2 r o) := by
  obtain ⟨-, -, -, -, -, -, e0, e1, -⟩ := tile_places t
  show (entry m c main_v20 : S128x3072.Idx → EReal) (((cfg0.win 3).blk t).view.emb (ix2 r o)) = _
  refine congrArg (entry m c main_v20 : S128x3072.Idx → EReal) (funext fun a => Fin.ext ?_)
  match a with
  | ⟨0, _⟩ => show win0_3.index t (0 : Fin 2) * 128 + 1 * r.val = r.val; rw [e0]; omega
  | ⟨1, _⟩ => show win0_3.index t (1 : Fin 2) * 3072 + 1 * o.val = o.val; rw [e1]; omega
theorem bias_tile (c : Dev nD) (t : Fin cfg0.N) (z : Fin 1) (o : Fin 3072) :
    (tile m c 4 t : S1x3072.Idx → EReal) (ix2 z o) = biasIn m c (ix2 z o) := by
  obtain ⟨-, -, -, -, -, -, -, -, e0, e1, -⟩ := tile_places t
  show (entry m c main_v21 : S1x3072.Idx → EReal) (((cfg0.win 4).blk t).view.emb (ix2 z o)) = _
  refine congrArg (entry m c main_v21 : S1x3072.Idx → EReal) (funext fun a => Fin.ext ?_)
  match a with
  | ⟨0, _⟩ => show win0_4.index t (0 : Fin 2) * 1 + 1 * z.val = z.val; rw [e0]; omega
  | ⟨1, _⟩ => show win0_4.index t (1 : Fin 2) * 3072 + 1 * o.val = o.val; rw [e1]; omega

/-! ## What a point writes back, and the array after the run -/

/-- Point t writes back rows 512 t … 512 t + 511 of `outAll`. -/
theorem written_back (c : Dev nD) (t : Fin cfg0.N) :
    (regionData m 0 c).flushed 5 t = ((cfg0.win 5).blk t).view.read (Elt Ideal) (outAll m c) := by
  show (cfg0.win 5).cut (grid0.coords t) ((regionData m 0 c).after 5 t) = _
  rw [after5]
  unfold rowsOut
  rw [View.canon_unit_zero zero_off]
  simp only [View.ld_unit_zero (S := S512x1024) zero_off, View.ld_unit_zero (S := S1024x3072) zero_off,
    View.ld_unit_zero (S := S1024x128) zero_off, View.ld_unit_zero (S := S128x3072) zero_off,
    View.ld_unit_zero (S := S1x3072) zero_off]
  obtain ⟨-, -, -, -, -, -, -, -, -, -, e0, e1⟩ := tile_places t
  funext j
  obtain ⟨p, q, rfl⟩ : ∃ (p : Fin 512) (q : Fin 3072), j = ix2 p q := ⟨j 0, j 1, eq_ix2 j⟩
  show k0_pay1 (tile m c 0 t) (tile m c 1 t) (tile m c 2 t) (tile m c 3 t) (tile m c 4 t) (ix2 p q)
    = outAll m c (((cfg0.win 5).blk t).view.emb (ix2 p q))
  refine (payload_at (tile m c 0 t) (tile m c 1 t) (tile m c 2 t) (tile m c 3 t) (tile m c 4 t) p q).trans ?_
  have hn : (⟨((((cfg0.win 5).blk t).view.emb (ix2 p q) : S8192x3072.Idx) 0).val, idx2_lt0 _⟩ : Fin 8192)
      = ⟨t.val * 512 + p.val, by have := pt_lt t; omega⟩ :=
    Fin.ext (by show win0_5.index t (0 : Fin 2) * 512 + 1 * p.val = t.val * 512 + p.val; rw [e0]; omega)
  have ho : (⟨((((cfg0.win 5).blk t).view.emb (ix2 p q) : S8192x3072.Idx) 1).val, idx2_lt1 _⟩ : Fin 3072) = q :=
    Fin.ext (by show win0_5.index t (1 : Fin 2) * 3072 + 1 * q.val = q.val; rw [e1]; omega)
  show _ = cell (actsIn m c) (projIn m c) (downIn m c) (upIn m c) (biasIn m c) ⟨_, _⟩ ⟨_, _⟩
  rw [hn, ho]
  unfold cell
  simp only [acts_tile m c t, proj_tile m c t, down_tile m c t, up_tile m c t, bias_tile m c t]

/-- Every row of the output lies in the tile of the point its number divided by 512 names. -/
theorem tiles_cover (i : S8192x3072.Idx) :
    ∃ t : Fin cfg0.N, (cfg0.win 5).flush t = true ∧ i ∈ ((cfg0.win 5).blk t).view.set := by
  have h0 : (i 0).val < 8192 := idx2_lt0 i
  have h1 : (i 1).val < 3072 := idx2_lt1 i
  have hN : cfg0.N = 16 := N_0
  let t : Fin cfg0.N := ⟨(i 0).val / 512, by rw [hN]; omega⟩
  have ht : t.val = (i 0).val / 512 := rfl
  obtain ⟨-, -, -, -, -, -, -, -, -, -, e0, e1⟩ := tile_places t
  refine ⟨t, flush0_5 t, ?_⟩
  show i ∈ ((View.whole main_v22).slice (win0_5.rect t)).set
  rw [View.set_slice_whole, Rect.mem_set_unit]
  intro a
  match a with
  | ⟨0, _⟩ =>
    show win0_5.index t (0 : Fin 2) * 512 ≤ (i 0).val ∧ (i 0).val < win0_5.index t (0 : Fin 2) * 512 + 512
    rw [e0, ht]; omega
  | ⟨1, _⟩ =>
    show win0_5.index t (1 : Fin 2) * 3072 ≤ (i 1).val ∧ (i 1).val < win0_5.index t (1 : Fin 2) * 3072 + 3072
    rw [e1]; omega

/-- So the output array ends holding `outAll`. -/
theorem out_array (c : Dev nD) : (regionData m 0 c).arrAt 5 cfg0.N = outAll m c :=
  (regionData m 0 c).arrAt_eq_of_cover 5 (outAll m c) (fun t _ => written_back m c t) tiles_cover

/-! ## The result buffer -/

/-- The result after the closing reshape: the 8192 rows regrouped as 2 by 4096. -/
def result (c : Dev nD) : S2x4096x3072.Idx → EReal :=
  shapeCast S2x4096x3072 (outAll m c) shapeCasts_S8192x3072_S2x4096x3072

/-- Row (i, s) of the result is row 4096 i + s of the output array. -/
theorem result_at (c : Dev nD) (i : Fin 2) (s : Fin 4096) (o : Fin 3072) :
    result m c (ix3 i s o)
      = cell (actsIn m c) (projIn m c) (downIn m c) (upIn m c) (biasIn m c) (⟨4096 * i.val + s.val, by omega⟩ : Fin 8192) o := by
  unfold result
  refine (shapeCast_apply (outAll m c) shapeCasts_S8192x3072_S2x4096x3072 (ix3 i s o)
    (ix2 (⟨4096 * i.val + s.val, by omega⟩ : Fin 8192) o) ?_).trans rfl
  rw [Shape.rowMajor_val_two, Shape.rowMajor_val_three]
  show (4096 * i.val + s.val) * 3072 + o.val = (i.val * 4096 + s.val) * 3072 + o.val
  omega

/-- The closing reshape leaves `result` in the result buffer: it reads the output array, which the region left at
    `outAll`. -/
theorem tail_result (c : Dev nD) :
    Pipeline.afterTail₀ cfgs (regionData m) 0 (entry0 m) [hostOps1] c main_v23 = result m c := by
  unfold Pipeline.afterTail₀
  show StableHlo.after hostOps1 _ (Proc.devRef .tc main_v23) = _
  after_results
  have hw : Pipeline.withArrays (cfgs 0).spec c (entry0 m c) (fun w => (regionData m 0 c).arrAt w (cfgs 0).N)
      (Proc.devRef .tc main_v22) = outAll m c :=
    (Pipeline.withArrays_arr spec0 launch0.win.arr_inj c _ _ 5).trans (out_array m c)
  rw [hw]
  rfl

/-- The idealized kernel program's run, read: it ends with the result buffer at `result` and the ten arguments as
    launched. -/
theorem run_result : θ_run defs (onTc (τ := τ) (main (F := Ideal))) ⟨m, fun _ => 0, ρ⟩ (fun r => ∀ c : Dev nD,
      r.2.mem ((c.tc : Thread nD τ).loc main_v23) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h c).2 main_v23 (Pipeline.mem_restRefs_of main_v23 (by decide) (by decide))).trans (tail_result m c),
     ((h c).2 main_arg0 (Pipeline.mem_restRefs_of main_arg0 (by decide) (by decide))).trans (kept_to_the_end m (regionData m) c main_arg0 (by decide) (by decide) (by decide)),
     ((h c).2 main_arg1 (Pipeline.mem_restRefs_of main_arg1 (by decide) (by decide))).trans (kept_to_the_end m (regionData m) c main_arg1 (by decide) (by decide) (by decide)),
     ((h c).2 main_arg2 (Pipeline.mem_restRefs_of main_arg2 (by decide) (by decide))).trans (kept_to_the_end m (regionData m) c main_arg2 (by decide) (by decide) (by decide)),
     ((h c).2 main_arg3 (Pipeline.mem_restRefs_of main_arg3 (by decide) (by decide))).trans (kept_to_the_end m (regionData m) c main_arg3 (by decide) (by decide) (by decide)),
     ((h c).2 main_arg4 (Pipeline.mem_restRefs_of main_arg4 (by decide) (by decide))).trans (kept_to_the_end m (regionData m) c main_arg4 (by decide) (by decide) (by decide)),
     ((h c).2 main_arg5 (Pipeline.mem_restRefs_of main_arg5 (by decide) (by decide))).trans (kept_to_the_end m (regionData m) c main_arg5 (by decide) (by decide) (by decide)),
     ((h c).2 main_arg6 (Pipeline.mem_restRefs_of main_arg6 (by decide) (by decide))).trans (kept_to_the_end m (regionData m) c main_arg6 (by decide) (by decide) (by decide)),
     ((h c).2 main_arg7 (Pipeline.mem_restRefs_of main_arg7 (by decide) (by decide))).trans (kept_to_the_end m (regionData m) c main_arg7 (by decide) (by decide) (by decide)),
     ((h c).2 main_arg8 (Pipeline.mem_restRefs_of main_arg8 (by decide) (by decide))).trans (kept_to_the_end m (regionData m) c main_arg8 (by decide) (by decide) (by decide)),
     ((h c).2 main_arg9 (Pipeline.mem_restRefs_of main_arg9 (by decide) (by decide))).trans (kept_to_the_end m (regionData m) c main_arg9 (by decide) (by decide) (by decide))⟩)
    (run_around m ρ)

end Cert.KernelIdeal.Tiles

end
-- ==== Proof.LoraSpec.lean ====
/-
  The projection with low-rank adapters, index by index, and the two arrays the kernel's program lays the adapters out in.

  For a row (i, s) of activations x and an output column o:
      qkv = (sum over d of x[i,s,d] * W[o,d]  +  b[o])  +  alpha * delta[o]
  where the 3072 columns are three slices of 1024 — query, key, value — and on slice j, at local column e,
      delta = sum over r < 16 of (sum over d of x[i,s,d] * A_j[r,d]) * B_j[e,r].

  The kernel's program computes the same number from two laid-out weight arrays:
    `downCat`  [1024, 128]: A_q^T, A_k^T, A_v^T side by side (48 columns), then 80 zero columns;
    `upDiag`   [128, 3072]: alpha times the block diagonal of B_q^T, B_k^T, B_v^T (each 16 by 1024, zero off the
                 diagonal blocks), then 80 zero rows.
  Against them the adapters' contribution is one contraction over r < 128:
      sum over r of (sum over d of x[i,s,d] * downCat[d,r]) * upDiag[r,o].
  On a column of slice j only the sixteen r of block j meet a nonzero entry of `upDiag`, and there the entry is
  alpha * B_j[e, r']: the sum is alpha * delta once alpha is taken out of it, which is sound when every entry is a real.
-/
import Idealize.ShloMosaic.PureOps.Ideal
import Idealize.ShloMosaic.Lib.ValueIdx

noncomputable section

open scoped BigOperators

namespace Cert.Lora

open Idealize.ShloMosaic Idealize.ShloMosaic.ValueIdx

/-- Every entry of an array of extended reals is a real number. -/
def AllReal {S : Shape} (a : S.Idx → EReal) : Prop := ∀ j, a j ≠ ⊤ ∧ a j ≠ ⊥

/-- One adapter's contribution at row (i, s), local column e: (x · Aᵀ) · Bᵀ. -/
def delta (x : (⟨3, ![2, 4096, 1024]⟩ : Shape).Idx → EReal) (A : (⟨2, ![16, 1024]⟩ : Shape).Idx → EReal)
    (B : (⟨2, ![1024, 16]⟩ : Shape).Idx → EReal) (i : Fin 2) (s : Fin 4096) (e : Fin 1024) : EReal :=
  ∑ r : Fin 16, (∑ d : Fin 1024, x (ix3 i s d) * A (ix2 r d)) * B (ix2 e r)

/-- The adapters' contribution at column o of the 3072: slice o / 1024, local column o % 1024. -/
def deltaCat (x : (⟨3, ![2, 4096, 1024]⟩ : Shape).Idx → EReal)
    (Aq : (⟨2, ![16, 1024]⟩ : Shape).Idx → EReal) (Bq : (⟨2, ![1024, 16]⟩ : Shape).Idx → EReal)
    (Ak : (⟨2, ![16, 1024]⟩ : Shape).Idx → EReal) (Bk : (⟨2, ![1024, 16]⟩ : Shape).Idx → EReal)
    (Av : (⟨2, ![16, 1024]⟩ : Shape).Idx → EReal) (Bv : (⟨2, ![1024, 16]⟩ : Shape).Idx → EReal)
    (i : Fin 2) (s : Fin 4096) (o : Fin 3072) : EReal :=
  if h : o.val < 1024 then delta x Aq Bq i s ⟨o.val, h⟩
  else if h2 : o.val < 2048 then delta x Ak Bk i s ⟨o.val - 1024, by omega⟩
  else delta x Av Bv i s ⟨o.val - 2048, by omega⟩

/-- The projection with adapters at row (i, s), column o. -/
def qkv (x : (⟨3, ![2, 4096, 1024]⟩ : Shape).Idx → EReal) (W : (⟨2, ![3072, 1024]⟩ : Shape).Idx → EReal)
    (b : (⟨1, ![3072]⟩ : Shape).Idx → EReal)
    (Aq : (⟨2, ![16, 1024]⟩ : Shape).Idx → EReal) (Bq : (⟨2, ![1024, 16]⟩ : Shape).Idx → EReal)
    (Ak : (⟨2, ![16, 1024]⟩ : Shape).Idx → EReal) (Bk : (⟨2, ![1024, 16]⟩ : Shape).Idx → EReal)
    (Av : (⟨2, ![16, 1024]⟩ : Shape).Idx → EReal) (Bv : (⟨2, ![1024, 16]⟩ : Shape).Idx → EReal)
    (α : (⟨0, ![]⟩ : Shape).Idx → EReal) (i : Fin 2) (s : Fin 4096) (o : Fin 3072) : EReal :=
  ((∑ d : Fin 1024, x (ix3 i s d) * W (ix2 o d)) + b (ix1 o)) + α ix0 * deltaCat x Aq Bq Ak Bk Av Bv i s o

/-- The three down-projections transposed and side by side, then zero columns: entry (d, r). -/
def downCat (Aq Ak Av : (⟨2, ![16, 1024]⟩ : Shape).Idx → EReal) (d : Fin 1024) (r : Fin 128) : EReal :=
  if h : r.val < 16 then Aq (ix2 ⟨r.val, h⟩ d)
  else if h2 : r.val < 32 then Ak (ix2 ⟨r.val - 16, by omega⟩ d)
  else if h3 : r.val < 48 then Av (ix2 ⟨r.val - 32, by omega⟩ d)
  else 0

/-- The three up-projections transposed on a block diagonal between zero blocks, scaled by alpha, then zero rows:
    entry (r, o). -/
def upDiag (α : EReal) (Bq Bk Bv : (⟨2, ![1024, 16]⟩ : Shape).Idx → EReal) (r : Fin 128) (o : Fin 3072) : EReal :=
  if h : r.val < 16 then α * (if g : o.val < 1024 then Bq (ix2 ⟨o.val, g⟩ ⟨r.val, h⟩) else 0)
  else if h2 : r.val < 32 then
    α * (if g : 1024 ≤ o.val ∧ o.val < 2048 then Bk (ix2 ⟨o.val - 1024, by omega⟩ ⟨r.val - 16, by omega⟩) else 0)
  else if h3 : r.val < 48 then
    α * (if g : 2048 ≤ o.val then Bv (ix2 ⟨o.val - 2048, by omega⟩ ⟨r.val - 32, by omega⟩) else 0)
  else 0

/-- What the kernel's program computes at row (i, s), column o, from the laid-out weights:
    (x · Wᵀ + (x · downCat) · upDiag) + b. -/
def fused (x : (⟨3, ![2, 4096, 1024]⟩ : Shape).Idx → EReal) (W : (⟨2, ![3072, 1024]⟩ : Shape).Idx → EReal)
    (b : (⟨1, ![3072]⟩ : Shape).Idx → EReal)
    (Aq : (⟨2, ![16, 1024]⟩ : Shape).Idx → EReal) (Bq : (⟨2, ![1024, 16]⟩ : Shape).Idx → EReal)
    (Ak : (⟨2, ![16, 1024]⟩ : Shape).Idx → EReal) (Bk : (⟨2, ![1024, 16]⟩ : Shape).Idx → EReal)
    (Av : (⟨2, ![16, 1024]⟩ : Shape).Idx → EReal) (Bv : (⟨2, ![1024, 16]⟩ : Shape).Idx → EReal)
    (α : (⟨0, ![]⟩ : Shape).Idx → EReal) (i : Fin 2) (s : Fin 4096) (o : Fin 3072) : EReal :=
  ((∑ d : Fin 1024, x (ix3 i s d) * W (ix2 o d))
      + ∑ r : Fin 128, (∑ d : Fin 1024, x (ix3 i s d) * downCat Aq Ak Av d r) * upDiag (α ix0) Bq Bk Bv r o)
    + b (ix1 o)

end Cert.Lora

end
-- ==== Proof.LibHostLine.lean ====
/-
  Three facts about a straight line of host operations, general in the program.

  `after_app`: the buffer contents after two lines run one after the other are the second line's fold over the
  first's.  `nary3_result'`: an operation over a LITERAL family of three references (a concatenate of three
  operands) leaves in its result buffer its function of the three operands' contents, each read at its own reference, so
  that the rewriting of results can go on inside them.  `hlo_results` is the one simplifier pass that reads every
  operation of a literal list at a literal reference: at its own result the function's value, at any other reference what
  was there before.
-/
import Idealize.ShloMosaic.Lib.StableHlo.Run

namespace Idealize.ShloMosaic.StableHlo

open Idealize.ShloMosaic Idealize.SL.Sem

variable {nD : Nat} {τ : Topo} {sig : RefSig} {Val : EltTy → Type}

/-- Two lines in a row: the second folds over what the first left. -/
theorem after_app : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

variable {x a b y : Ref sig .tc}

/-- A three-operand operation's result, each operand's contents at its own reference. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

/-- Reads every operation of a literal list at a literal reference, in one pass. -/
macro "hlo_results" : tactic =>
  `(tactic| (simp (disch := decide) only [after_cons, after_nil,
      nullary_result', unary_result', binary_result', ternary_result', quaternary_result', reshape_result', nary4_result', nary3_result',
      nullary_result_ne', unary_result_ne', binary_result_ne', ternary_result_ne', quaternary_result_ne', reshape_result_ne',
      nary_result_ne']))

end Idealize.ShloMosaic.StableHlo
-- ==== Proof.Weights.lean ====
/-
  What the region finds in its four small input arrays and in the activations, entry by entry, in terms of the arguments:
  the activations' rows flattened, the projection matrix transposed, the down-projections side by side with zero
  columns behind, the bias as one row.
-/
import proofs.«407729_j4681514353405_3_alg».proof.Proof.AroundIdeal
import proofs.«407729_j4681514353405_3_alg».proof.Proof.LoraSpec
import proofs.«407729_j4681514353405_3_alg».proof.Proof.LibHostLine
import Idealize.ShloMosaic.Lib.Pipeline.Value
import Idealize.ShloMosaic.Lib.ValueIdx
import Idealize.ShloMosaic.Lib.ValueLayout
import Idealize.ShloMosaic.Lib.KernelVsHost
import Idealize.ShloMosaic.Lib.StableHlo.Run

noncomputable section

namespace Cert.KernelIdeal.Weights

open Idealize.ShloMosaic Idealize.ShloMosaic.TcCoe Idealize.SL.Sem Idealize.ShloMosaic.ValueIdx
open Cert.KernelIdeal Cert.KernelIdeal.Gen Cert.KernelIdeal.Around Cert.Lora

variable (m : (ℓ : Loc nD τ sig) → Buf (Elt Ideal) ℓ) (c : Dev nD)

/-! ## The activations: three axes flattened to two -/

/-- A [2, 4096, 1024] array recast as [8192, 1024] has, at row 4096 i + s and column d, its entry (i, s, d): both
    indices sit at the same place, (4096 i + s) * 1024 + d, when the entries are counted row by row. -/
theorem reshape_rows (x : S2x4096x1024.Idx → EReal) (h : S2x4096x1024.ShapeCasts S8192x1024)
    (i : Fin 2) (s : Fin 4096) (d : Fin 1024) :
    shapeCast S8192x1024 x h (ix2 (⟨4096 * i.val + s.val, by omega⟩ : Fin 8192) d) = x (ix3 i s d) :=
  shapeCast_apply x h _ _ (by
    rw [Shape.rowMajor_val_three, Shape.rowMajor_val_two]
    show (i.val * 4096 + s.val) * 1024 + d.val = (4096 * i.val + s.val) * 1024 + d.val
    rw [Nat.mul_comm i.val 4096])

/-- The flattened activations the region finds are the first argument recast from three axes to two. -/
theorem acts_term :
    (entry m c main_v0 : S8192x1024.Idx → EReal)
      = shapeCast S8192x1024 (m ((c : Thread nD τ).loc main_arg0) : S2x4096x1024.Idx → EReal)
          shapeCasts_S2x4096x1024_S8192x1024 := by
  dsimp only [entry, entry0]
  simp only [hostOps0, hostOps0_1, hostOps0_2, hostOps0_3, hostOps0_4, List.flatten_cons, List.flatten_nil, List.append_nil, List.cons_append, List.nil_append]
  after_results
  rfl

/-- Row 4096 i + s of the flattened activations is row (i, s). -/
theorem acts_at (i : Fin 2) (s : Fin 4096) (d : Fin 1024) :
    (entry m c main_v0 : S8192x1024.Idx → EReal) (ix2 (⟨4096 * i.val + s.val, by omega⟩ : Fin 8192) d)
      = (m ((c : Thread nD τ).loc main_arg0) : S2x4096x1024.Idx → EReal) (ix3 i s d) := by
  rw [acts_term m c]
  exact reshape_rows _ _ i s d

/-! ## The projection matrix: transposed, then a change of format that is the identity on ideal values -/

/-- The projection matrix the region finds is the second argument transposed and then narrowed in format. -/
theorem proj_term :
    (entry m c main_v2 : S1024x3072.Idx → EReal)
      = (truncf (F := Ideal) .bf16
          (transpose S1024x3072 [1, 0] (m ((c : Thread nD τ).loc main_arg1) : FVec Ideal S3072x1024 .f32)
            transposes_S3072x1024_S1024x3072_1_0) bitsLt_bf16_f32 : FVec Ideal S1024x3072 .bf16) := by
  dsimp only [entry, entry0]
  simp only [hostOps0, hostOps0_1, hostOps0_2, hostOps0_3, hostOps0_4, List.flatten_cons, List.flatten_nil, List.append_nil, List.cons_append, List.nil_append]
  after_results

/-- The projection matrix as the region finds it is W transposed (the change of format is the identity). -/
theorem proj_at (d : Fin 1024) (o : Fin 3072) :
    (entry m c main_v2 : S1024x3072.Idx → EReal) (ix2 d o) = (m ((c : Thread nD τ).loc main_arg1) : S3072x1024.Idx → EReal) (ix2 o d) := by
  rw [proj_term m c, truncf_apply]
  exact transpose_ix2_apply _ _ d o

/-! ## The down-projections: three transposes side by side, zero columns behind -/

/-- Three [1024, 16] arrays set side by side: a column below 16 is the same column of the first. -/
theorem cat_first (P0 P1 P2 : S1024x16.Idx → EReal) (h : Shape.Concatenates [S1024x16, S1024x16, S1024x16] S1024x48 1)
    (d : Fin 1024) (q : Fin 48) (e : Fin 16) (hq : q.val = e.val) :
    concatenate S1024x48 1 [⟨S1024x16, P0⟩, ⟨S1024x16, P1⟩, ⟨S1024x16, P2⟩] h (ix2 d q) = P0 (ix2 d e) :=
  concatenate_apply_piece (t := S1024x48) (1 : Fin 2) [⟨S1024x16, P0⟩, ⟨S1024x16, P1⟩, ⟨S1024x16, P2⟩] h (ix2 d q) 0 (by show 0 < 3; omega) S1024x16 P0 rfl rfl 0 rfl (ix2 d e)
    (fun b hb => match b, hb with
      | ⟨0, _⟩, _ => rfl
      | ⟨1, _⟩, hb => (hb (Fin.ext rfl)).elim)
    (by show 0 + e.val = q.val; omega)

/-- A column from 16 up to 32 is column less 16 of the second. -/
theorem cat_second (P0 P1 P2 : S1024x16.Idx → EReal) (h : Shape.Concatenates [S1024x16, S1024x16, S1024x16] S1024x48 1)
    (d : Fin 1024) (q : Fin 48) (e : Fin 16) (hq : q.val = 16 + e.val) :
    concatenate S1024x48 1 [⟨S1024x16, P0⟩, ⟨S1024x16, P1⟩, ⟨S1024x16, P2⟩] h (ix2 d q) = P1 (ix2 d e) :=
  concatenate_apply_piece (t := S1024x48) (1 : Fin 2) [⟨S1024x16, P0⟩, ⟨S1024x16, P1⟩, ⟨S1024x16, P2⟩] h (ix2 d q) 1 (by show 1 < 3; omega) S1024x16 P1 rfl rfl 16 rfl (ix2 d e)
    (fun b hb => match b, hb with
      | ⟨0, _⟩, _ => rfl
      | ⟨1, _⟩, hb => (hb (Fin.ext rfl)).elim)
    (by show 16 + e.val = q.val; omega)

/-- A column from 32 up is column less 32 of the third. -/
theorem cat_third (P0 P1 P2 : S1024x16.Idx → EReal) (h : Shape.Concatenates [S1024x16, S1024x16, S1024x16] S1024x48 1)
    (d : Fin 1024) (q : Fin 48) (e : Fin 16) (hq : q.val = 32 + e.val) :
    concatenate S1024x48 1 [⟨S1024x16, P0⟩, ⟨S1024x16, P1⟩, ⟨S1024x16, P2⟩] h (ix2 d q) = P2 (ix2 d e) :=
  concatenate_apply_piece (t := S1024x48) (1 : Fin 2) [⟨S1024x16, P0⟩, ⟨S1024x16, P1⟩, ⟨S1024x16, P2⟩] h (ix2 d q) 2 (by show 2 < 3; omega) S1024x16 P2 rfl rfl 32 rfl (ix2 d e)
    (fun b hb => match b, hb with
      | ⟨0, _⟩, _ => rfl
      | ⟨1, _⟩, hb => (hb (Fin.ext rfl)).elim)
    (by show 32 + e.val = q.val; omega)

/-- A [1024, 48] array with 80 columns of padding behind: a column below 48 is the array's own. -/
theorem pad_own (x : S1024x48.Idx → EReal) (z : S_.Idx → EReal)
    (hp : S1024x48.Pads (![0, 0] : Fin 2 → Nat) ![0, 80] ![0, 0] S1024x128) (hu : 0 < S_.numel)
    (d : Fin 1024) (r : Fin 128) (q : Fin 48) (hq : r.val = q.val) :
    pad S1024x128 ![0, 0] ![0, 80] ![0, 0] x z hp hu (ix2 d r) = x (ix2 d q) :=
  pad_apply_of_inside _ _ _ x z hp hu (ix2 d r) (ix2 d q) (fun a => match a with
    | ⟨0, _⟩ => by show d.val = 0 + d.val * (0 + 1); omega
    | ⟨1, _⟩ => by show r.val = 0 + q.val * (0 + 1); omega)

/-- A column from 48 up is the padding value. -/
theorem pad_behind (x : S1024x48.Idx → EReal) (z : S_.Idx → EReal)
    (hp : S1024x48.Pads (![0, 0] : Fin 2 → Nat) ![0, 80] ![0, 0] S1024x128) (hu : 0 < S_.numel)
    (d : Fin 1024) (r : Fin 128) (hr : 48 ≤ r.val) :
    pad S1024x128 ![0, 0] ![0, 80] ![0, 0] x z hp hu (ix2 d r) = z (Shape.Idx.first hu) :=
  pad_apply_of_not_inside _ _ _ x z hp hu (ix2 d r) (1 : Fin 2) (by
    show ¬(0 ≤ r.val ∧ (r.val - 0) % (0 + 1) = 0 ∧ (r.val - 0) / (0 + 1) < 48)
    rintro ⟨_, _, h3⟩
    rw [Nat.sub_zero, Nat.zero_add, Nat.div_one] at h3
    omega)

/-- The padding value, the integer zero converted, is zero. -/
theorem pad_value (j : S_.Idx) : (sitofp (F := Ideal) .f32 (constantI S_ 32 0#32) : FVec Ideal S_ .f32) j = 0 :=
  sitofp_zero (φ := .f32)

/-- The three down-projections transposed, set side by side and padded behind with a value that is zero are the
    layout of the specification, column range by column range: below 16, 16 to 32, 32 to 48, and from 48 up. -/
theorem laid_out_at (Aq Ak Av : S16x1024.Idx → EReal) (ht : S16x1024.Transposes [1, 0] S1024x16)
    (hc : Shape.Concatenates [S1024x16, S1024x16, S1024x16] S1024x48 1)
    (hp : S1024x48.Pads (![0, 0] : Fin 2 → Nat) ![0, 80] ![0, 0] S1024x128) (hu : 0 < S_.numel)
    (z : S_.Idx → EReal) (hz : ∀ j, z j = 0) (d : Fin 1024) (r : Fin 128) :
    pad S1024x128 ![0, 0] ![0, 80] ![0, 0]
        (concatenate S1024x48 1
          [⟨S1024x16, transpose S1024x16 [1, 0] Aq ht⟩, ⟨S1024x16, transpose S1024x16 [1, 0] Ak ht⟩,
           ⟨S1024x16, transpose S1024x16 [1, 0] Av ht⟩] hc)
        z hp hu (ix2 d r)
      = downCat Aq Ak Av d r := by
  unfold downCat
  by_cases h1 : r.val < 16
  · -- a column of the first block
    rw [dif_pos h1, pad_own _ z hp hu d r (⟨r.val, by omega⟩ : Fin 48) rfl,
      cat_first _ _ _ hc d (⟨r.val, by omega⟩ : Fin 48) (⟨r.val, h1⟩ : Fin 16) rfl]
    exact transpose_ix2_apply Aq ht d ⟨r.val, h1⟩
  · rw [dif_neg h1]
    by_cases h2 : r.val < 32
    · -- a column of the second block
      rw [dif_pos h2, pad_own _ z hp hu d r (⟨r.val, by omega⟩ : Fin 48) rfl,
        cat_second _ _ _ hc d (⟨r.val, by omega⟩ : Fin 48) (⟨r.val - 16, by omega⟩ : Fin 16)
          (by show r.val = 16 + (r.val - 16); omega)]
      exact transpose_ix2_apply Ak ht d ⟨r.val - 16, by omega⟩
    · rw [dif_neg h2]
      by_cases h3 : r.val < 48
      · -- a column of the third block
        rw [dif_pos h3, pad_own _ z hp hu d r (⟨r.val, by omega⟩ : Fin 48) rfl,
          cat_third _ _ _ hc d (⟨r.val, by omega⟩ : Fin 48) (⟨r.val - 32, by omega⟩ : Fin 16)
            (by show r.val = 32 + (r.val - 32); omega)]
        exact transpose_ix2_apply Av ht d ⟨r.val - 32, by omega⟩
      · -- a column of the padding
        rw [dif_neg h3, pad_behind _ z hp hu d r (by omega)]
        exact hz _

/-- The down-projections the region finds are the fourth, sixth and eighth arguments transposed, set side by side,
    padded behind with the integer zero converted, and then narrowed in format. -/
theorem down_term :
    (entry m c main_v8 : S1024x128.Idx → EReal)
      = (truncf (F := Ideal) .bf16
          (pad S1024x128 ![0, 0] ![0, 80] ![0, 0]
            (concatenate S1024x48 1
              [⟨S1024x16, transpose S1024x16 [1, 0] (m ((c : Thread nD τ).loc main_arg3) : FVec Ideal S16x1024 .f32) transposes_S16x1024_S1024x16_1_0⟩,
               ⟨S1024x16, transpose S1024x16 [1, 0] (m ((c : Thread nD τ).loc main_arg5) : FVec Ideal S16x1024 .f32) transposes_S16x1024_S1024x16_1_0⟩,
               ⟨S1024x16, transpose S1024x16 [1, 0] (m ((c : Thread nD τ).loc main_arg7) : FVec Ideal S16x1024 .f32) transposes_S16x1024_S1024x16_1_0⟩]
              concatenates_S1024x16_S1024x16_S1024x16_S1024x48_d1 : FVec Ideal S1024x48 .f32)
            (sitofp (F := Ideal) .f32 (constantI S_ 32 0#32) : FVec Ideal S_ .f32)
            pads_S1024x48_S1024x128_000_0800 h_S_ : FVec Ideal S1024x128 .f32)
          bitsLt_bf16_f32 : FVec Ideal S1024x128 .bf16) := by
  dsimp only [entry, entry0]
  simp only [hostOps0, hostOps0_1, hostOps0_2, hostOps0_3, hostOps0_4, List.flatten_cons, List.flatten_nil, List.append_nil, List.cons_append, List.nil_append]
  simp only [StableHlo.after_cons, StableHlo.after_nil]
  repeat (first
    | rw [StableHlo.nary3_result'] | rw [StableHlo.nullary_result] | rw [StableHlo.unary_result] | rw [StableHlo.binary_result]
    | rw [StableHlo.reshape_result]
    | (rw [StableHlo.nullary_result_ne]; rotate_left; decide)
    | (rw [StableHlo.unary_result_ne]; rotate_left; decide)
    | (rw [StableHlo.binary_result_ne]; rotate_left; decide)
    | (rw [StableHlo.reshape_result_ne]; rotate_left; decide)
    | (rw [StableHlo.nary_result_ne]; rotate_left; decide))
  simp only [StableHlo.TRef.ofBuf, StableHlo.TRef.toBuf, cast_eq]
  rfl

/-- The down-projections as the region finds them. -/
theorem down_at (d : Fin 1024) (r : Fin 128) :
    (entry m c main_v8 : S1024x128.Idx → EReal) (ix2 d r)
      = downCat (m ((c : Thread nD τ).loc main_arg3)) (m ((c : Thread nD τ).loc main_arg5)) (m ((c : Thread nD τ).loc main_arg7)) d r := by
  rw [down_term m c, truncf_apply]
  exact laid_out_at _ _ _ _ _ _ _ _ pad_value d r

/-! ## The bias: one axis recast as one row -/

/-- A [3072] array recast as [1, 3072] has, at (0, o), its entry o: both sit at place o. -/
theorem reshape_row (x : S3072.Idx → EReal) (h : S3072.ShapeCasts S1x3072) (o : Fin 3072) :
    shapeCast S1x3072 x h (ix2 (0 : Fin 1) o) = x (ix1 o) :=
  shapeCast_apply x h _ _ (by
    rw [Shape.rowMajor_val_one, Shape.rowMajor_val_two]
    show o.val = 0 * 3072 + o.val
    rw [Nat.zero_mul, Nat.zero_add])

/-- The bias the region finds is the third argument recast as one row. -/
theorem bias_term :
    (entry m c main_v21 : S1x3072.Idx → EReal)
      = shapeCast S1x3072 (m ((c : Thread nD τ).loc main_arg2) : S3072.Idx → EReal) shapeCasts_S3072_S1x3072 := by
  dsimp only [entry, entry0]
  simp only [hostOps0, hostOps0_1, hostOps0_2, hostOps0_3, hostOps0_4, List.flatten_cons, List.flatten_nil, List.append_nil, List.cons_append, List.nil_append]
  after_results
  rfl

/-- The bias as the region finds it: one row. -/
theorem bias_at (o : Fin 3072) :
    (entry m c main_v21 : S1x3072.Idx → EReal) (ix2 (0 : Fin 1) o) = (m ((c : Thread nD τ).loc main_arg2) : S3072.Idx → EReal) (ix1 o) := by
  rw [bias_term m c]
  exact reshape_row _ _ o

end Cert.KernelIdeal.Weights

end
-- ==== Proof.UpWeights.lean ====
/-
  What the region finds in the up-projection array, entry by entry: alpha times the block diagonal of the three
  transposed up-projections, with zero rows behind.

  The array is made by a line of host operations, none of which writes an argument.  The line is read in stretches, each
  over an arbitrary state of the buffers before it: the zero block and the three transposes; the three rows of blocks
  (a transpose and two zero blocks side by side, the transpose in the first, second and third place); the three rows
  stacked and scaled by alpha; eighty rows of the converted integer zero set behind; the narrowing, which changes no
  ideal value.  Composed, the stretches give the array as one term of alpha and the three up-projections.

  That term is then read at an entry (r, o), outermost step first.  For r below 48 the padding and the scaling leave
  alpha times the entry of the stacked rows; r / 16 says which row of blocks, o / 1024 which block of it, and the block is
  the transposed up-projection exactly when the two agree, a zero block otherwise.  For r from 48 on the entry is the
  padding's zero.  These are the branches of the specification's block diagonal, in the same order.
-/
import proofs.«407729_j4681514353405_3_alg».proof.Proof.AroundIdeal
import proofs.«407729_j4681514353405_3_alg».proof.Proof.LoraSpec
import proofs.«407729_j4681514353405_3_alg».proof.Proof.LibHostLine
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost
import Idealize.ShloMosaic.Lib.StableHlo.Run

noncomputable section

namespace Cert.KernelIdeal.UpWeights

open Idealize.ShloMosaic Idealize.ShloMosaic.TcCoe Idealize.SL.Sem Idealize.ShloMosaic.ValueIdx
open Cert.KernelIdeal Cert.KernelIdeal.Gen Cert.KernelIdeal.Around Cert.Lora

variable (m : (ℓ : Loc nD τ sig) → Buf (Elt Ideal) ℓ) (c : Dev nD)

/-! ## The layout steps, as functions of plainly typed arrays -/

/-- An up-projection [1024, 16] transposed to [16, 1024]. -/
def transposed (B : S1024x16.Idx → EReal) : S16x1024.Idx → EReal :=
  transpose S16x1024 [1, 0] B transposes_S1024x16_S16x1024_1_0

/-- The [16, 1024] block of the float zero. -/
def zeroBlock : S16x1024.Idx → EReal :=
  broadcastInDim S16x1024 ![] bcast_S_S16x1024 (constant (F := Ideal) S_ .f32 0x00000000#32)

/-- Three [16, 1024] blocks side by side: one row of blocks, [16, 3072]. -/
def sideBySide (a b c : S16x1024.Idx → EReal) : S16x3072.Idx → EReal :=
  concatenate S16x3072 1 [⟨S16x1024, a⟩, ⟨S16x1024, b⟩, ⟨S16x1024, c⟩] concatenates_S16x1024_S16x1024_S16x1024_S16x3072_d1

/-- Three rows of blocks one under the other: [48, 3072]. -/
def stacked (a b c : S16x3072.Idx → EReal) : S48x3072.Idx → EReal :=
  concatenate S48x3072 0 [⟨S16x3072, a⟩, ⟨S16x3072, b⟩, ⟨S16x3072, c⟩] concatenates_S16x3072_S16x3072_S16x3072_S48x3072_d0

/-- Every entry of a [48, 3072] array multiplied by one scalar, the scalar on the left. -/
def scaledBy (α : S_.Idx → EReal) (x : S48x3072.Idx → EReal) : S48x3072.Idx → EReal :=
  mulf (F := Ideal) (φ := .f32) (broadcastInDim S48x3072 ![] bcast_S_S48x3072 α) x

/-- Eighty rows of a converted integer behind a [48, 3072] array: [128, 3072]. -/
def rowsBehind (x : S48x3072.Idx → EReal) (z : S_.Idx → BitVec 32) : S128x3072.Idx → EReal :=
  pad S128x3072 ![0, 0] ![80, 0] ![0, 0] x (sitofp (F := Ideal) .f32 z) pads_S48x3072_S128x3072_0800_000 h_S_

/-- The narrowing of a [128, 3072] array of floats to the shorter format. -/
def narrowed (x : S128x3072.Idx → EReal) : S128x3072.Idx → EReal :=
  truncf (F := Ideal) (φ := .f32) .bf16 x bitsLt_bf16_f32

/-! ## The line of host operations, stretch by stretch -/

/-- Of the thirteen operations that build the block diagonal, the first six: the zero block and the three transposes. -/
abbrev layBlocks : List (HloOp τ sig (Elt Ideal)) := (hostOps0_2 (F := Ideal)).take 6
/-- The next three: the three rows of blocks. -/
abbrev layRows : List (HloOp τ sig (Elt Ideal)) := ((hostOps0_2 (F := Ideal)).drop 6).take 3
/-- The last four: the three rows stacked, the scaling by alpha, and the integer zero the padding is made from. -/
abbrev layScaled : List (HloOp τ sig (Elt Ideal)) := (hostOps0_2 (F := Ideal)).drop 9

/-- The last stretch narrows the padded array. -/
theorem read_v20 (W : Valuation τ sig (Elt Ideal)) :
    (StableHlo.after (hostOps0_4 (F := Ideal)) W (Proc.devRef .tc main_v20) : S128x3072.Idx → EReal)
      = narrowed (W (Proc.devRef .tc main_v19)) := by
  simp only [hostOps0_4]
  hlo_results
  rfl

/-- The padding stretch sets eighty rows of the converted integer behind the scaled array. -/
theorem read_v19 (W : Valuation τ sig (Elt Ideal)) :
    (StableHlo.after (hostOps0_3 (F := Ideal)) W (Proc.devRef .tc main_v19) : S128x3072.Idx → EReal)
      = rowsBehind (W (Proc.devRef .tc main_v18)) (W (Proc.devRef .tc main_c_0)) := by
  simp only [hostOps0_3]
  hlo_results
  rfl

/-- The scaling stretch: the three rows of blocks stacked, times alpha. -/
theorem read_v18 (W : Valuation τ sig (Elt Ideal)) :
    (StableHlo.after layScaled W (Proc.devRef .tc main_v18) : S48x3072.Idx → EReal)
      = scaledBy (W (Proc.devRef .tc main_arg9))
          (stacked (W (Proc.devRef .tc main_v13)) (W (Proc.devRef .tc main_v14)) (W (Proc.devRef .tc main_v15))) := by
  simp only [layScaled, hostOps0_2, List.drop_succ_cons, List.drop_zero]
  hlo_results
  rfl

/-- The scaling stretch ends with the integer zero. -/
theorem read_c_0 (W : Valuation τ sig (Elt Ideal)) :
    (StableHlo.after layScaled W (Proc.devRef .tc main_c_0) : S_.Idx → BitVec 32) = constantI S_ 32 0#32 := by
  simp only [layScaled, hostOps0_2, List.drop_succ_cons, List.drop_zero]
  hlo_results

/-- The first row of blocks: the first transposed up-projection, then two zero blocks. -/
theorem read_v13 (W : Valuation τ sig (Elt Ideal)) :
    (StableHlo.after layRows W (Proc.devRef .tc main_v13) : S16x3072.Idx → EReal)
      = sideBySide (W (Proc.devRef .tc main_v10)) (W (Proc.devRef .tc main_v9)) (W (Proc.devRef .tc main_v9)) := by
  simp only [layRows, hostOps0_2, List.drop_succ_cons, List.drop_zero, List.take_succ_cons, List.take_zero]
  hlo_results
  rfl

/-- The second row of blocks: a zero block, the second transposed up-projection, a zero block. -/
theorem read_v14 (W : Valuation τ sig (Elt Ideal)) :
    (StableHlo.after layRows W (Proc.devRef .tc main_v14) : S16x3072.Idx → EReal)
      = sideBySide (W (Proc.devRef .tc main_v9)) (W (Proc.devRef .tc main_v11)) (W (Proc.devRef .tc main_v9)) := by
  simp only [layRows, hostOps0_2, List.drop_succ_cons, List.drop_zero, List.take_succ_cons, List.take_zero]
  hlo_results
  rfl

/-- The third row of blocks: two zero blocks, then the third transposed up-projection. -/
theorem read_v15 (W : Valuation τ sig (Elt Ideal)) :
    (StableHlo.after layRows W (Proc.devRef .tc main_v15) : S16x3072.Idx → EReal)
      = sideBySide (W (Proc.devRef .tc main_v9)) (W (Proc.devRef .tc main_v9)) (W (Proc.devRef .tc main_v12)) := by
  simp only [layRows, hostOps0_2, List.drop_succ_cons, List.drop_zero, List.take_succ_cons, List.take_zero]
  hlo_results
  rfl

/-- The first stretch of the block diagonal's operations makes the zero block … -/
theorem read_v9 (W : Valuation τ sig (Elt Ideal)) :
    (StableHlo.after layBlocks W (Proc.devRef .tc main_v9) : S16x1024.Idx → EReal) = zeroBlock := by
  simp only [layBlocks, hostOps0_2, List.take_succ_cons, List.take_zero]
  hlo_results
  rfl

/-- … and the three transposes; the first up-projection transposed. -/
theorem read_v10 (W : Valuation τ sig (Elt Ideal)) :
    (StableHlo.after layBlocks W (Proc.devRef .tc main_v10) : S16x1024.Idx → EReal)
      = transposed (W (Proc.devRef .tc main_arg4)) := by
  simp only [layBlocks, hostOps0_2, List.take_succ_cons, List.take_zero]
  hlo_results
  rfl

/-- The second up-projection transposed. -/
theorem read_v11 (W : Valuation τ sig (Elt Ideal)) :
    (StableHlo.after layBlocks W (Proc.devRef .tc main_v11) : S16x1024.Idx → EReal)
      = transposed (W (Proc.devRef .tc main_arg6)) := by
  simp only [layBlocks, hostOps0_2, List.take_succ_cons, List.take_zero]
  hlo_results
  rfl

/-- The third up-projection transposed. -/
theorem read_v12 (W : Valuation τ sig (Elt Ideal)) :
    (StableHlo.after layBlocks W (Proc.devRef .tc main_v12) : S16x1024.Idx → EReal)
      = transposed (W (Proc.devRef .tc main_arg8)) := by
  simp only [layBlocks, hostOps0_2, List.take_succ_cons, List.take_zero]
  hlo_results
  rfl

/-! No operation of the line writes an argument: the three up-projections and alpha pass through the stretches before
    the one that reads them. -/

/-- The line's first stretch leaves the three up-projections and alpha as they were. -/
theorem kept_first (W : Valuation τ sig (Elt Ideal)) :
    StableHlo.after (hostOps0 (F := Ideal)) W (Proc.devRef .tc main_arg4) = W (Proc.devRef .tc main_arg4)
    ∧ StableHlo.after (hostOps0 (F := Ideal)) W (Proc.devRef .tc main_arg6) = W (Proc.devRef .tc main_arg6)
    ∧ StableHlo.after (hostOps0 (F := Ideal)) W (Proc.devRef .tc main_arg8) = W (Proc.devRef .tc main_arg8)
    ∧ StableHlo.after (hostOps0 (F := Ideal)) W (Proc.devRef .tc main_arg9) = W (Proc.devRef .tc main_arg9) := by
  simp only [hostOps0]
  refine ⟨?_, ?_, ?_, ?_⟩ <;> hlo_results

/-- So does its second stretch. -/
theorem kept_second (W : Valuation τ sig (Elt Ideal)) :
    StableHlo.after (hostOps0_1 (F := Ideal)) W (Proc.devRef .tc main_arg4) = W (Proc.devRef .tc main_arg4)
    ∧ StableHlo.after (hostOps0_1 (F := Ideal)) W (Proc.devRef .tc main_arg6) = W (Proc.devRef .tc main_arg6)
    ∧ StableHlo.after (hostOps0_1 (F := Ideal)) W (Proc.devRef .tc main_arg8) = W (Proc.devRef .tc main_arg8)
    ∧ StableHlo.after (hostOps0_1 (F := Ideal)) W (Proc.devRef .tc main_arg9) = W (Proc.devRef .tc main_arg9) := by
  simp only [hostOps0_1]
  refine ⟨?_, ?_, ?_, ?_⟩ <;> hlo_results

/-- The stretch of the zero block and the transposes leaves alpha as it was. -/
theorem kept_blocks (W : Valuation τ sig (Elt Ideal)) :
    StableHlo.after layBlocks W (Proc.devRef .tc main_arg9) = W (Proc.devRef .tc main_arg9) := by
  simp only [layBlocks, hostOps0_2, List.take_succ_cons, List.take_zero]
  hlo_results

/-- So does the stretch of the three rows of blocks. -/
theorem kept_rows (W : Valuation τ sig (Elt Ideal)) :
    StableHlo.after layRows W (Proc.devRef .tc main_arg9) = W (Proc.devRef .tc main_arg9) := by
  simp only [layRows, hostOps0_2, List.drop_succ_cons, List.drop_zero, List.take_succ_cons, List.take_zero]
  hlo_results

/-! ## The whole array as one term -/

/-- The up-projection array the region finds, as a term of alpha and the three up-projections: the three transposes on
    a block diagonal between zero blocks, scaled by alpha, eighty rows of the converted integer zero behind, narrowed. -/
theorem up_term :
    (entry m c main_v20 : S128x3072.Idx → EReal)
      = narrowed (rowsBehind
          (scaledBy (m ((c : Thread nD τ).loc main_arg9))
            (stacked
              (sideBySide (transposed (m ((c : Thread nD τ).loc main_arg4))) zeroBlock zeroBlock)
              (sideBySide zeroBlock (transposed (m ((c : Thread nD τ).loc main_arg6))) zeroBlock)
              (sideBySide zeroBlock zeroBlock (transposed (m ((c : Thread nD τ).loc main_arg8))))))
          (constantI S_ 32 0#32)) := by
  show StableHlo.after (hostOps0 (F := Ideal) ++ (hostOps0_1 ++ (layBlocks ++ (layRows ++ (layScaled ++ (hostOps0_3 ++ hostOps0_4))))))
      (fun b => m (c, b)) (Proc.devRef .tc main_v20) = _
  simp only [StableHlo.after_app]
  rw [read_v20, read_v19, read_v18, read_c_0, read_v13, read_v14, read_v15, read_v9, read_v10, read_v11, read_v12,
    kept_rows, kept_blocks, (kept_second _).1, (kept_second _).2.1, (kept_second _).2.2.1, (kept_second _).2.2.2,
    (kept_first _).1, (kept_first _).2.1, (kept_first _).2.2.1, (kept_first _).2.2.2]

/-! ## Each layout step read at an index -/

/-- The transposed up-projection at (k, e) is the up-projection at (e, k). -/
theorem transposed_apply (B : S1024x16.Idx → EReal) (k : Fin 16) (e : Fin 1024) :
    transposed B (ix2 k e) = B (ix2 e k) := by
  unfold transposed
  exact transpose_ix2_apply B transposes_S1024x16_S16x1024_1_0 k e

/-- Every entry of the zero block is the extended real zero. -/
theorem zeroBlock_apply (j : S16x1024.Idx) : zeroBlock j = 0 := by
  unfold zeroBlock
  rw [broadcastInDim_scalar_apply, constant_apply, Ideal.ofBits_zero_f32]

/-- A row of blocks at a column below 1024 reads its first block there. -/
theorem sideBySide_first (a b c : S16x1024.Idx → EReal) (k : Fin 16) (o : Fin 3072) (h : o.val < 1024) :
    sideBySide a b c (ix2 k o) = a (ix2 k ⟨o.val, h⟩) := by
  unfold sideBySide
  refine concatenate_apply_piece (1 : Fin S16x3072.rank) [⟨S16x1024, a⟩, ⟨S16x1024, b⟩, ⟨S16x1024, c⟩]
    concatenates_S16x1024_S16x1024_S16x1024_S16x3072_d1 (ix2 k o)
    0 (by simp) S16x1024 a rfl rfl 0 rfl (ix2 k ⟨o.val, h⟩) ?_ ?_
  · intro d hd
    match d with
    | ⟨0, _⟩ => rfl
    | ⟨1, _⟩ => exact absurd rfl hd
  · show 0 + o.val = o.val
    omega

/-- At a column from 1024 up to 2048 it reads its second block, 1024 columns to the left. -/
theorem sideBySide_second (a b c : S16x1024.Idx → EReal) (k : Fin 16) (o : Fin 3072) (h1 : 1024 ≤ o.val)
    (h2 : o.val < 2048) :
    sideBySide a b c (ix2 k o) = b (ix2 k ⟨o.val - 1024, by omega⟩) := by
  unfold sideBySide
  refine concatenate_apply_piece (1 : Fin S16x3072.rank) [⟨S16x1024, a⟩, ⟨S16x1024, b⟩, ⟨S16x1024, c⟩]
    concatenates_S16x1024_S16x1024_S16x1024_S16x3072_d1 (ix2 k o)
    1 (by simp) S16x1024 b rfl rfl 1024 rfl (ix2 k ⟨o.val - 1024, by omega⟩) ?_ ?_
  · intro d hd
    match d with
    | ⟨0, _⟩ => rfl
    | ⟨1, _⟩ => exact absurd rfl hd
  · show 1024 + (o.val - 1024) = o.val
    omega

/-- At a column from 2048 on it reads its third block, 2048 columns to the left. -/
theorem sideBySide_third (a b c : S16x1024.Idx → EReal) (k : Fin 16) (o : Fin 3072) (h : 2048 ≤ o.val) :
    sideBySide a b c (ix2 k o) = c (ix2 k ⟨o.val - 2048, by have := o.isLt; omega⟩) := by
  unfold sideBySide
  refine concatenate_apply_piece (1 : Fin S16x3072.rank) [⟨S16x1024, a⟩, ⟨S16x1024, b⟩, ⟨S16x1024, c⟩]
    concatenates_S16x1024_S16x1024_S16x1024_S16x3072_d1 (ix2 k o)
    2 (by simp) S16x1024 c rfl rfl 2048 rfl (ix2 k ⟨o.val - 2048, by have := o.isLt; omega⟩) ?_ ?_
  · intro d hd
    match d with
    | ⟨0, _⟩ => rfl
    | ⟨1, _⟩ => exact absurd rfl hd
  · show 2048 + (o.val - 2048) = o.val
    omega

/-- Three rows of blocks stacked, at a row below 16, read the first row of blocks there. -/
theorem stacked_first (a b c : S16x3072.Idx → EReal) (r : Fin 48) (o : Fin 3072) (h : r.val < 16) :
    stacked a b c (ix2 r o) = a (ix2 ⟨r.val, h⟩ o) := by
  unfold stacked
  refine concatenate_apply_piece (0 : Fin S48x3072.rank) [⟨S16x3072, a⟩, ⟨S16x3072, b⟩, ⟨S16x3072, c⟩]
    concatenates_S16x3072_S16x3072_S16x3072_S48x3072_d0 (ix2 r o)
    0 (by simp) S16x3072 a rfl rfl 0 rfl (ix2 ⟨r.val, h⟩ o) ?_ ?_
  · intro d hd
    match d with
    | ⟨0, _⟩ => exact absurd rfl hd
    | ⟨1, _⟩ => rfl
  · show 0 + r.val = r.val
    omega

/-- At a row from 16 up to 32 they read the second row of blocks, 16 rows up. -/
theorem stacked_second (a b c : S16x3072.Idx → EReal) (r : Fin 48) (o : Fin 3072) (h1 : 16 ≤ r.val) (h2 : r.val < 32) :
    stacked a b c (ix2 r o) = b (ix2 ⟨r.val - 16, by omega⟩ o) := by
  unfold stacked
  refine concatenate_apply_piece (0 : Fin S48x3072.rank) [⟨S16x3072, a⟩, ⟨S16x3072, b⟩, ⟨S16x3072, c⟩]
    concatenates_S16x3072_S16x3072_S16x3072_S48x3072_d0 (ix2 r o)
    1 (by simp) S16x3072 b rfl rfl 16 rfl (ix2 ⟨r.val - 16, by omega⟩ o) ?_ ?_
  · intro d hd
    match d with
    | ⟨0, _⟩ => exact absurd rfl hd
    | ⟨1, _⟩ => rfl
  · show 16 + (r.val - 16) = r.val
    omega

/-- At a row from 32 on they read the third row of blocks, 32 rows up. -/
theorem stacked_third (a b c : S16x3072.Idx → EReal) (r : Fin 48) (o : Fin 3072) (h : 32 ≤ r.val) :
    stacked a b c (ix2 r o) = c (ix2 ⟨r.val - 32, by have := r.isLt; omega⟩ o) := by
  unfold stacked
  refine concatenate_apply_piece (0 : Fin S48x3072.rank) [⟨S16x3072, a⟩, ⟨S16x3072, b⟩, ⟨S16x3072, c⟩]
    concatenates_S16x3072_S16x3072_S16x3072_S48x3072_d0 (ix2 r o)
    2 (by simp) S16x3072 c rfl rfl 32 rfl (ix2 ⟨r.val - 32, by have := r.isLt; omega⟩ o) ?_ ?_
  · intro d hd
    match d with
    | ⟨0, _⟩ => exact absurd rfl hd
    | ⟨1, _⟩ => rfl
  · show 32 + (r.val - 32) = r.val
    omega

/-- A scaled array at an index is the scalar times the entry. -/
theorem scaledBy_apply (α : S_.Idx → EReal) (x : S48x3072.Idx → EReal) (j : S48x3072.Idx) :
    scaledBy α x j = α ix0 * x j := by
  unfold scaledBy
  rw [mulf_apply, broadcastInDim_scalar_apply]

/-- Above the rows set behind, the padded array is the array. -/
theorem rowsBehind_inside (x : S48x3072.Idx → EReal) (z : S_.Idx → BitVec 32) (r : Fin 128) (o : Fin 3072)
    (h : r.val < 48) : rowsBehind x z (ix2 r o) = x (ix2 ⟨r.val, h⟩ o) := by
  unfold rowsBehind
  refine pad_apply_of_inside _ _ _ x _ pads_S48x3072_S128x3072_0800_000 h_S_ (ix2 r o) (ix2 ⟨r.val, h⟩ o) ?_
  intro d
  match d with
  | ⟨0, _⟩ => show r.val = 0 + r.val * (0 + 1); omega
  | ⟨1, _⟩ => show o.val = 0 + o.val * (0 + 1); omega

/-- In the rows set behind, with the integer zero converted, it is the extended real zero. -/
theorem rowsBehind_outside (x : S48x3072.Idx → EReal) (r : Fin 128) (o : Fin 3072) (h : 48 ≤ r.val) :
    rowsBehind x (constantI S_ 32 0#32) (ix2 r o) = 0 := by
  unfold rowsBehind
  rw [pad_apply_of_not_inside _ _ _ x _ pads_S48x3072_S128x3072_0800_000 h_S_ (ix2 r o) (0 : Fin S48x3072.rank) (by
    intro hh
    have h3 := hh.2.2
    change (r.val - 0) / (0 + 1) < 48 at h3
    omega)]
  exact sitofp_zero (φ := .f32)

/-- At the ideal values the narrowing changes no entry. -/
theorem narrowed_apply (x : S128x3072.Idx → EReal) (j : S128x3072.Idx) : narrowed x j = x j := rfl

/-! ## The statement -/

/-- The up-projections as the region finds them. -/
theorem up_at (r : Fin 128) (o : Fin 3072) :
    (entry m c main_v20 : S128x3072.Idx → EReal) (ix2 r o)
      = upDiag ((m ((c : Thread nD τ).loc main_arg9) : S_.Idx → EReal) ix0) (m ((c : Thread nD τ).loc main_arg4))
          (m ((c : Thread nD τ).loc main_arg6)) (m ((c : Thread nD τ).loc main_arg8)) r o := by
  refine (congrFun (up_term m c) (ix2 r o)).trans ?_
  rw [narrowed_apply]
  unfold upDiag
  by_cases h48 : r.val < 48
  · -- a row of the scaled block diagonal: alpha times the entry of the three stacked rows of blocks
    rw [rowsBehind_inside _ _ r o h48, scaledBy_apply]
    by_cases h16 : r.val < 16
    · -- the first row of blocks: the first up-projection, then zeros
      rw [dif_pos h16, stacked_first _ _ _ ⟨r.val, h48⟩ o h16]
      by_cases g : o.val < 1024
      · rw [dif_pos g, sideBySide_first _ _ _ _ o g, transposed_apply]
      · rw [dif_neg g]
        by_cases g2 : o.val < 2048
        · rw [sideBySide_second _ _ _ _ o (by omega) g2, zeroBlock_apply]
        · rw [sideBySide_third _ _ _ _ o (by omega), zeroBlock_apply]
    · rw [dif_neg h16]
      by_cases h32 : r.val < 32
      · -- the second row of blocks: zeros, the second up-projection, zeros
        rw [dif_pos h32, stacked_second _ _ _ ⟨r.val, h48⟩ o (by show 16 ≤ r.val; omega) h32]
        by_cases g : o.val < 1024
        · rw [dif_neg (by omega : ¬(1024 ≤ o.val ∧ o.val < 2048)), sideBySide_first _ _ _ _ o g, zeroBlock_apply]
        · by_cases g2 : o.val < 2048
          · rw [dif_pos (⟨by omega, g2⟩ : 1024 ≤ o.val ∧ o.val < 2048), sideBySide_second _ _ _ _ o (by omega) g2,
              transposed_apply]
          · rw [dif_neg (by omega : ¬(1024 ≤ o.val ∧ o.val < 2048)), sideBySide_third _ _ _ _ o (by omega),
              zeroBlock_apply]
      · -- the third row of blocks: zeros, then the third up-projection
        rw [dif_neg h32, dif_pos h48, stacked_third _ _ _ ⟨r.val, h48⟩ o (by show 32 ≤ r.val; omega)]
        by_cases g : o.val < 1024
        · rw [dif_neg (by omega : ¬(2048 ≤ o.val)), sideBySide_first _ _ _ _ o g, zeroBlock_apply]
        · by_cases g2 : o.val < 2048
          · rw [dif_neg (by omega : ¬(2048 ≤ o.val)), sideBySide_second _ _ _ _ o (by omega) g2, zeroBlock_apply]
          · rw [dif_pos (by omega : 2048 ≤ o.val), sideBySide_third _ _ _ _ o (by omega), transposed_apply]
  · -- a row set behind: the padding's zero on the one side, the specification's zero rows on the other
    rw [rowsBehind_outside _ r o (by omega), dif_neg (by omega : ¬(r.val < 16)), dif_neg (by omega : ¬(r.val < 32)),
      dif_neg h48]

end Cert.KernelIdeal.UpWeights

end
-- ==== Proof.LoraLaw.lean ====
/-
  The fused form the kernel's program computes is the projection with adapters, when every entry is a real.

  The contraction over the 128 laid-out columns is cut into its three runs of sixteen and its eighty padding columns.
  On each run the laid-out arrays are read back as one adapter's entries; on a column of one slice the two other
  runs meet only zeros of the block diagonal, and the padding meets only zeros. What is left is
  sum over r < 16 of xa r * (alpha * B[e, r]); taking alpha out of that sum is done over the reals, which is where the
  hypothesis that every entry is a real is used. Last, the bias is added before or after: addition commutes.
-/
import proofs.«407729_j4681514353405_3_alg».proof.Proof.LoraSpec
import Mathlib.Algebra.BigOperators.Fin
import Mathlib.Data.EReal.Basic
import Mathlib.Tactic.Ring

noncomputable section

open scoped BigOperators

namespace Cert.Lora

open Idealize.ShloMosaic Idealize.ShloMosaic.ValueIdx

/-! ## Reals inside the extended reals -/

/-- The coercion from the reals to the extended reals commutes with a finite sum. -/
theorem coe_finset_sum {ι : Type*} (t : Finset ι) (f : ι → ℝ) :
    ((∑ k ∈ t, f k : ℝ) : EReal) = ∑ k ∈ t, (f k : EReal) := by
  classical
  induction t using Finset.induction_on with
  | empty => simp only [Finset.sum_empty, EReal.coe_zero]
  | insert a t ha ih => rw [Finset.sum_insert ha, Finset.sum_insert ha, EReal.coe_add, ih]

/-- A product of two reals is a real. -/
theorem mul_real {a b : EReal} (ha : a ≠ ⊤ ∧ a ≠ ⊥) (hb : b ≠ ⊤ ∧ b ≠ ⊥) : a * b ≠ ⊤ ∧ a * b ≠ ⊥ := by
  lift a to ℝ using ha
  lift b to ℝ using hb
  rw [← EReal.coe_mul]
  exact ⟨EReal.coe_ne_top _, EReal.coe_ne_bot _⟩

/-- A finite sum of reals is a real. -/
theorem sum_real {ι : Type*} (t : Finset ι) (f : ι → EReal) (hf : ∀ k, f k ≠ ⊤ ∧ f k ≠ ⊥) :
    (∑ k ∈ t, f k) ≠ ⊤ ∧ (∑ k ∈ t, f k) ≠ ⊥ := by
  lift f to ι → ℝ using hf
  rw [← coe_finset_sum]
  exact ⟨EReal.coe_ne_top _, EReal.coe_ne_bot _⟩

/-- A real scalar comes out of a finite sum of products of reals:
    sum over k of a k * (c * b k) = c * sum over k of a k * b k. -/
theorem sum_mul_scalar {ι : Type*} (t : Finset ι) (a b : ι → EReal) (c : EReal)
    (ha : ∀ k, a k ≠ ⊤ ∧ a k ≠ ⊥) (hb : ∀ k, b k ≠ ⊤ ∧ b k ≠ ⊥) (hc : c ≠ ⊤ ∧ c ≠ ⊥) :
    ∑ k ∈ t, a k * (c * b k) = c * ∑ k ∈ t, a k * b k := by
  lift a to ι → ℝ using ha
  lift b to ι → ℝ using hb
  lift c to ℝ using hc
  -- every term is now the image of a real; move the coercion outside and compute in ℝ
  simp only [← EReal.coe_mul, ← coe_finset_sum]
  rw [Finset.mul_sum]
  congr 1
  apply Finset.sum_congr rfl
  intro k _
  ring

/-! ## The 128 laid-out columns in four runs -/

/-- A sum over 128 indices is the sum over its first three runs of sixteen and its last eighty. -/
theorem sum_fin128 {M : Type*} [AddCommMonoid M] (f : Fin 128 → M) :
    ∑ r : Fin 128, f r =
      (∑ r : Fin 16, f ⟨r.val, by omega⟩) + ((∑ r : Fin 16, f ⟨16 + r.val, by omega⟩)
        + ((∑ r : Fin 16, f ⟨32 + r.val, by omega⟩) + ∑ r : Fin 80, f ⟨48 + r.val, by omega⟩)) := by
  -- 128 = 16 + (16 + (16 + 80)), and a sum over Fin (m + n) is the sum over Fin m plus the sum over Fin n
  have h : ∑ r : Fin (16 + (16 + (16 + 80))), f r = ∑ r : Fin 128, f r := rfl
  rw [← h, Fin.sum_univ_add, Fin.sum_univ_add, Fin.sum_univ_add]
  rfl

/-! ## The laid-out arrays read on each run -/

/-- Columns 0 to 15 of the laid-out down-projection are the query adapter's rows. -/
theorem downCat_run0 (Aq Ak Av : (⟨2, ![16, 1024]⟩ : Shape).Idx → EReal) (d : Fin 1024) (r : Fin 16) :
    downCat Aq Ak Av d ⟨r.val, by omega⟩ = Aq (ix2 r d) := by
  have h : r.val < 16 := r.isLt
  unfold downCat
  rw [dif_pos h]

/-- Columns 16 to 31 of the laid-out down-projection are the key adapter's rows. -/
theorem downCat_run1 (Aq Ak Av : (⟨2, ![16, 1024]⟩ : Shape).Idx → EReal) (d : Fin 1024) (r : Fin 16) :
    downCat Aq Ak Av d ⟨16 + r.val, by omega⟩ = Ak (ix2 r d) := by
  have h1 : ¬ (16 + r.val < 16) := by omega
  have h2 : 16 + r.val < 32 := by omega
  have hr : (⟨16 + r.val - 16, by omega⟩ : Fin 16) = r := Fin.ext (by show 16 + r.val - 16 = r.val; omega)
  unfold downCat
  rw [dif_neg h1, dif_pos h2, hr]

/-- Columns 32 to 47 of the laid-out down-projection are the value adapter's rows. -/
theorem downCat_run2 (Aq Ak Av : (⟨2, ![16, 1024]⟩ : Shape).Idx → EReal) (d : Fin 1024) (r : Fin 16) :
    downCat Aq Ak Av d ⟨32 + r.val, by omega⟩ = Av (ix2 r d) := by
  have h1 : ¬ (32 + r.val < 16) := by omega
  have h2 : ¬ (32 + r.val < 32) := by omega
  have h3 : 32 + r.val < 48 := by omega
  have hr : (⟨32 + r.val - 32, by omega⟩ : Fin 16) = r := Fin.ext (by show 32 + r.val - 32 = r.val; omega)
  unfold downCat
  rw [dif_neg h1, dif_neg h2, dif_pos h3, hr]

/-- Columns 48 to 127 of the laid-out down-projection are zero. -/
theorem downCat_pad (Aq Ak Av : (⟨2, ![16, 1024]⟩ : Shape).Idx → EReal) (d : Fin 1024) (r : Fin 80) :
    downCat Aq Ak Av d ⟨48 + r.val, by omega⟩ = 0 := by
  have h1 : ¬ (48 + r.val < 16) := by omega
  have h2 : ¬ (48 + r.val < 32) := by omega
  have h3 : ¬ (48 + r.val < 48) := by omega
  unfold downCat
  rw [dif_neg h1, dif_neg h2, dif_neg h3]

/-- Rows 0 to 15 of the laid-out up-projection: alpha times the query adapter on the first slice, zero elsewhere. -/
theorem upDiag_run0 (α : EReal) (Bq Bk Bv : (⟨2, ![1024, 16]⟩ : Shape).Idx → EReal) (r : Fin 16) (o : Fin 3072) :
    upDiag α Bq Bk Bv ⟨r.val, by omega⟩ o = α * (if g : o.val < 1024 then Bq (ix2 ⟨o.val, g⟩ r) else 0) := by
  have h : r.val < 16 := r.isLt
  unfold upDiag
  rw [dif_pos h]

/-- Rows 16 to 31 of the laid-out up-projection: alpha times the key adapter on the second slice, zero elsewhere. -/
theorem upDiag_run1 (α : EReal) (Bq Bk Bv : (⟨2, ![1024, 16]⟩ : Shape).Idx → EReal) (r : Fin 16) (o : Fin 3072) :
    upDiag α Bq Bk Bv ⟨16 + r.val, by omega⟩ o
      = α * (if g : 1024 ≤ o.val ∧ o.val < 2048 then Bk (ix2 ⟨o.val - 1024, by omega⟩ r) else 0) := by
  have h1 : ¬ (16 + r.val < 16) := by omega
  have h2 : 16 + r.val < 32 := by omega
  have hr : (⟨16 + r.val - 16, by omega⟩ : Fin 16) = r := Fin.ext (by show 16 + r.val - 16 = r.val; omega)
  unfold upDiag
  rw [dif_neg h1, dif_pos h2, hr]

/-- Rows 32 to 47 of the laid-out up-projection: alpha times the value adapter on the third slice, zero elsewhere. -/
theorem upDiag_run2 (α : EReal) (Bq Bk Bv : (⟨2, ![1024, 16]⟩ : Shape).Idx → EReal) (r : Fin 16) (o : Fin 3072) :
    upDiag α Bq Bk Bv ⟨32 + r.val, by omega⟩ o
      = α * (if g : 2048 ≤ o.val then Bv (ix2 ⟨o.val - 2048, by omega⟩ r) else 0) := by
  have h1 : ¬ (32 + r.val < 16) := by omega
  have h2 : ¬ (32 + r.val < 32) := by omega
  have h3 : 32 + r.val < 48 := by omega
  have hr : (⟨32 + r.val - 32, by omega⟩ : Fin 16) = r := Fin.ext (by show 32 + r.val - 32 = r.val; omega)
  unfold upDiag
  rw [dif_neg h1, dif_neg h2, dif_pos h3, hr]

/-- Rows 48 to 127 of the laid-out up-projection are zero. -/
theorem upDiag_pad (α : EReal) (Bq Bk Bv : (⟨2, ![1024, 16]⟩ : Shape).Idx → EReal) (r : Fin 80) (o : Fin 3072) :
    upDiag α Bq Bk Bv ⟨48 + r.val, by omega⟩ o = 0 := by
  have h1 : ¬ (48 + r.val < 16) := by omega
  have h2 : ¬ (48 + r.val < 32) := by omega
  have h3 : ¬ (48 + r.val < 48) := by omega
  unfold upDiag
  rw [dif_neg h1, dif_neg h2, dif_neg h3]

/-! ## One adapter's run -/

/-- The intermediate value of one adapter, sum over d of x[i,s,d] * A[r,d], is a real. -/
theorem down_real (x : (⟨3, ![2, 4096, 1024]⟩ : Shape).Idx → EReal) (A : (⟨2, ![16, 1024]⟩ : Shape).Idx → EReal)
    (hx : AllReal x) (hA : AllReal A) (i : Fin 2) (s : Fin 4096) (r : Fin 16) :
    (∑ d : Fin 1024, x (ix3 i s d) * A (ix2 r d)) ≠ ⊤ ∧ (∑ d : Fin 1024, x (ix3 i s d) * A (ix2 r d)) ≠ ⊥ :=
  sum_real Finset.univ (fun d => x (ix3 i s d) * A (ix2 r d)) (fun d => mul_real (hx (ix3 i s d)) (hA (ix2 r d)))

/-- On the run that meets its own block, the scalar comes out and what is left is the adapter's contribution:
    sum over r of xa r * (c * B[e, r]) = c * delta. -/
theorem run_eq_delta (x : (⟨3, ![2, 4096, 1024]⟩ : Shape).Idx → EReal) (A : (⟨2, ![16, 1024]⟩ : Shape).Idx → EReal)
    (B : (⟨2, ![1024, 16]⟩ : Shape).Idx → EReal) (c : EReal)
    (hx : AllReal x) (hA : AllReal A) (hB : AllReal B) (hc : c ≠ ⊤ ∧ c ≠ ⊥) (i : Fin 2) (s : Fin 4096) (e : Fin 1024) :
    ∑ r : Fin 16, (∑ d : Fin 1024, x (ix3 i s d) * A (ix2 r d)) * (c * B (ix2 e r)) = c * delta x A B i s e := by
  unfold delta
  exact sum_mul_scalar Finset.univ (fun r : Fin 16 => ∑ d : Fin 1024, x (ix3 i s d) * A (ix2 r d))
    (fun r : Fin 16 => B (ix2 e r)) c (fun r => down_real x A hx hA i s r) (fun r => hB (ix2 e r)) hc

/-- A run that meets only zeros of the block diagonal contributes nothing (no finiteness is needed). -/
theorem run_zero {ι : Type*} (t : Finset ι) (a : ι → EReal) (c : EReal) : ∑ k ∈ t, a k * (c * 0) = 0 := by
  simp only [mul_zero, Finset.sum_const_zero]

/-! ## The contraction against the laid-out arrays -/

/-- Contracting the activations against the laid-out down-projection and then against the laid-out up-projection
    gives alpha times the adapters' contribution at that column. -/
theorem contraction_eq (x : (⟨3, ![2, 4096, 1024]⟩ : Shape).Idx → EReal)
    (Aq : (⟨2, ![16, 1024]⟩ : Shape).Idx → EReal) (Bq : (⟨2, ![1024, 16]⟩ : Shape).Idx → EReal)
    (Ak : (⟨2, ![16, 1024]⟩ : Shape).Idx → EReal) (Bk : (⟨2, ![1024, 16]⟩ : Shape).Idx → EReal)
    (Av : (⟨2, ![16, 1024]⟩ : Shape).Idx → EReal) (Bv : (⟨2, ![1024, 16]⟩ : Shape).Idx → EReal)
    (c : EReal)
    (hx : AllReal x) (hAq : AllReal Aq) (hBq : AllReal Bq) (hAk : AllReal Ak) (hBk : AllReal Bk)
    (hAv : AllReal Av) (hBv : AllReal Bv) (hc : c ≠ ⊤ ∧ c ≠ ⊥) (i : Fin 2) (s : Fin 4096) (o : Fin 3072) :
    ∑ r : Fin 128, (∑ d : Fin 1024, x (ix3 i s d) * downCat Aq Ak Av d r) * upDiag c Bq Bk Bv r o
      = c * deltaCat x Aq Bq Ak Bk Av Bv i s o := by
  -- the four runs, each with the laid-out arrays read back as adapter entries
  rw [sum_fin128]
  simp only [downCat_run0, downCat_run1, downCat_run2, downCat_pad, upDiag_run0, upDiag_run1, upDiag_run2, upDiag_pad]
  -- the padding: every term is (something) * 0
  have hpad : (∑ r : Fin 80, (∑ d : Fin 1024, x (ix3 i s d) * (0 : EReal)) * (0 : EReal)) = 0 := by
    simp only [mul_zero, Finset.sum_const_zero]
  rw [hpad, add_zero]
  unfold deltaCat
  -- the column lies in one of the three slices
  by_cases h1 : o.val < 1024
  · -- first slice: only the first run meets its block
    have n2 : ¬ (1024 ≤ o.val ∧ o.val < 2048) := by omega
    have n3 : ¬ (2048 ≤ o.val) := by omega
    simp only [dif_pos h1, dif_neg n2, dif_neg n3]
    rw [run_zero, run_zero, add_zero, add_zero]
    exact run_eq_delta x Aq Bq c hx hAq hBq hc i s ⟨o.val, h1⟩
  · by_cases h2 : o.val < 2048
    · -- second slice: only the second run meets its block
      have p2 : 1024 ≤ o.val ∧ o.val < 2048 := ⟨by omega, h2⟩
      have n3 : ¬ (2048 ≤ o.val) := by omega
      simp only [dif_neg h1, dif_pos h2, dif_pos p2, dif_neg n3]
      rw [run_zero, run_zero, add_zero, zero_add]
      exact run_eq_delta x Ak Bk c hx hAk hBk hc i s ⟨o.val - 1024, by omega⟩
    · -- third slice: only the third run meets its block
      have n2 : ¬ (1024 ≤ o.val ∧ o.val < 2048) := by omega
      have p3 : 2048 ≤ o.val := by omega
      simp only [dif_neg h1, dif_neg h2, dif_neg n2, dif_pos p3]
      rw [run_zero, run_zero, zero_add, zero_add]
      exact run_eq_delta x Av Bv c hx hAv hBv hc i s ⟨o.val - 2048, by omega⟩

/-! ## The statement -/

/-- On real entries, contracting against the two laid-out weight arrays gives alpha times the adapters' contribution,
    and the bias may be added before or after it. -/
theorem fused_eq_qkv (x : (⟨3, ![2, 4096, 1024]⟩ : Shape).Idx → EReal) (W : (⟨2, ![3072, 1024]⟩ : Shape).Idx → EReal)
    (b : (⟨1, ![3072]⟩ : Shape).Idx → EReal)
    (Aq : (⟨2, ![16, 1024]⟩ : Shape).Idx → EReal) (Bq : (⟨2, ![1024, 16]⟩ : Shape).Idx → EReal)
    (Ak : (⟨2, ![16, 1024]⟩ : Shape).Idx → EReal) (Bk : (⟨2, ![1024, 16]⟩ : Shape).Idx → EReal)
    (Av : (⟨2, ![16, 1024]⟩ : Shape).Idx → EReal) (Bv : (⟨2, ![1024, 16]⟩ : Shape).Idx → EReal)
    (α : (⟨0, ![]⟩ : Shape).Idx → EReal)
    (hx : AllReal x) (hW : AllReal W) (hb : AllReal b) (hAq : AllReal Aq) (hBq : AllReal Bq) (hAk : AllReal Ak) (hBk : AllReal Bk)
    (hAv : AllReal Av) (hBv : AllReal Bv) (hα : AllReal α) (i : Fin 2) (s : Fin 4096) (o : Fin 3072) :
    fused x W b Aq Bq Ak Bk Av Bv α i s o = qkv x W b Aq Bq Ak Bk Av Bv α i s o := by
  unfold fused qkv
  -- the adapters' part, then (p + l) + b = (p + b) + l
  rw [contraction_eq x Aq Bq Ak Bk Av Bv (α ix0) hx hAq hBq hAk hBk hAv hBv (hα ix0) i s o]
  exact add_right_comm _ _ _

end Cert.Lora

end
-- ==== Proof.RefIsQkv.lean ====
/-
  The reference program's result, index by index, is the projection with adapters.
-/
import proofs.«407729_j4681514353405_3_alg».proof.Proof.Gen.ReferenceIdeal.Read
import proofs.«407729_j4681514353405_3_alg».proof.Proof.LoraSpec

noncomputable section

open scoped BigOperators

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.Lora

/-! ## Indices by their coordinates -/

/-- A rank-3 index with the coordinates of `a`, `b`, `c` is `ix3 a b c`. -/
theorem eq_ix3_of_val {n0 n1 n2 : Nat} (f : (⟨3, ![n0, n1, n2]⟩ : Shape).Idx) (a : Fin n0) (b : Fin n1) (c : Fin n2)
    (h0 : (f 0).val = a.val) (h1 : (f 1).val = b.val) (h2 : (f 2).val = c.val) : f = ix3 a b c :=
  funext fun d => Fin.ext (by
    match d with
    | ⟨0, _⟩ => exact h0
    | ⟨1, _⟩ => exact h1
    | ⟨2, _⟩ => exact h2)

/-- A rank-2 index with the coordinates of `a`, `b` is `ix2 a b`. -/
theorem eq_ix2_of_val {n0 n1 : Nat} (f : (⟨2, ![n0, n1]⟩ : Shape).Idx) (a : Fin n0) (b : Fin n1)
    (h0 : (f 0).val = a.val) (h1 : (f 1).val = b.val) : f = ix2 a b :=
  funext fun d => Fin.ext (by
    match d with
    | ⟨0, _⟩ => exact h0
    | ⟨1, _⟩ => exact h1)

/-- A rank-1 index with the coordinate of `a` is `ix1 a`. -/
theorem eq_ix1_of_val {n0 : Nat} (f : (⟨1, ![n0]⟩ : Shape).Idx) (a : Fin n0) (h0 : (f 0).val = a.val) : f = ix1 a :=
  funext fun d => Fin.ext (by
    match d with
    | ⟨0, _⟩ => exact h0)

/-! ## The concatenation at an index -/

/-- The three adapters' results joined along the last axis, read at (i, s, o): the first below column 1024, the second
    from 1024 to below 2048 at column o - 1024, the third from 2048 on at column o - 2048. -/
theorem concat_at (x0 : (⟨S2x4096x1024, .f32⟩ : BufTy).Contents (Elt Ideal))
    (x3 : (⟨S16x1024, .f32⟩ : BufTy).Contents (Elt Ideal)) (x4 : (⟨S1024x16, .f32⟩ : BufTy).Contents (Elt Ideal))
    (x5 : (⟨S16x1024, .f32⟩ : BufTy).Contents (Elt Ideal)) (x6 : (⟨S1024x16, .f32⟩ : BufTy).Contents (Elt Ideal))
    (x7 : (⟨S16x1024, .f32⟩ : BufTy).Contents (Elt Ideal)) (x8 : (⟨S1024x16, .f32⟩ : BufTy).Contents (Elt Ideal))
    (i : Fin 2) (s : Fin 4096) (o : Fin 3072) :
    val_main_v10 (F := Ideal) x0 x3 x4 x5 x6 x7 x8 (ix3 i s o) =
      if h : o.val < 1024 then val_main_v5 (F := Ideal) x0 x3 x4 (ix3 i s ⟨o.val, h⟩)
      else if h2 : o.val < 2048 then val_main_v7 (F := Ideal) x0 x5 x6 (ix3 i s ⟨o.val - 1024, by omega⟩)
      else val_main_v9 (F := Ideal) x0 x7 x8 (ix3 i s ⟨o.val - 2048, by omega⟩) := by
  unfold val_main_v10
  by_cases h : o.val < 1024
  · rw [dif_pos h]
    refine concatenate_apply_piece (2 : Fin S2x4096x3072.rank) _ _ (ix3 i s o) 0 ?_ S2x4096x1024 _ rfl rfl 0 rfl
      (ix3 i s ⟨o.val, h⟩) ?_ ?_
    · show 0 < 3
      omega
    · intro b hb
      match b, hb with
      | ⟨0, _⟩, _ => rfl
      | ⟨1, _⟩, _ => rfl
      | ⟨2, _⟩, hb => exact absurd rfl hb
    · show 0 + o.val = o.val
      omega
  · rw [dif_neg h]
    by_cases h2 : o.val < 2048
    · rw [dif_pos h2]
      refine concatenate_apply_piece (2 : Fin S2x4096x3072.rank) _ _ (ix3 i s o) 1 ?_ S2x4096x1024 _ rfl rfl 1024 rfl
        (ix3 i s ⟨o.val - 1024, by omega⟩) ?_ ?_
      · show 1 < 3
        omega
      · intro b hb
        match b, hb with
        | ⟨0, _⟩, _ => rfl
        | ⟨1, _⟩, _ => rfl
        | ⟨2, _⟩, hb => exact absurd rfl hb
      · show 1024 + (o.val - 1024) = o.val
        omega
    · rw [dif_neg h2]
      have ho : o.val < 3072 := o.isLt
      refine concatenate_apply_piece (2 : Fin S2x4096x3072.rank) _ _ (ix3 i s o) 2 ?_ S2x4096x1024 _ rfl rfl 2048 rfl
        (ix3 i s ⟨o.val - 2048, by omega⟩) ?_ ?_
      · show 2 < 3
        omega
      · intro b hb
        match b, hb with
        | ⟨0, _⟩, _ => rfl
        | ⟨1, _⟩, _ => rfl
        | ⟨2, _⟩, hb => exact absurd rfl hb
      · show 2048 + (o.val - 2048) = o.val
        omega

/-! ## One adapter's two contractions -/

/-- An adapter's result at (i, s, e) — the contraction over the 1024 features against A, then over the 16 ranks
    against B — is `delta`. Stated for the first adapter's stages at any weights A, B. -/
theorem adapter_at (x0 : (⟨S2x4096x1024, .f32⟩ : BufTy).Contents (Elt Ideal))
    (A : (⟨S16x1024, .f32⟩ : BufTy).Contents (Elt Ideal)) (B : (⟨S1024x16, .f32⟩ : BufTy).Contents (Elt Ideal))
    (i : Fin 2) (s : Fin 4096) (e : Fin 1024) :
    val_main_v5 (F := Ideal) x0 A B (ix3 i s e) = delta x0 A B i s e := by
  rw [val_main_v5_apply]
  unfold delta
  refine Finset.sum_congr rfl fun r _ => ?_
  -- the outer contraction reads the inner result at (i, s, r) and B at (e, r)
  have hl : lidx_main_v5 (ix3 i s e) r = ix3 i s r := eq_ix3_of_val _ i s r rfl rfl rfl
  have hr : ridx_main_v5 (ix3 i s e) r = ix2 e r := eq_ix2_of_val _ e r rfl rfl
  rw [hl, hr, val_main_v4_apply]
  -- the inner contraction reads x at (i, s, d) and A at (r, d)
  have hin : ∑ d : Fin 1024, x0 (lidx_main_v4 (ix3 i s r) d) * A (ridx_main_v4 (ix3 i s r) d)
      = ∑ d : Fin 1024, x0 (ix3 i s d) * A (ix2 r d) :=
    Finset.sum_congr rfl fun d _ => by
      rw [eq_ix3_of_val (lidx_main_v4 (ix3 i s r) d) i s d rfl rfl rfl,
        eq_ix2_of_val (ridx_main_v4 (ix3 i s r) d) r d rfl rfl]
  rw [hin]

/-- The second adapter's stage is the first's at the second's weights: the two are the same pair of contractions. -/
theorem val_main_v7_eq (x0 : (⟨S2x4096x1024, .f32⟩ : BufTy).Contents (Elt Ideal))
    (A : (⟨S16x1024, .f32⟩ : BufTy).Contents (Elt Ideal)) (B : (⟨S1024x16, .f32⟩ : BufTy).Contents (Elt Ideal)) :
    val_main_v7 (F := Ideal) x0 A B = val_main_v5 (F := Ideal) x0 A B := rfl

/-- The third adapter's stage is the first's at the third's weights. -/
theorem val_main_v9_eq (x0 : (⟨S2x4096x1024, .f32⟩ : BufTy).Contents (Elt Ideal))
    (A : (⟨S16x1024, .f32⟩ : BufTy).Contents (Elt Ideal)) (B : (⟨S1024x16, .f32⟩ : BufTy).Contents (Elt Ideal)) :
    val_main_v9 (F := Ideal) x0 A B = val_main_v5 (F := Ideal) x0 A B := rfl

/-- The joined array at (i, s, o) is the adapters' contribution at column o: slice o / 1024, local column o % 1024. -/
theorem concat_is_deltaCat (x0 : (⟨S2x4096x1024, .f32⟩ : BufTy).Contents (Elt Ideal))
    (x3 : (⟨S16x1024, .f32⟩ : BufTy).Contents (Elt Ideal)) (x4 : (⟨S1024x16, .f32⟩ : BufTy).Contents (Elt Ideal))
    (x5 : (⟨S16x1024, .f32⟩ : BufTy).Contents (Elt Ideal)) (x6 : (⟨S1024x16, .f32⟩ : BufTy).Contents (Elt Ideal))
    (x7 : (⟨S16x1024, .f32⟩ : BufTy).Contents (Elt Ideal)) (x8 : (⟨S1024x16, .f32⟩ : BufTy).Contents (Elt Ideal))
    (i : Fin 2) (s : Fin 4096) (o : Fin 3072) :
    val_main_v10 (F := Ideal) x0 x3 x4 x5 x6 x7 x8 (ix3 i s o) = deltaCat x0 x3 x4 x5 x6 x7 x8 i s o := by
  rw [concat_at]
  unfold deltaCat
  by_cases h : o.val < 1024
  · rw [dif_pos h, dif_pos h, adapter_at]
  · rw [dif_neg h, dif_neg h]
    by_cases h2 : o.val < 2048
    · rw [dif_pos h2, dif_pos h2, val_main_v7_eq, adapter_at]
    · rw [dif_neg h2, dif_neg h2, val_main_v9_eq, adapter_at]

/-! ## The last stage -/

/-- The reference's last stage at (i, s, o): base projection plus bias, plus alpha times the adapters' slice. -/
theorem ref_is_qkv (x0 : (⟨S2x4096x1024, .f32⟩ : BufTy).Contents (Elt Ideal)) (x1 : (⟨S3072x1024, .f32⟩ : BufTy).Contents (Elt Ideal))
    (x2 : (⟨S3072, .f32⟩ : BufTy).Contents (Elt Ideal)) (x3 : (⟨S16x1024, .f32⟩ : BufTy).Contents (Elt Ideal))
    (x4 : (⟨S1024x16, .f32⟩ : BufTy).Contents (Elt Ideal)) (x5 : (⟨S16x1024, .f32⟩ : BufTy).Contents (Elt Ideal))
    (x6 : (⟨S1024x16, .f32⟩ : BufTy).Contents (Elt Ideal)) (x7 : (⟨S16x1024, .f32⟩ : BufTy).Contents (Elt Ideal))
    (x8 : (⟨S1024x16, .f32⟩ : BufTy).Contents (Elt Ideal)) (x9 : (⟨S_, .f32⟩ : BufTy).Contents (Elt Ideal))
    (i : Fin 2) (s : Fin 4096) (o : Fin 3072) :
    val_main_v13 (F := Ideal) x0 x1 x2 x3 x4 x5 x6 x7 x8 x9 (ix3 i s o) = qkv x0 x1 x2 x3 x4 x5 x6 x7 x8 x9 i s o := by
  -- the last stage is (base + bias) + alpha-array * joined array, element by element
  rw [val_main_v13_apply, val_main_v3_apply, val_main_v12_apply, Ideal.addf_def, Ideal.addf_def, Ideal.mulf_def]
  -- the base contraction reads x at (i, s, d) and W at (o, d)
  have hbase : val_main_v0 (F := Ideal) x0 x1 (ix3 i s o) = ∑ d : Fin 1024, x0 (ix3 i s d) * x1 (ix2 o d) := by
    rw [val_main_v0_apply]
    refine Finset.sum_congr rfl fun d _ => ?_
    rw [eq_ix3_of_val (lidx_main_v0 (ix3 i s o) d) i s d rfl rfl rfl,
      eq_ix2_of_val (ridx_main_v0 (ix3 i s o) d) o d rfl rfl]
  -- the bias, broadcast twice, is read at column o
  have hbias : val_main_v2 (F := Ideal) x2 (ix3 i s o) = x2 (ix1 o) := by
    rw [val_main_v2_apply, val_main_v1_apply,
      eq_ix1_of_val (idx_main_v1 (idx_main_v2 (ix3 i s o))) o rfl]
  -- the scalar alpha, broadcast, is read at its one index
  have halpha : val_main_v11 (F := Ideal) x9 (ix3 i s o) = x9 ix0 := by
    rw [val_main_v11_apply]
  rw [hbase, hbias, halpha, concat_is_deltaCat]
  -- what is left is the definition of `qkv`, term for term
  rfl

end Cert.ReferenceIdeal.RefValue

end
-- ==== Proof.FiniteArgs.lean ====
/-
  Under the precondition every entry of every argument array is a real number.

  The precondition is one bit: the conjunction, over the ten arguments, of "every entry x of the argument has
  |x| < +∞", where |x| is max x (−x) and +∞ is given by its f32 bit pattern. Read back: the bit pattern denotes the
  top element of the extended reals; a conjunction that is 1 has every conjunct 1; a conjunction over all entries
  that is 1 has the comparison bit 1 at every entry; the comparison bit is 1 only when |x| < ⊤; and then x is
  neither ⊤ (whose absolute value is ⊤) nor ⊥ (whose negation is ⊤).
-/
import proofs.«407729_j4681514353405_3_alg».proof.Defs
import proofs.«407729_j4681514353405_3_alg».proof.Proof.Gen.KernelIdeal
import proofs.«407729_j4681514353405_3_alg».proof.Proof.Gen.Pre_finite_inputs
import proofs.«407729_j4681514353405_3_alg».proof.Proof.LoraSpec
import Idealize.ShloMosaic.Lib.ReduceAll

noncomputable section

namespace Cert.FiniteArgs

open Idealize.ShloMosaic Idealize.ShloMosaic.TcCoe Idealize.SL.Sem Cert.KernelIdeal Cert.Lora

/-- The f32 pattern whose exponent field is all ones and whose other bits are zero denotes +∞. -/
theorem ofBits_inf : Ideal.ofBits .f32 0x7F800000#32 = (⊤ : EReal) := by
  simp [Ideal.ofBits, Ideal.ieee]

/-- The pattern of +∞ held in a scalar and spread over any shape reads +∞ at every index. -/
theorem spread_inf {S : Shape} (hb : (⟨0, ![]⟩ : Shape).BroadcastsInDim S ![]) (j : S.Idx) :
    broadcastInDim S ![] hb (constant (F := Ideal) (⟨0, ![]⟩ : Shape) .f32 0x7F800000#32) j = (⊤ : EReal) := by
  show Ideal.ofBits .f32 0x7F800000#32 = (⊤ : EReal)
  exact ofBits_inf

/-- The pattern of +∞ held in a scalar reads +∞ at its one index. -/
theorem scalar_inf (j : (⟨0, ![]⟩ : Shape).Idx) :
    constant (F := Ideal) (⟨0, ![]⟩ : Shape) .f32 0x7F800000#32 j = (⊤ : EReal) := by
  show Ideal.ofBits .f32 0x7F800000#32 = (⊤ : EReal)
  exact ofBits_inf

/-- An extended real whose absolute value max x (−x) is below +∞ is neither infinity. -/
theorem real_of_abs_lt_top (x : EReal) (h : max x (-x) < ⊤) : x ≠ ⊤ ∧ x ≠ ⊥ := by
  -- both x and −x are below ⊤
  obtain ⟨h1, h2⟩ := max_lt_iff.1 h
  refine ⟨ne_of_lt h1, ?_⟩
  -- were x = ⊥, its negation would be ⊤, which is not below ⊤
  intro hx
  rw [hx, EReal.neg_bot] at h2
  exact lt_irrefl _ h2

/-- The bit of the ordered comparison a < b of two extended reals is 1 only when a < b holds. -/
theorem lt_of_cmp_olt (a b : EReal) (h : Ideal.cmp .olt a b = 1#1) : a < b := by
  by_cases hlt : a < b
  · exact hlt
  · -- otherwise the bit is 0, which is not 1
    exfalso
    have h0 : Ideal.cmp .olt a b = 0#1 := by
      show BitVec.ofBool (decide (a < b)) = 0#1
      rw [decide_eq_false hlt]
      rfl
    rw [h0] at h
    exact absurd h (by decide)

/-- If the conjunction over all entries of the bits |a j| < t j is 1 and every t j is +∞, every entry of a is real. -/
theorem allReal_of_all {S : Shape} {axes : List (Fin S.rank)} (a t : FVec Ideal S .f32) (ht : ∀ j, t j = (⊤ : EReal))
    (init : IVec (⟨0, ![]⟩ : Shape) 1) (hr : S.ReducesTo axes (⟨0, ![]⟩ : Shape)) (hu : 0 < (⟨0, ![]⟩ : Shape).numel)
    (e : Host.reduce IntOp.andi (cmpf .olt (Host.absf a) t) init hr hu ValueIdx.ix0 = 1#1) : AllReal (S := S) a := by
  -- the result shape has no axes, hence a single index: every entry of the operand is folded into it
  haveI : Subsingleton (⟨0, ![]⟩ : Shape).Idx := ⟨fun p q => funext fun d => d.elim0⟩
  intro j
  -- so the comparison bit at entry j is 1
  have hj : cmpf .olt (Host.absf a) t j = 1#1 := Host.reduce_andi_all _ init hr hu ValueIdx.ix0 e j
  -- that bit compares |a j| = max (a j) (−(a j)) with t j = ⊤
  have hlt : max (a j) (-(a j)) < t j := lt_of_cmp_olt _ _ hj
  rw [ht j] at hlt
  exact real_of_abs_lt_top (a j) hlt

/-- A conjunction of two one-bit scalars is 1 only when both are. -/
theorem both_of_andi (p q : IVec (⟨0, ![]⟩ : Shape) 1) (h : andi p q ValueIdx.ix0 = 1#1) :
    p ValueIdx.ix0 = 1#1 ∧ q ValueIdx.ix0 = 1#1 := IntOp.andi_eq_one.1 h

/-- The precondition says |entry| < +inf of every entry of the ten arguments: each is neither infinity. -/
theorem args_real (m : (ℓ : Loc nD τ sig) → Buf (Elt Ideal) ℓ)
    (h : Cert.Pre_KernelIdeal (hPre_finite_inputs := Cert.Pre_finite_inputs.Gen.facts) m) (c : Dev nD) :
    AllReal (S := S2x4096x1024) (m ((c.tc : Thread nD τ).loc main_arg0))
    ∧ AllReal (S := S3072x1024) (m ((c.tc : Thread nD τ).loc main_arg1))
    ∧ AllReal (S := S3072) (m ((c.tc : Thread nD τ).loc main_arg2))
    ∧ AllReal (S := S16x1024) (m ((c.tc : Thread nD τ).loc main_arg3))
    ∧ AllReal (S := S1024x16) (m ((c.tc : Thread nD τ).loc main_arg4))
    ∧ AllReal (S := S16x1024) (m ((c.tc : Thread nD τ).loc main_arg5))
    ∧ AllReal (S := S1024x16) (m ((c.tc : Thread nD τ).loc main_arg6))
    ∧ AllReal (S := S16x1024) (m ((c.tc : Thread nD τ).loc main_arg7))
    ∧ AllReal (S := S1024x16) (m ((c.tc : Thread nD τ).loc main_arg8))
    ∧ AllReal (S := S_) (m ((c.tc : Thread nD τ).loc main_arg9)) := by
  -- the precondition on this device, read at the one index of its scalar result
  have h0 := congrFun (h c) ValueIdx.ix0
  dsimp only [Cert.Pre_finite_inputs.fn, Cert.Pre_finite_inputs.fn_part1, Cert.Pre_finite_inputs.fn_part2] at h0
  -- it is a conjunction of ten bits, nested to the left: take them off from the last to the first
  obtain ⟨h8, e9⟩ := both_of_andi _ _ h0
  obtain ⟨h7, e8⟩ := both_of_andi _ _ h8
  obtain ⟨h6, e7⟩ := both_of_andi _ _ h7
  obtain ⟨h5, e6⟩ := both_of_andi _ _ h6
  obtain ⟨h4, e5⟩ := both_of_andi _ _ h5
  obtain ⟨h3, e4⟩ := both_of_andi _ _ h4
  obtain ⟨h2, e3⟩ := both_of_andi _ _ h3
  obtain ⟨h1, e2⟩ := both_of_andi _ _ h2
  obtain ⟨e0, e1⟩ := both_of_andi _ _ h1
  -- each bit is the conjunction over one argument's entries of |entry| < +∞; the scalar argument compares
  -- with the scalar +∞ itself, the others with +∞ spread over their shape
  exact ⟨allReal_of_all _ _ (spread_inf _) _ _ _ e0,
    allReal_of_all _ _ (spread_inf _) _ _ _ e1,
    allReal_of_all _ _ (spread_inf _) _ _ _ e2,
    allReal_of_all _ _ (spread_inf _) _ _ _ e3,
    allReal_of_all _ _ (spread_inf _) _ _ _ e4,
    allReal_of_all _ _ (spread_inf _) _ _ _ e5,
    allReal_of_all _ _ (spread_inf _) _ _ _ e6,
    allReal_of_all _ _ (spread_inf _) _ _ _ e7,
    allReal_of_all _ _ (spread_inf _) _ _ _ e8,
    allReal_of_all _ _ scalar_inf _ _ _ e9⟩

end Cert.FiniteArgs

end
-- ==== Proof.lean ====
/-
  The certificate of the fused projection with low-rank adapters.

  The kernel's program flattens the activations to 8192 rows, lays the projection matrix and the three adapters out as
  four weight arrays (the matrix transposed; the down-projections side by side with zero columns behind; the
  up-projections on a block diagonal scaled by alpha with zero rows behind; the bias as a row), runs one region of sixteen
  tiles of 512 rows, each computing  (x · W' + (x · A') · B') + bias , and regroups the rows.  The reference computes
  (x · Wᵀ + b) + alpha * [ (x · A_qᵀ) · B_qᵀ , (x · A_kᵀ) · B_kᵀ , (x · A_vᵀ) · B_vᵀ ] .

  Frames: both kernel programs run to the end and leave the ten arguments as launched (the run around the region, for
  the word-level program and for the idealized one); the reference's run is its generated list of host operations.
  The idealization rewrote nothing, so there is nothing to preserve.
  Values: at row (i, s) and column o both results are `qkv`.  For the reference that is its operations read one by one.
  For the kernel the result entry is `cell` of the arrays the region finds; those arrays, read entry by entry, turn it into
  the fused form over the arguments; and the fused form is `qkv` because, on a column of slice j, the contraction over the
  128 laid-out rows meets nonzero entries only in block j, where alpha comes out of the sum — which needs every entry to
  be a real, as the precondition says.
-/
import proofs.«407729_j4681514353405_3_alg».proof.Defs
import proofs.«407729_j4681514353405_3_alg».proof.Proof.Gen.Kernel
import proofs.«407729_j4681514353405_3_alg».proof.Proof.Gen.Kernel.Skeleton
import proofs.«407729_j4681514353405_3_alg».proof.Proof.Gen.Kernel.Launch
import proofs.«407729_j4681514353405_3_alg».proof.Proof.Gen.Kernel.Points
import proofs.«407729_j4681514353405_3_alg».proof.Proof.Gen.KernelIdeal
import proofs.«407729_j4681514353405_3_alg».proof.Proof.Gen.KernelIdeal.Skeleton
import proofs.«407729_j4681514353405_3_alg».proof.Proof.Gen.KernelIdeal.Launch
import proofs.«407729_j4681514353405_3_alg».proof.Proof.Gen.KernelIdeal.Points
import proofs.«407729_j4681514353405_3_alg».proof.Proof.Gen.ReferenceIdeal
import proofs.«407729_j4681514353405_3_alg».proof.Proof.Gen.ReferenceIdeal.Run
import proofs.«407729_j4681514353405_3_alg».proof.Proof.Gen.ReferenceIdeal.Read
import proofs.«407729_j4681514353405_3_alg».proof.Proof.Gen.Pre_finite_inputs
import proofs.«407729_j4681514353405_3_alg».proof.Proof.AroundIdeal
import proofs.«407729_j4681514353405_3_alg».proof.Proof.AroundBits
import proofs.«407729_j4681514353405_3_alg».proof.Proof.Tiles
import proofs.«407729_j4681514353405_3_alg».proof.Proof.Weights
import proofs.«407729_j4681514353405_3_alg».proof.Proof.UpWeights
import proofs.«407729_j4681514353405_3_alg».proof.Proof.LoraLaw
import proofs.«407729_j4681514353405_3_alg».proof.Proof.RefIsQkv
import proofs.«407729_j4681514353405_3_alg».proof.Proof.FiniteArgs
import Idealize.ShloMosaic.Adequacy
import Idealize.ShloMosaic.Init

noncomputable section

namespace Cert.Proof

open Idealize.ShloMosaic Idealize.ShloMosaic.TcCoe Idealize.SL.Sem Idealize.ShloMosaic.ValueIdx

/-! ## The kernel's result entry is `qkv` of the arguments -/

/-- Under the precondition, entry (i, s, o) of the kernel program's result is the projection with adapters of its
    arguments: the region's arrays read back to the arguments give the fused form, and the fused form is `qkv` on reals. -/
theorem kernel_is_qkv (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD)
    (i : Fin 2) (s : Fin 4096) (o : Fin 3072) :
    Cert.KernelIdeal.Tiles.result m c (ix3 i s o)
      = Cert.Lora.qkv (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9)) i s o := by
  obtain ⟨h0, h1, h2, h3, h4, h5, h6, h7, h8, h9⟩ := Cert.FiniteArgs.args_real m hpre c
  rw [Cert.KernelIdeal.Tiles.result_at]
  refine Eq.trans ?_ (Cert.Lora.fused_eq_qkv _ _ _ _ _ _ _ _ _ _ h0 h1 h2 h3 h4 h5 h6 h7 h8 h9 i s o)
  unfold Cert.KernelIdeal.Tiles.cell Cert.Lora.fused
  have e1 : ∀ d : Fin 1024, Cert.KernelIdeal.Tiles.actsIn m c (ix2 (⟨4096 * i.val + s.val, by omega⟩ : Fin 8192) d)
      = m ((c.tc : Thread Cert.KernelIdeal.nD Cert.KernelIdeal.τ).loc Cert.KernelIdeal.main_arg0) (ix3 i s d) :=
    fun d => Cert.KernelIdeal.Weights.acts_at m c i s d
  have e2 : ∀ d : Fin 1024, Cert.KernelIdeal.Tiles.projIn m c (ix2 d o)
      = m ((c.tc : Thread Cert.KernelIdeal.nD Cert.KernelIdeal.τ).loc Cert.KernelIdeal.main_arg1) (ix2 o d) :=
    fun d => Cert.KernelIdeal.Weights.proj_at m c d o
  have e3 : ∀ (d : Fin 1024) (r : Fin 128), Cert.KernelIdeal.Tiles.downIn m c (ix2 d r)
      = Cert.Lora.downCat (m ((c.tc : Thread Cert.KernelIdeal.nD Cert.KernelIdeal.τ).loc Cert.KernelIdeal.main_arg3))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg7)) d r :=
    fun d r => Cert.KernelIdeal.Weights.down_at m c d r
  have e4 : ∀ r : Fin 128, Cert.KernelIdeal.Tiles.upIn m c (ix2 r o)
      = Cert.Lora.upDiag (m ((c.tc : Thread Cert.KernelIdeal.nD Cert.KernelIdeal.τ).loc Cert.KernelIdeal.main_arg9) ix0)
          (m ((c.tc : Thread Cert.KernelIdeal.nD Cert.KernelIdeal.τ).loc Cert.KernelIdeal.main_arg4))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg8)) r o :=
    fun r => Cert.KernelIdeal.UpWeights.up_at m c r o
  have e5 : Cert.KernelIdeal.Tiles.biasIn m c (ix2 (0 : Fin 1) o)
      = m ((c.tc : Thread Cert.KernelIdeal.nD Cert.KernelIdeal.τ).loc Cert.KernelIdeal.main_arg2) (ix1 o) :=
    Cert.KernelIdeal.Weights.bias_at m c o
  simp only [e1, e2, e3, e4, e5]

/-! ## The claims -/

theorem frame_k : Cert.frame_Kernel (hKernel := Cert.Kernel.Gen.facts) (hPre_finite_inputs := Cert.Pre_finite_inputs.Gen.facts) :=
  fun m ρ _ => Cert.Kernel.Around.args_kept (F := Bits) m ρ

theorem frame_ki : Cert.frame_KernelIdeal (hKernelIdeal := Cert.KernelIdeal.Gen.facts) (hPre_finite_inputs := Cert.Pre_finite_inputs.Gen.facts) :=
  fun m ρ _ => Cert.KernelIdeal.Around.args_kept (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization's ledger is empty. -/
theorem preserves : Cert.preserves_Kernel_KernelIdeal := trivial

/-- Both idealized programs end with the result at the kernel's `result`: the kernel by its run, the reference because
    its last stage and the kernel's result are `qkv` of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Tiles.result m c, Cert.KernelIdeal.Tiles.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq]
  funext j
  obtain ⟨i, s, o, rfl⟩ : ∃ (i : Fin 2) (s : Fin 4096) (o : Fin 3072), j = ix3 i s o := ⟨j 0, j 1, j 2, eq_ix3 j⟩
  obtain ⟨a0, a1, a2, a3, a4, a5, a6, a7, a8, a9⟩ := hagree c
  rw [Cert.ReferenceIdeal.RefValue.ref_is_qkv, a0, a1, a2, a3, a4, a5, a6, a7, a8, a9]
  exact (kernel_is_qkv m hpre c i s o).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
